-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S600000x128 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S2000x128 : Shape := ⟨2, ![2000, 128]⟩

abbrev nBuf : Space → Nat
  | .hbm => 51
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S50000x128, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg9_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem9_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v21_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v21_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S1x600000, .i32⟩
  | 14 => ⟨S600000, .i32⟩
  | 15 => ⟨S_, .f32⟩
  | 16 => ⟨S50000x128, .f32⟩
  | 17 => ⟨S600000x1, .i32⟩
  | 18 => ⟨S50000x128, .f32⟩
  | 19 => ⟨S50000x256, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_cst_3 : Ref sig .tc := ⟨.hbm, 55, rfl⟩
abbrev main_call1_v12 : Ref sig .tc := ⟨.hbm, 56, rfl⟩
abbrev main_call1_cst_4 : Ref sig .tc := ⟨.hbm, 57, rfl⟩
abbrev main_call1_call0_v0 : Ref sig .tc := ⟨.hbm, 58, rfl⟩
abbrev main_call1_call0_v1 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_cst_2 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v34 : Ref sig .tc := ⟨.hbm, 89, rfl⟩
abbrev main_cst_3 : Ref sig .tc := ⟨.hbm, 90, rfl⟩
abbrev main_v35 : Ref sig .tc := ⟨.hbm, 91, rfl⟩
abbrev main_cst_4 : Ref sig .tc := ⟨.hbm, 92, rfl⟩
abbrev main_v36 : Ref sig .tc := ⟨.hbm, 93, rfl⟩
abbrev main_v37 : Ref sig .tc := ⟨.hbm, 94, rfl⟩
abbrev main_c_5 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_cst_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_cst_1 : Ref sig .tc := ⟨.hbm, 106, rfl⟩
abbrev main_call3_v8 : Ref sig .tc := ⟨.hbm, 107, rfl⟩
abbrev main_call3_cst_2 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_cst_3 : Ref sig .tc := ⟨.hbm, 112, rfl⟩
abbrev main_call3_v12 : Ref sig .tc := ⟨.hbm, 113, rfl⟩
abbrev main_call3_cst_4 : Ref sig .tc := ⟨.hbm, 114, rfl⟩
abbrev main_call3_call0_v0 : Ref sig .tc := ⟨.hbm, 115, rfl⟩
abbrev main_call3_call0_v1 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_cst_6 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics of the two programs, over plain functions of a row and a feature coordinate into the extended reals.

  A node model: three linear layers, the first two followed by silu and a batch normalization over the rows.
  outK is the arrangement in which the statistics of a layer are (sum h) / n and (sum h^2) / n - mean^2, the first
  layer's product split over the two halves of its weight; outR is the arrangement in which the variance is
  (sum (h - mean)^2) / (n - c) guarded by n - c > 0, each sum started from an initial value, and the first layer's
  weight whole. On real entries, with n the number of rows as a real, c = 0, initial values 0 and a positive real
  eps, the two are the same function (outR_eq_outK): the variance identity sum (h - mu)^2 = sum h^2 - n mu^2 holds
  over the reals, and every intermediate value stays real because a variance is non-negative and eps is positive.
-/
import Idealize.ShloMosaic.PureOps.Ideal

noncomputable section

namespace Cert.Spec

open Idealize.ShloMosaic

variable {n k d : ℕ}

/-- An array all of whose entries are real numbers. -/
def IsReal2 {a b : ℕ} (H : Fin a → Fin b → EReal) : Prop := ∀ p q, ∃ r : ℝ, H p q = (r : EReal)
/-- A vector all of whose entries are real numbers. -/
def IsReal1 {a : ℕ} (v : Fin a → EReal) : Prop := ∀ q, ∃ r : ℝ, v q = (r : EReal)

/-- z times logistic z. -/
def silu (z : EReal) : EReal := z * Ideal.logistic z

/-- A linear layer: (sum over κ of H p κ * W κ q) + b q. -/
def lin (H : Fin n → Fin k → EReal) (W : Fin k → Fin d → EReal) (b : Fin d → EReal) : Fin n → Fin d → EReal :=
  fun p q => (∑ κ, H p κ * W κ q) + b q

/-- The first layer with its weight in two halves: ((sum X p κ * Wa κ q) + (sum A p κ * Wb κ q)) + b q. -/
def lin2 (X A : Fin n → Fin k → EReal) (Wa Wb : Fin k → Fin d → EReal) (b : Fin d → EReal) : Fin n → Fin d → EReal :=
  fun p q => ((∑ κ, X p κ * Wa κ q) + (∑ κ, A p κ * Wb κ q)) + b q

/-- The first layer over the rows [X p | A p] against the whole weight. -/
def linCat (X A : Fin n → Fin k → EReal) (W : Fin (k + k) → Fin d → EReal) (b : Fin d → EReal) : Fin n → Fin d → EReal :=
  fun p q => (∑ κ : Fin (k + k), Fin.addCases (X p) (A p) κ * W κ q) + b q

/-- Column sums. -/
def colsum (H : Fin n → Fin d → EReal) : Fin d → EReal := fun q => ∑ p, H p q
/-- Column sums of squares. -/
def colsumsq (H : Fin n → Fin d → EReal) : Fin d → EReal := fun q => ∑ p, H p q * H p q

/-- The mean as (sum h) / n. -/
def meanK (cN : EReal) (H : Fin n → Fin d → EReal) : Fin d → EReal := fun q => Ideal.div (colsum H q) cN
/-- The variance as (sum h^2) / n - mean^2. -/
def varK (cN : EReal) (H : Fin n → Fin d → EReal) : Fin d → EReal :=
  fun q => Ideal.div (colsumsq H q) cN - meanK cN H q * meanK cN H q

/-- The mean as (z0 + sum h) / n. -/
def meanR (z0 cN : EReal) (H : Fin n → Fin d → EReal) : Fin d → EReal := fun q => Ideal.div (z0 + colsum H q) cN
/-- The variance as (z0 + sum (h - mean)^2) / (n - c) where n - c > 0, else nan. -/
def varR (z0 cN cI nan : EReal) (H : Fin n → Fin d → EReal) : Fin d → EReal :=
  fun q => if (0 : EReal) < cN - cI then
      Ideal.div (z0 + ∑ p, (H p q - meanR z0 cN H q) * (H p q - meanR z0 cN H q)) (cN - cI)
    else nan

/-- Normalization: ((h - mu) * rsqrt (v + eps)) * g + be. -/
def bn (H : Fin n → Fin d → EReal) (μ v : Fin d → EReal) (eps : EReal) (g be : Fin d → EReal) : Fin n → Fin d → EReal :=
  fun p q => ((H p q - μ q) * Ideal.rsqrt (v q + eps)) * g q + be q

/-- silu entry by entry. -/
def act (Z : Fin n → Fin d → EReal) : Fin n → Fin d → EReal := fun p q => silu (Z p q)

/-- The first arrangement. -/
def outK (cN eps : EReal) (X A : Fin n → Fin d → EReal) (W1a W1b : Fin d → Fin d → EReal) (b1 g1 be1 : Fin d → EReal)
    (W2 : Fin d → Fin d → EReal) (b2 g2 be2 : Fin d → EReal) (W3 : Fin d → Fin d → EReal) (b3 : Fin d → EReal) :
    Fin n → Fin d → EReal :=
  let h1 := act (lin2 X A W1a W1b b1)
  let h2 := act (lin (bn h1 (meanK cN h1) (varK cN h1) eps g1 be1) W2 b2)
  lin (bn h2 (meanK cN h2) (varK cN h2) eps g2 be2) W3 b3

/-- The second arrangement. -/
def outR (z0 cN cI nan eps : EReal) (X A : Fin n → Fin d → EReal) (W1 : Fin (d + d) → Fin d → EReal) (b1 g1 be1 : Fin d → EReal)
    (W2 : Fin d → Fin d → EReal) (b2 g2 be2 : Fin d → EReal) (W3 : Fin d → Fin d → EReal) (b3 : Fin d → EReal) :
    Fin n → Fin d → EReal :=
  let h1 := act (linCat X A W1 b1)
  let h2 := act (lin (bn h1 (meanR z0 cN h1) (varR z0 cN cI nan h1) eps g1 be1) W2 b2)
  lin (bn h2 (meanR z0 cN h2) (varR z0 cN cI nan h2) eps g2 be2) W3 b3

/-! ### Real entries -/

/-- The coercion of a finite sum of reals is the sum of the coercions. -/
theorem coe_sum {ι : Type} (s : Finset ι) (f : ι → ℝ) :
    ((Finset.sum s f : ℝ) : EReal) = Finset.sum s (fun i => (f i : EReal)) := by
  classical
  refine Finset.induction_on s ?_ ?_
  · simp
  · intro a s ha ih
    rw [Finset.sum_insert ha, Finset.sum_insert ha, EReal.coe_add, ih]

/-- A real array is the coercion of an array of reals. -/
theorem IsReal2.eq_coe {a b : ℕ} {H : Fin a → Fin b → EReal} (h : IsReal2 H) :
    ∃ R : Fin a → Fin b → ℝ, H = fun p q => (R p q : EReal) := by
  choose R hR using h
  exact ⟨R, funext fun p => funext fun q => hR p q⟩

/-- A real vector is the coercion of a vector of reals. -/
theorem IsReal1.eq_coe {a : ℕ} {v : Fin a → EReal} (h : IsReal1 v) :
    ∃ r : Fin a → ℝ, v = fun q => (r q : EReal) := by
  choose r hr using h
  exact ⟨r, funext fun q => hr q⟩

/-! ### The first layer: the whole weight against its two halves -/

theorem linCat_eq_lin2 (X A : Fin n → Fin k → EReal) (W : Fin (k + k) → Fin d → EReal) (b : Fin d → EReal) :
    linCat X A W b = lin2 X A (fun κ q => W (Fin.castAdd k κ) q) (fun κ q => W (Fin.natAdd k κ) q) b := by
  funext p q
  simp only [linCat, lin2, Fin.sum_univ_add, Fin.addCases_left, Fin.addCases_right]

/-! ### Real-ness through the layers -/

theorem lin_real {H : Fin n → Fin k → EReal} {W : Fin k → Fin d → EReal} {b : Fin d → EReal}
    (hH : IsReal2 H) (hW : IsReal2 W) (hb : IsReal1 b) : IsReal2 (lin H W b) := by
  obtain ⟨H', rfl⟩ := hH.eq_coe
  obtain ⟨W', rfl⟩ := hW.eq_coe
  obtain ⟨b', rfl⟩ := hb.eq_coe
  intro p q
  refine ⟨(∑ κ, H' p κ * W' κ q) + b' q, ?_⟩
  simp only [lin, EReal.coe_add, coe_sum, EReal.coe_mul]

theorem lin2_real {X A : Fin n → Fin k → EReal} {Wa Wb : Fin k → Fin d → EReal} {b : Fin d → EReal}
    (hX : IsReal2 X) (hA : IsReal2 A) (hWa : IsReal2 Wa) (hWb : IsReal2 Wb) (hb : IsReal1 b) :
    IsReal2 (lin2 X A Wa Wb b) := by
  obtain ⟨X', rfl⟩ := hX.eq_coe
  obtain ⟨A', rfl⟩ := hA.eq_coe
  obtain ⟨Wa', rfl⟩ := hWa.eq_coe
  obtain ⟨Wb', rfl⟩ := hWb.eq_coe
  obtain ⟨b', rfl⟩ := hb.eq_coe
  intro p q
  refine ⟨((∑ κ, X' p κ * Wa' κ q) + (∑ κ, A' p κ * Wb' κ q)) + b' q, ?_⟩
  simp only [lin2, EReal.coe_add, coe_sum, EReal.coe_mul]

/-- silu of a real is the real r / (1 + e^(-r)). -/
theorem silu_coe (r : ℝ) : silu (r : EReal) = ((r * (1 + Real.exp (-r))⁻¹ : ℝ) : EReal) := by
  rw [silu, Ideal.logistic_coe, ← EReal.coe_mul]

theorem act_real {Z : Fin n → Fin d → EReal} (hZ : IsReal2 Z) : IsReal2 (act Z) := by
  intro p q
  obtain ⟨r, hr⟩ := hZ p q
  exact ⟨_, by rw [act, hr, silu_coe]⟩

/-! ### The two forms of the statistics -/

theorem meanR_eq_meanK {z0 : EReal} (hz0 : z0 = 0) (cN : EReal) (H : Fin n → Fin d → EReal) :
    meanR z0 cN H = meanK cN H := by
  funext q
  simp only [meanR, meanK, hz0, zero_add]

/-- Over the reals, with m = (sum f) / n: (sum (f - m)^2) / n = (sum f^2) / n - m^2. -/
theorem real_var_identity (hn : 0 < n) (f : Fin n → ℝ) :
    (∑ p, (f p - (∑ p, f p) * (1 / (n : ℝ))) * (f p - (∑ p, f p) * (1 / (n : ℝ)))) * (1 / (n : ℝ))
      = (∑ p, f p * f p) * (1 / (n : ℝ)) - ((∑ p, f p) * (1 / (n : ℝ))) * ((∑ p, f p) * (1 / (n : ℝ))) := by
  have hn' : (n : ℝ) ≠ 0 := by exact_mod_cast hn.ne'
  generalize hS : (∑ p, f p) = S
  generalize hm : S * (1 / (n : ℝ)) = m
  have h1 : (∑ p, (f p - m) * (f p - m)) = (∑ p, f p * f p) - 2 * m * S + (n : ℝ) * (m * m) := by
    have h2 : ∀ p, (f p - m) * (f p - m) = f p * f p - 2 * m * f p + m * m := fun p => by ring
    simp only [h2, Finset.sum_add_distrib, Finset.sum_sub_distrib, ← Finset.mul_sum, Finset.sum_const,
      Finset.card_univ, Fintype.card_fin, nsmul_eq_mul, hS]
    ring
  rw [h1, ← hm]
  field_simp
  ring

/-- The mean of a real array over n > 0 rows is real. -/
theorem meanK_coe (hn : 0 < n) (R : Fin n → Fin d → ℝ) (q : Fin d) :
    meanK ((n : ℝ) : EReal) (fun p q => (R p q : EReal)) q = (((∑ p, R p q) * (1 / (n : ℝ)) : ℝ) : EReal) := by
  have hn' : (n : ℝ) ≠ 0 := by exact_mod_cast hn.ne'
  simp only [meanK, colsum, Ideal.div_coe hn', ← coe_sum, ← EReal.coe_mul]

theorem varK_coe (hn : 0 < n) (R : Fin n → Fin d → ℝ) (q : Fin d) :
    varK ((n : ℝ) : EReal) (fun p q => (R p q : EReal)) q
      = (((∑ p, R p q * R p q) * (1 / (n : ℝ))
          - ((∑ p, R p q) * (1 / (n : ℝ))) * ((∑ p, R p q) * (1 / (n : ℝ))) : ℝ) : EReal) := by
  have hn' : (n : ℝ) ≠ 0 := by exact_mod_cast hn.ne'
  simp only [varK, meanK_coe hn, colsumsq, Ideal.div_coe hn', ← EReal.coe_mul, ← coe_sum, ← EReal.coe_sub]

theorem varR_coe (hn : 0 < n) (nan : EReal) (R : Fin n → Fin d → ℝ) (q : Fin d) :
    varR 0 ((n : ℝ) : EReal) 0 nan (fun p q => (R p q : EReal)) q
      = (((∑ p, (R p q - (∑ p, R p q) * (1 / (n : ℝ))) * (R p q - (∑ p, R p q) * (1 / (n : ℝ)))) * (1 / (n : ℝ)) : ℝ) : EReal) := by
  have hn' : (n : ℝ) ≠ 0 := by exact_mod_cast hn.ne'
  have hpos : (0 : EReal) < ((n : ℝ) : EReal) - 0 := by
    rw [sub_zero]; exact EReal.coe_pos.mpr (by exact_mod_cast hn)
  rw [varR, if_pos hpos, sub_zero, zero_add, meanR_eq_meanK rfl, meanK_coe hn]
  simp only [Ideal.div_coe hn', ← EReal.coe_sub, ← EReal.coe_mul, ← coe_sum]

theorem varR_eq_varK (hn : 0 < n) {z0 cN cI : EReal} (nan : EReal) (hz0 : z0 = 0) (hcN : cN = ((n : ℝ) : EReal))
    (hcI : cI = 0) {H : Fin n → Fin d → EReal} (hH : IsReal2 H) : varR z0 cN cI nan H = varK cN H := by
  obtain ⟨R, rfl⟩ := hH.eq_coe
  subst hz0 hcN hcI
  funext q
  rw [varR_coe hn, varK_coe hn, real_var_identity hn]

theorem meanK_real (hn : 0 < n) {cN : EReal} (hcN : cN = ((n : ℝ) : EReal)) {H : Fin n → Fin d → EReal}
    (hH : IsReal2 H) : IsReal1 (meanK cN H) := by
  obtain ⟨R, rfl⟩ := hH.eq_coe
  subst hcN
  intro q
  exact ⟨_, meanK_coe hn R q⟩

/-- The variance of a real array over n > 0 rows is a real number that is not negative. -/
theorem varK_real_nonneg (hn : 0 < n) {cN : EReal} (hcN : cN = ((n : ℝ) : EReal)) {H : Fin n → Fin d → EReal}
    (hH : IsReal2 H) (q : Fin d) : ∃ r : ℝ, 0 ≤ r ∧ varK cN H q = (r : EReal) := by
  obtain ⟨R, rfl⟩ := hH.eq_coe
  subst hcN
  refine ⟨_, ?_, (varK_coe hn R q).trans (congrArg _ (real_var_identity hn fun p => R p q).symm)⟩
  refine mul_nonneg (Finset.sum_nonneg fun p _ => mul_self_nonneg _) ?_
  positivity

/-- The reciprocal square root of a non-negative real plus a positive real is real. -/
theorem rsqrt_add_real {v eps : EReal} (hv : ∃ r : ℝ, 0 ≤ r ∧ v = (r : EReal))
    (heps : ∃ e : ℝ, 0 < e ∧ eps = (e : EReal)) : ∃ s : ℝ, Ideal.rsqrt (v + eps) = (s : EReal) := by
  obtain ⟨r, hr, rfl⟩ := hv
  obtain ⟨e, he, rfl⟩ := heps
  have hpos : 0 < r + e := by linarith
  refine ⟨(Real.sqrt (r + e))⁻¹, ?_⟩
  rw [← EReal.coe_add, Ideal.rsqrt_coe, if_neg (not_lt.mpr hpos.le), if_neg hpos.ne']

theorem bn_real {H : Fin n → Fin d → EReal} {μ v : Fin d → EReal} {eps : EReal} {g be : Fin d → EReal}
    (hH : IsReal2 H) (hμ : IsReal1 μ) (hv : ∀ q, ∃ r : ℝ, 0 ≤ r ∧ v q = (r : EReal))
    (heps : ∃ e : ℝ, 0 < e ∧ eps = (e : EReal)) (hg : IsReal1 g) (hbe : IsReal1 be) :
    IsReal2 (bn H μ v eps g be) := by
  intro p q
  obtain ⟨h, hh⟩ := hH p q
  obtain ⟨m, hm⟩ := hμ q
  obtain ⟨s, hs⟩ := rsqrt_add_real (hv q) heps
  obtain ⟨g', hg'⟩ := hg q
  obtain ⟨b', hb'⟩ := hbe q
  exact ⟨((h - m) * s) * g' + b', by
    rw [bn, hh, hm, hs, hg', hb', ← EReal.coe_sub, ← EReal.coe_mul, ← EReal.coe_mul, ← EReal.coe_add]⟩

/-- On real entries, with n rows as a real, c = 0, sums started at 0 and a positive real eps, the two
    arrangements are one function. -/
theorem outR_eq_outK (hn : 0 < n) {z0 cN cI nan eps : EReal} (hz0 : z0 = 0) (hcN : cN = ((n : ℝ) : EReal)) (hcI : cI = 0)
    (heps : ∃ e : ℝ, 0 < e ∧ eps = (e : EReal))
    {X A : Fin n → Fin d → EReal} {W1 : Fin (d + d) → Fin d → EReal} {b1 g1 be1 : Fin d → EReal}
    {W2 : Fin d → Fin d → EReal} {b2 g2 be2 : Fin d → EReal} {W3 : Fin d → Fin d → EReal} {b3 : Fin d → EReal}
    (hX : IsReal2 X) (hA : IsReal2 A) (hW1 : IsReal2 W1) (hb1 : IsReal1 b1) (hg1 : IsReal1 g1) (hbe1 : IsReal1 be1)
    (hW2 : IsReal2 W2) (hb2 : IsReal1 b2) :
    outR z0 cN cI nan eps X A W1 b1 g1 be1 W2 b2 g2 be2 W3 b3
      = outK cN eps X A (fun κ q => W1 (Fin.castAdd d κ) q) (fun κ q => W1 (Fin.natAdd d κ) q) b1 g1 be1 W2 b2 g2 be2 W3 b3 := by
  have hcast : IsReal2 (fun κ q => W1 (Fin.castAdd d κ) q) := fun κ q => hW1 _ q
  have hnat : IsReal2 (fun κ q => W1 (Fin.natAdd d κ) q) := fun κ q => hW1 _ q
  have hh1 : IsReal2 (act (lin2 X A (fun κ q => W1 (Fin.castAdd d κ) q) (fun κ q => W1 (Fin.natAdd d κ) q) b1)) :=
    act_real (lin2_real hX hA hcast hnat hb1)
  have hh2 := act_real (lin_real
    (bn_real hh1 (meanK_real hn hcN hh1) (varK_real_nonneg hn hcN hh1) heps hg1 hbe1) hW2 hb2)
  simp only [outR, outK, linCat_eq_lin2, meanR_eq_meanK hz0]
  rw [varR_eq_varK hn nan hz0 hcN hcI hh1, varR_eq_varK hn nan hz0 hcN hcI hh2]

end Cert.Spec

end
-- ==== Proof.Args.lean ====
/-
  Arrays of rank one and two read as functions of their coordinates: a matrix by row and column, a vector by its
  one coordinate, a one-row matrix by its column.
-/
import Idealize.ShloMosaic.Lib.ValueIdx

noncomputable section

namespace Cert.Args

open Idealize.ShloMosaic Idealize.ShloMosaic.ValueIdx

/-- A matrix by row and column. -/
def mat {a b : ℕ} (x : (⟨2, ![a, b]⟩ : Shape).Idx → EReal) : Fin a → Fin b → EReal := fun p q => x (ix2 p q)
/-- A vector by its coordinate. -/
def vec {a : ℕ} (x : (⟨1, ![a]⟩ : Shape).Idx → EReal) : Fin a → EReal := fun q => x (ix1 q)
/-- A one-row matrix by its column. -/
def row {a : ℕ} (x : (⟨2, ![1, a]⟩ : Shape).Idx → EReal) : Fin a → EReal := fun q => x (ix2 0 q)
/-- A matrix of 2a rows as one of a + a rows. -/
def mat2 {a b : ℕ} (x : (⟨2, ![a + a, b]⟩ : Shape).Idx → EReal) : Fin (a + a) → Fin b → EReal := fun p q => x (ix2 p q)

theorem mat_apply {a b : ℕ} (x : (⟨2, ![a, b]⟩ : Shape).Idx → EReal) (p : Fin a) (q : Fin b) : mat x p q = x (ix2 p q) := rfl
theorem vec_apply {a : ℕ} (x : (⟨1, ![a]⟩ : Shape).Idx → EReal) (q : Fin a) : vec x q = x (ix1 q) := rfl
theorem row_apply {a : ℕ} (x : (⟨2, ![1, a]⟩ : Shape).Idx → EReal) (q : Fin a) : row x q = x (ix2 0 q) := rfl

/-- A function of an index of rank two is determined by its values at the coordinate pairs. -/
theorem ext2 {a b : ℕ} {x y : (⟨2, ![a, b]⟩ : Shape).Idx → EReal} (h : ∀ p q, x (ix2 p q) = y (ix2 p q)) : x = y :=
  funext fun j => by rw [eq_ix2 j]; exact h _ _

end Cert.Args

end
-- ==== Proof.K0a.lean ====
/-
  Region 0, what each case of the body leaves in each output's staging buffer, as a value: the activation block is the
  payload of the five input blocks; each accumulator is its old contents (the zero row at the first point) plus the
  column sums of the activation block, respectively of its squares.
-/
import proofs.«146441_j13108240188139_1_alg».proof.Proof.Gen.KernelIdeal.Frame
import Idealize.ShloMosaic.Lib.Pipeline.Value
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat)

variable {F : FTy → Type} [FloatOps F]

/-- The zero offsets of a whole-buffer load or store, as a constant function. -/
theorem hz : (![0, 0] : Fin 2 → Nat) = fun _ => 0 := funext fun a => by fin_cases a <;> rfl

/-- At the first point the activation block the body leaves is the payload of the five input blocks. -/
theorem act_first (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S2000x128 .f32) (x2 x3 : Vec F S128x128 .f32) (x4 : Vec F S1x128 .f32) :
    out0_A_5 c i a1 h1 a2 h2 a3 h3 a4 h4 a5 h5 a6 h6 a7 h7 a8 h8 hc x0 x1 x2 x3 x4 = k0_pay4 x0 x2 x1 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S128x128) hz, View.ld_unit_zero (S := S1x128) hz]

/-- At the first point the first accumulator is left at the zero row plus the block's column sums. -/
theorem sum_first (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S2000x128 .f32) (x2 x3 : Vec F S128x128 .f32) (x4 : Vec F S1x128 .f32) :
    out0_A_6 c i a1 h1 a2 h2 a3 h3 a4 h4 a5 h5 a6 h6 a7 h7 a8 h8 hc x0 x1 x2 x3 x4 = k0_pay5 x0 x2 x1 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S2000x128) hz, View.ld_unit_zero (S := S128x128) hz, View.ld_unit_zero (S := S1x128) hz]

/-- At the first point the second accumulator is left at the zero row plus the column sums of the block's squares. -/
theorem sumsq_first (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 x1 : Vec F S2000x128 .f32) (x2 x3 : Vec F S128x128 .f32) (x4 : Vec F S1x128 .f32) :
    out0_A_7 c i a1 h1 a2 h2 a3 h3 a4 h4 a5 h5 a6 h6 a7 h7 a8 h8 hc x0 x1 x2 x3 x4
      = k0_pay1 (k0_pay6 (k0_pay3 (F := F))) (k0_pay7 x0 x2 x1 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S2000x128) hz, View.ld_unit_zero (S := S128x128) hz, View.ld_unit_zero (S := S1x128) hz]

/-- At a later point the activation block is again the payload of the five input blocks. -/
theorem act_later (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S2000x128 .f32) (x2 x3 : Vec F S128x128 .f32) (x4 : Vec F S1x128 .f32) (s6 s7 : Vec F S1x128 .f32) :
    out0_B_5 c i a1 h1 a2 h2 a3 h3 a4 h4 a5 h5 a6 h6 a7 h7 a8 h8 hc x0 x1 x2 x3 x4 s6 s7 = k0_pay4 x0 x2 x1 x3 x4 := by
  unfold out0_B_5
  rw [View.read_writes_eq_canon _ _ _ (cover0_B_5 c i a1 h1 a2 h2 a3 h3 a4 h4 a5 h5 a6 h6 a7 h7 a8 h8 hc x0 x1 x2 x3 x4 s6 s7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S2000x128) hz, View.ld_unit_zero (S := S128x128) hz, View.ld_unit_zero (S := S1x128) hz]

/-- At a later point the first accumulator is left at its old contents plus the block's column sums. -/
theorem sum_later (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S2000x128 .f32) (x2 x3 : Vec F S128x128 .f32) (x4 : Vec F S1x128 .f32) (s6 s7 : Vec F S1x128 .f32) :
    out0_B_6 c i a1 h1 a2 h2 a3 h3 a4 h4 a5 h5 a6 h6 a7 h7 a8 h8 hc x0 x1 x2 x3 x4 s6 s7 = k0_pay5 x0 x2 x1 x3 x4 s6 := by
  unfold out0_B_6
  rw [View.read_writes_eq_canon _ _ _ (cover0_B_6 c i a1 h1 a2 h2 a3 h3 a4 h4 a5 h5 a6 h6 a7 h7 a8 h8 hc x0 x1 x2 x3 x4 s6 s7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S2000x128) hz, View.ld_unit_zero (S := S128x128) hz, View.ld_unit_zero (S := S1x128) hz]

/-- At a later point the second accumulator is left at its old contents plus the column sums of the block's squares. -/
theorem sumsq_later (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 x1 : Vec F S2000x128 .f32) (x2 x3 : Vec F S128x128 .f32) (x4 : Vec F S1x128 .f32) (s6 s7 : Vec F S1x128 .f32) :
    out0_B_7 c i a1 h1 a2 h2 a3 h3 a4 h4 a5 h5 a6 h6 a7 h7 a8 h8 hc x0 x1 x2 x3 x4 s6 s7
      = k0_pay1 (k0_pay6 s7) (k0_pay7 x0 x2 x1 x3 x4) := by
  unfold out0_B_7
  rw [View.read_writes_eq_canon _ _ _ (cover0_B_7 c i a1 h1 a2 h2 a3 h3 a4 h4 a5 h5 a6 h6 a7 h7 a8 h8 hc x0 x1 x2 x3 x4 s6 s7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S2000x128) hz, View.ld_unit_zero (S := S128x128) hz, View.ld_unit_zero (S := S1x128) hz]

end Cert.KernelIdeal.Reg0

end
-- ==== Proof.K0b.lean ====
/-
  Region 0, the body's arithmetic read at an index over the extended reals: the activation block is silu of the two
  products' sum plus the bias row, entry by entry; a column reduction of a block is the sum of its column's entries.
-/
import proofs.«146441_j13108240188139_1_alg».proof.Proof.Gen.KernelIdeal.Skeleton
import proofs.«146441_j13108240188139_1_alg».proof.Proof.Spec
import proofs.«146441_j13108240188139_1_alg».proof.Proof.Args
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Cert.Args
open Idealize.ShloMosaic Idealize.SL.Sem Idealize.ShloMosaic.ValueIdx

/-- On the left operand's row axis the operand index is the output's row. -/
theorem lhs_row (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- On the left operand's column axis the operand index is the contraction position. -/
theorem lhs_col (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- On the right operand's row axis the operand index is the contraction position. -/
theorem rhs_row (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- On the right operand's column axis the operand index is the output's column. -/
theorem rhs_col (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A product into the zero accumulator, at an entry: the sum over the 128 contraction positions of the products of
    the left operand's row entries with the right operand's column entries. -/
theorem product_at (x : FVec Ideal S2000x128 .bf16) (w : FVec Ideal S128x128 .bf16) (r : Fin 2000) (q : Fin 128) :
    matmul dot_S2000x128_S128x128_S2000x128_1_0_0_1_n_n none x w (constant (F := Ideal) S2000x128 .f32 0x00000000#32) (ix2 r q)
      = ∑ κ : Fin 128, x (ix2 r κ) * w (ix2 κ q) := by
  refine (Ideal.matmul_constant_zero_apply dot_S2000x128_S128x128_S2000x128_1_0_0_1_n_n none x w (ix2 r q)).trans ?_
  rw [← Equiv.sum_comp (contrEquiv1 dot_S2000x128_S128x128_S2000x128_1_0_0_1_n_n 128 rfl rfl).symm]
  refine Finset.sum_congr rfl fun κ _ => ?_
  have hk := contrEquiv1_symm_val dot_S2000x128_S128x128_S2000x128_1_0_0_1_n_n 128 rfl rfl κ
  congr 1
  · refine congrArg x (funext fun a => Fin.ext ?_)
    match a with
    | ⟨0, _⟩ => exact lhs_row _ _
    | ⟨1, _⟩ => exact (lhs_col _ _).trans hk
  · refine congrArg w (funext fun a => Fin.ext ?_)
    match a with
    | ⟨0, _⟩ => exact (rhs_row _ _).trans hk
    | ⟨1, _⟩ => exact rhs_col _ _

/-- The activation block at an entry: silu of the sum of the two products, of the node-feature block with the first
    weight half and of the aggregated-feature block with the second, plus the bias row's entry. The narrowing to
    bf16 before each product is the identity over the extended reals. -/
theorem act_at (x0 : Vec Ideal S2000x128 .f32) (w0 : Vec Ideal S128x128 .f32) (x1 : Vec Ideal S2000x128 .f32)
    (w1 : Vec Ideal S128x128 .f32) (b : Vec Ideal S1x128 .f32) (r : Fin 2000) (q : Fin 128) :
    k0_pay4 x0 w0 x1 w1 b (ix2 r q)
      = Spec.silu (((∑ κ : Fin 128, x0 (ix2 r κ) * w0 (ix2 κ q)) + (∑ κ : Fin 128, x1 (ix2 r κ) * w1 (ix2 κ q)))
          + b (ix2 0 q)) := by
  have key : ∀ z z' : EReal, z = z' → z * Ideal.logistic z = Spec.silu z' := fun z z' h => h ▸ rfl
  unfold k0_pay4
  refine key _ _ ?_
  refine (addf_apply _ _ _).trans (congrArg₂ (· + ·) ?_ ?_)
  · refine (addf_apply _ _ _).trans (congrArg₂ (· + ·) ?_ ?_)
    · refine (product_at _ _ r q).trans (Finset.sum_congr rfl fun κ _ => ?_)
      exact congrArg₂ (· * ·) rfl (congrFun (shapeCast_self w0 _) _)
    · refine (product_at _ _ r q).trans (Finset.sum_congr rfl fun κ _ => ?_)
      exact congrArg₂ (· * ·) (congrFun (shapeCast_self x1 _) _) (congrFun (shapeCast_self w1 _) _)
  · exact (broadcastTo_1b_ab_apply _ _ r q).trans (congrFun (shapeCast_self b _) _)

/-- A reduction of a block along its rows from the zero accumulator, laid out as a row: at column q the sum of the
    block's column q. -/
theorem colred_at (y : FVec Ideal S2000x128 .f32) (q : Fin 128) :
    shapeCast S1x128 (multiReduction .add [0] S128 y 0x00000000#32 reduces_S2000x128_S128 (.inl rfl) rfl)
        shapeCasts_S128_S1x128 (ix2 0 q)
      = ∑ r : Fin 2000, y (ix2 r q) := by
  refine (shapeCast_a_1a_apply _ _ 0 q).trans ?_
  refine (Ideal.multiReduction_add_single y 0x00000000#32 reduces_S2000x128_S128 (.inl rfl) rfl (ix1 q)).trans ?_
  refine Finset.sum_congr rfl fun r _ => congrArg y (funext fun a => Fin.ext ?_)
  match a with
  | ⟨0, _⟩ => rfl
  | ⟨1, _⟩ => rfl

/-- The first accumulator's update at a column: its old entry plus the activation block's column sum. -/
theorem sum_at (x0 : Vec Ideal S2000x128 .f32) (w0 : Vec Ideal S128x128 .f32) (x1 : Vec Ideal S2000x128 .f32)
    (w1 : Vec Ideal S128x128 .f32) (b : Vec Ideal S1x128 .f32) (s : Vec Ideal S1x128 .f32) (q : Fin 128) :
    k0_pay5 x0 w0 x1 w1 b s (ix2 0 q) = s (ix2 0 q) + ∑ r : Fin 2000, k0_pay4 x0 w0 x1 w1 b (ix2 r q) := by
  unfold k0_pay5
  refine (addf_apply _ _ _).trans (congrArg₂ (· + ·) (congrFun (shapeCast_self s _) _) (colred_at _ q))

/-- The second accumulator's update at a column: its old entry plus the column sum of the block it is given. -/
theorem sumsq_at (s : FVec Ideal S1x128 .f32) (y : FVec Ideal S2000x128 .f32) (q : Fin 128) :
    k0_pay1 s y (ix2 0 q) = s (ix2 0 q) + ∑ r : Fin 2000, y (ix2 r q) := by
  unfold k0_pay1
  exact (addf_apply _ _ _).trans (congrArg₂ (· + ·) rfl (colred_at _ q))

/-- The second accumulator's old contents pass through a cast to their own shape. -/
theorem carried_eq (s : Vec Ideal S1x128 .f32) : k0_pay6 s = s := by
  unfold k0_pay6
  exact shapeCast_self s _

/-- The block of squares at an entry. -/
theorem sq_at (x0 : Vec Ideal S2000x128 .f32) (w0 : Vec Ideal S128x128 .f32) (x1 : Vec Ideal S2000x128 .f32)
    (w1 : Vec Ideal S128x128 .f32) (b : Vec Ideal S1x128 .f32) (r : Fin 2000) (q : Fin 128) :
    k0_pay7 x0 w0 x1 w1 b (ix2 r q) = k0_pay4 x0 w0 x1 w1 b (ix2 r q) * k0_pay4 x0 w0 x1 w1 b (ix2 r q) := rfl

/-- The row the first accumulator is reset to is zero. -/
theorem reset_sum_at (q : Fin 128) : (k0_pay2 (F := Ideal)) (ix2 0 q) = 0 := by
  unfold k0_pay2
  exact Ideal.ofBits_zero_f32

/-- The row the second accumulator is reset to is zero. -/
theorem reset_sumsq_at (q : Fin 128) : (k0_pay3 (F := Ideal)) (ix2 0 q) = 0 := by
  unfold k0_pay3
  exact Ideal.ofBits_zero_f32

end Cert.KernelIdeal.Reg0

end
-- ==== Proof.K0c.lean ====
/-
  Region 0, where a block's entry sits in its array: at grid point t the row blocks (node features, aggregated edge
  features, the activation) hold rows 2000 t … 2000 t + 1999 of their arrays; the two weight halves, the bias row
  and the two accumulator rows are staged whole at every point.
-/
import proofs.«146441_j13108240188139_1_alg».proof.Proof.Gen.KernelIdeal.Frame
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The printed index maps, decided over the grid: a row block's index is the point on the row axis and zero on the
    column axis; every other window's block index is zero. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks, named at their literal types -/

/-- The node-feature block at a point. -/
abbrev nodesBlk (t : Fin cfg0.N) : Vec Ideal S2000x128 .f32 := iblk0 V c 0 t
/-- The aggregated edge-feature block at a point. -/
abbrev aggBlk (t : Fin cfg0.N) : Vec Ideal S2000x128 .f32 := iblk0 V c 1 t
/-- The first weight half as staged at a point. -/
abbrev wA (t : Fin cfg0.N) : Vec Ideal S128x128 .f32 := iblk0 V c 2 t
/-- The second weight half as staged at a point. -/
abbrev wB (t : Fin cfg0.N) : Vec Ideal S128x128 .f32 := iblk0 V c 3 t
/-- The bias row as staged at a point. -/
abbrev biasBlk (t : Fin cfg0.N) : Vec Ideal S1x128 .f32 := iblk0 V c 4 t

/-- The node-feature block at point t, at an entry: row 2000 t + r of the array. -/
theorem nodes_at (t : Fin cfg0.N) (r : Fin 2000) (κ : Fin 128) (h : 2000 * t.val + r.val < 50000) :
    nodesBlk V c t (ix2 r κ) = (V c main_arg0 : S50000x128.Idx → EReal) (ix2 ⟨2000 * t.val + r.val, h⟩ κ) := by
  have hi := block_index t
  unfold nodesBlk iblk0
  rw [View.read_apply]
  show V c main_arg0 _ = V c main_arg0 _
  congr 1
  funext a
  apply Fin.ext
  match a with
  | ⟨0, _⟩ => show win0_0.index t 0 * 2000 + 1 * r.val = 2000 * t.val + r.val; rw [hi.1]; omega
  | ⟨1, _⟩ => show win0_0.index t 1 * 128 + 1 * κ.val = κ.val; rw [hi.2.1]; omega

/-- The aggregated-feature block at point t, at an entry: row 2000 t + r of the array. -/
theorem agg_at (t : Fin cfg0.N) (r : Fin 2000) (κ : Fin 128) (h : 2000 * t.val + r.val < 50000) :
    aggBlk V c t (ix2 r κ) = (V c main_v4 : S50000x128.Idx → EReal) (ix2 ⟨2000 * t.val + r.val, h⟩ κ) := by
  have hi := block_index t
  unfold aggBlk iblk0
  rw [View.read_apply]
  show V c main_v4 _ = V c main_v4 _
  congr 1
  funext a
  apply Fin.ext
  match a with
  | ⟨0, _⟩ => show win0_1.index t 0 * 2000 + 1 * r.val = 2000 * t.val + r.val; rw [hi.2.2.1]; omega
  | ⟨1, _⟩ => show win0_1.index t 1 * 128 + 1 * κ.val = κ.val; rw [hi.2.2.2.1]; omega

/-- The first weight half is staged whole: its block's entry is the array's. -/
theorem wA_at (t : Fin cfg0.N) (κ q : Fin 128) :
    wA V c t (ix2 κ q) = (V c main_v5 : S128x128.Idx → EReal) (ix2 κ q) := by
  have hi := block_index t
  unfold wA iblk0
  rw [View.read_apply]
  show V c main_v5 _ = V c main_v5 _
  congr 1
  funext a
  apply Fin.ext
  match a with
  | ⟨0, _⟩ => show win0_2.index t 0 * 128 + 1 * κ.val = κ.val; rw [hi.2.2.2.2.1]; omega
  | ⟨1, _⟩ => show win0_2.index t 1 * 128 + 1 * q.val = q.val; rw [hi.2.2.2.2.2.1]; omega

/-- The second weight half is staged whole: its block's entry is the array's. -/
theorem wB_at (t : Fin cfg0.N) (κ q : Fin 128) :
    wB V c t (ix2 κ q) = (V c main_v6 : S128x128.Idx → EReal) (ix2 κ q) := by
  have hi := block_index t
  unfold wB iblk0
  rw [View.read_apply]
  show V c main_v6 _ = V c main_v6 _
  congr 1
  funext a
  apply Fin.ext
  match a with
  | ⟨0, _⟩ => show win0_3.index t 0 * 128 + 1 * κ.val = κ.val; rw [hi.2.2.2.2.2.2.1]; omega
  | ⟨1, _⟩ => show win0_3.index t 1 * 128 + 1 * q.val = q.val; rw [hi.2.2.2.2.2.2.2.1]; omega

/-- The bias row is staged whole: its block's entry is the array's. -/
theorem bias_at (t : Fin cfg0.N) (q : Fin 128) :
    biasBlk V c t (ix2 0 q) = (V c main_v7 : S1x128.Idx → EReal) (ix2 0 q) := by
  have hi := block_index t
  unfold biasBlk iblk0
  rw [View.read_apply]
  show V c main_v7 _ = V c main_v7 _
  congr 1
  funext a
  apply Fin.ext
  match a with
  | ⟨0, _⟩ => show win0_4.index t 0 * 1 + 1 * 0 = 0; rw [hi.2.2.2.2.2.2.2.2.1]
  | ⟨1, _⟩ => show win0_4.index t 1 * 128 + 1 * q.val = q.val; rw [hi.2.2.2.2.2.2.2.2.2.1]; omega

/-! ## The output blocks inside their arrays -/

/-- An index of the activation array is in point t's block iff each coordinate is in the block's range. -/
theorem mem_act_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v14_0).slice (win0_5.rect t)).set ↔ _
  rw [View.set_slice_whole, Rect.mem_set_unit]
  exact Iff.rfl

/-- An index of the first accumulator's array is in point t's block iff each coordinate is in the block's range. -/
theorem mem_sum_block (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v14_1).slice (win0_6.rect t)).set ↔ _
  rw [View.set_slice_whole, Rect.mem_set_unit]
  exact Iff.rfl

/-- An index of the second accumulator's array is in point t's block iff each coordinate is in the block's range. -/
theorem mem_sumsq_block (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v14_2).slice (win0_7.rect t)).set ↔ _
  rw [View.set_slice_whole, Rect.mem_set_unit]
  exact Iff.rfl

end Cert.KernelIdeal.Reg0

end
-- ==== Proof.K0.lean ====
/-
  Region 0 (the first layer), read as values over the extended reals: from the arrays the region finds,
  the activation array it leaves is silu of the two-half linear layer, row by row, and the two accumulators
  end at the column sums and the column sums of squares of that activation.
-/
import proofs.«146441_j13108240188139_1_alg».proof.Proof.Gen.KernelIdeal.Frame
import proofs.«146441_j13108240188139_1_alg».proof.Proof.Spec
import proofs.«146441_j13108240188139_1_alg».proof.Proof.Args
import proofs.«146441_j13108240188139_1_alg».proof.Proof.K0a
import proofs.«146441_j13108240188139_1_alg».proof.Proof.K0b
import proofs.«146441_j13108240188139_1_alg».proof.Proof.K0c
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
import Mathlib.Algebra.BigOperators.Intervals

set_option maxRecDepth 16384

noncomputable section

namespace Cert.KernelIdeal.Reg0

open Cert.KernelIdeal Cert.KernelIdeal.Gen Cert.Args
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The activation of the first layer over the arrays the region finds: node features, aggregated edge features,
    the two halves of the weight, the bias row. -/
abbrev H1 : Fin 50000 → Fin 128 → EReal :=
  Spec.act (Spec.lin2 (mat (V c main_arg0)) (mat (V c main_v4)) (mat (V c main_v5)) (mat (V c main_v6)) (row (V c main_v7)))

/-- Column q of the activation as a sequence over all naturals: row i's entry, zero past the last row. -/
def col (q : Fin 128) (i : ℕ) : EReal := if h : i < 50000 then H1 V c ⟨i, h⟩ q else 0

theorem col_lt (q : Fin 128) (i : ℕ) (h : i < 50000) : col V c q i = H1 V c ⟨i, h⟩ q := dif_pos h

/-- The activation block of point t at entry (r, q) is the activation's row 2000 t + r at column q: the row blocks
    hold those rows of their arrays, the weight halves and the bias row are whole. -/
theorem act_block_at (t : Fin cfg0.N) (r : Fin 2000) (q : Fin 128) :
    k0_pay4 (nodesBlk V c t) (wA V c t) (aggBlk V c t) (wB V c t) (biasBlk V c t) (ix2 r q) = col V c q (2000 * t.val + r.val) := by
  have hN : t.val < 25 := lt_of_lt_of_eq t.isLt (show cfg0.N = 25 from N_0)
  have h : 2000 * t.val + r.val < 50000 := by have := r.isLt; omega
  rw [col_lt V c q _ h]
  refine (act_at (nodesBlk V c t) (wA V c t) (aggBlk V c t) (wB V c t) (biasBlk V c t) r q).trans ?_
  show Spec.silu _ = Spec.silu _
  refine congrArg Spec.silu (congrArg₂ (· + ·) (congrArg₂ (· + ·) ?_ ?_) ?_)
  · exact Finset.sum_congr rfl fun κ _ => congrArg₂ (· * ·) (nodes_at V c t r κ h) (wA_at V c t κ q)
  · exact Finset.sum_congr rfl fun κ _ => congrArg₂ (· * ·) (agg_at V c t r κ h) (wB_at V c t κ q)
  · exact bias_at V c t q

/-- The column sum of point t's activation block is the sum of the 2000 terms of the column's sequence from 2000 t. -/
theorem block_sum (t : Fin cfg0.N) (q : Fin 128) :
    ∑ r : Fin 2000, k0_pay4 (nodesBlk V c t) (wA V c t) (aggBlk V c t) (wB V c t) (biasBlk V c t) (ix2 r q)
      = ∑ i ∈ Finset.range 2000, col V c q (2000 * t.val + i) :=
  (Finset.sum_congr rfl fun r _ => act_block_at V c t r q).trans
    (Fin.sum_univ_eq_sum_range (fun i => col V c q (2000 * t.val + i)) 2000)

/-- The same for the squares. -/
theorem block_sumsq (t : Fin cfg0.N) (q : Fin 128) :
    ∑ r : Fin 2000, k0_pay7 (nodesBlk V c t) (wA V c t) (aggBlk V c t) (wB V c t) (biasBlk V c t) (ix2 r q)
      = ∑ i ∈ Finset.range 2000, col V c q (2000 * t.val + i) * col V c q (2000 * t.val + i) :=
  (Finset.sum_congr rfl fun r _ => (sq_at (nodesBlk V c t) (wA V c t) (aggBlk V c t) (wB V c t) (biasBlk V c t) r q).trans
      (congrArg₂ (· * ·) (act_block_at V c t r q) (act_block_at V c t r q))).trans
    (Fin.sum_univ_eq_sum_range (fun i => col V c q (2000 * t.val + i) * col V c q (2000 * t.val + i)) 2000)

/-- After the first point the three staging buffers hold the payloads of the first blocks over the zero rows. -/
theorem outs_first (h : 0 < cfg0.N) :
    outsAt0 V c 0 h = (k0_pay4 (nodesBlk V c (⟨0, h⟩ : Fin cfg0.N)) (wA V c (⟨0, h⟩ : Fin cfg0.N)) (aggBlk V c (⟨0, h⟩ : Fin cfg0.N)) (wB V c (⟨0, h⟩ : Fin cfg0.N)) (biasBlk V c (⟨0, h⟩ : Fin cfg0.N)),
      k0_pay5 (nodesBlk V c (⟨0, h⟩ : Fin cfg0.N)) (wA V c (⟨0, h⟩ : Fin cfg0.N)) (aggBlk V c (⟨0, h⟩ : Fin cfg0.N)) (wB V c (⟨0, h⟩ : Fin cfg0.N)) (biasBlk V c (⟨0, h⟩ : Fin cfg0.N)) (k0_pay2 (F := Ideal)),
      k0_pay1 (k0_pay6 (k0_pay3 (F := Ideal))) (k0_pay7 (nodesBlk V c (⟨0, h⟩ : Fin cfg0.N)) (wA V c (⟨0, h⟩ : Fin cfg0.N)) (aggBlk V c (⟨0, h⟩ : Fin cfg0.N)) (wB V c (⟨0, h⟩ : Fin cfg0.N)) (biasBlk V c (⟨0, h⟩ : Fin cfg0.N)))) :=
  (outsAt0_A V c (⟨0, h⟩ : Fin cfg0.N) rfl).trans (congrArg₂ Prod.mk
    (act_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (nodesBlk V c (⟨0, h⟩ : Fin cfg0.N)) (aggBlk V c (⟨0, h⟩ : Fin cfg0.N)) (wA V c (⟨0, h⟩ : Fin cfg0.N)) (wB V c (⟨0, h⟩ : Fin cfg0.N)) (biasBlk V c (⟨0, h⟩ : Fin cfg0.N)))
    (congrArg₂ Prod.mk
      (sum_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (nodesBlk V c (⟨0, h⟩ : Fin cfg0.N)) (aggBlk V c (⟨0, h⟩ : Fin cfg0.N)) (wA V c (⟨0, h⟩ : Fin cfg0.N)) (wB V c (⟨0, h⟩ : Fin cfg0.N)) (biasBlk V c (⟨0, h⟩ : Fin cfg0.N)))
      (sumsq_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr rfl) (nodesBlk V c (⟨0, h⟩ : Fin cfg0.N)) (aggBlk V c (⟨0, h⟩ : Fin cfg0.N)) (wA V c (⟨0, h⟩ : Fin cfg0.N)) (wB V c (⟨0, h⟩ : Fin cfg0.N)) (biasBlk V c (⟨0, h⟩ : Fin cfg0.N)))))

/-- After a later point the activation buffer holds the payload of that point's blocks, and each accumulator's buffer
    its payload over what the point before left. -/
theorem outs_later (n : ℕ) (h : n + 1 < cfg0.N) :
    outsAt0 V c (n + 1) h = (k0_pay4 (nodesBlk V c (⟨n + 1, h⟩ : Fin cfg0.N)) (wA V c (⟨n + 1, h⟩ : Fin cfg0.N)) (aggBlk V c (⟨n + 1, h⟩ : Fin cfg0.N)) (wB V c (⟨n + 1, h⟩ : Fin cfg0.N)) (biasBlk V c (⟨n + 1, h⟩ : Fin cfg0.N)),
      k0_pay5 (nodesBlk V c (⟨n + 1, h⟩ : Fin cfg0.N)) (wA V c (⟨n + 1, h⟩ : Fin cfg0.N)) (aggBlk V c (⟨n + 1, h⟩ : Fin cfg0.N)) (wB V c (⟨n + 1, h⟩ : Fin cfg0.N)) (biasBlk V c (⟨n + 1, h⟩ : Fin cfg0.N)) (outsAt0 V c n (Nat.lt_of_succ_lt h)).2.1,
      k0_pay1 (k0_pay6 (outsAt0 V c n (Nat.lt_of_succ_lt h)).2.2) (k0_pay7 (nodesBlk V c (⟨n + 1, h⟩ : Fin cfg0.N)) (wA V c (⟨n + 1, h⟩ : Fin cfg0.N)) (aggBlk V c (⟨n + 1, h⟩ : Fin cfg0.N)) (wB V c (⟨n + 1, h⟩ : Fin cfg0.N)) (biasBlk V c (⟨n + 1, h⟩ : Fin cfg0.N)))) := by
  have hN : cfg0.N = 25 := N_0
  have hB : ¬(⟨n + 1, h⟩ : Fin cfg0.N).val % 25 = 0 := by dsimp only; omega
  exact (outsAt0_B V c (⟨n + 1, h⟩ : Fin cfg0.N) hB).trans (congrArg₂ Prod.mk
    (act_later (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (nodesBlk V c (⟨n + 1, h⟩ : Fin cfg0.N)) (aggBlk V c (⟨n + 1, h⟩ : Fin cfg0.N)) (wA V c (⟨n + 1, h⟩ : Fin cfg0.N)) (wB V c (⟨n + 1, h⟩ : Fin cfg0.N)) (biasBlk V c (⟨n + 1, h⟩ : Fin cfg0.N)) (outsAt0 V c n (Nat.lt_of_succ_lt h)).2.1 (outsAt0 V c n (Nat.lt_of_succ_lt h)).2.2)
    (congrArg₂ Prod.mk
      (sum_later (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (nodesBlk V c (⟨n + 1, h⟩ : Fin cfg0.N)) (aggBlk V c (⟨n + 1, h⟩ : Fin cfg0.N)) (wA V c (⟨n + 1, h⟩ : Fin cfg0.N)) (wB V c (⟨n + 1, h⟩ : Fin cfg0.N)) (biasBlk V c (⟨n + 1, h⟩ : Fin cfg0.N)) (outsAt0 V c n (Nat.lt_of_succ_lt h)).2.1 (outsAt0 V c n (Nat.lt_of_succ_lt h)).2.2)
      (sumsq_later (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => hB ((hcond0_0 (⟨n + 1, h⟩ : Fin cfg0.N)).mp hh)) (nodesBlk V c (⟨n + 1, h⟩ : Fin cfg0.N)) (aggBlk V c (⟨n + 1, h⟩ : Fin cfg0.N)) (wA V c (⟨n + 1, h⟩ : Fin cfg0.N)) (wB V c (⟨n + 1, h⟩ : Fin cfg0.N)) (biasBlk V c (⟨n + 1, h⟩ : Fin cfg0.N)) (outsAt0 V c n (Nat.lt_of_succ_lt h)).2.1 (outsAt0 V c n (Nat.lt_of_succ_lt h)).2.2)))

/-- THE INVARIANT. After point n the activation buffer holds rows 2000 n … 2000 n + 1999 of the activation, the first
    accumulator the column sums of its rows below 2000 (n + 1), the second those of their squares: the reset at the
    first point starts both from zero, each later point adds one block of 2000 rows. -/
theorem after_point : ∀ (n : ℕ) (h : n < cfg0.N),
    (∀ (r : Fin 2000) (q : Fin 128),
        ((outsAt0 V c n h).1 : Vec Ideal S2000x128 .f32) (ix2 r q) = col V c q (2000 * n + r.val))
    ∧ (∀ q : Fin 128, ((outsAt0 V c n h).2.1 : Vec Ideal S1x128 .f32) (ix2 0 q)
        = ∑ i ∈ Finset.range (2000 * (n + 1)), col V c q i)
    ∧ (∀ q : Fin 128, ((outsAt0 V c n h).2.2 : Vec Ideal S1x128 .f32) (ix2 0 q)
        = ∑ i ∈ Finset.range (2000 * (n + 1)), col V c q i * col V c q i)
  | 0, h => by
    rw [outs_first V c h]
    dsimp only
    refine ⟨fun r q => act_block_at V c (⟨0, h⟩ : Fin cfg0.N) r q, fun q => ?_, fun q => ?_⟩
    · refine (sum_at (nodesBlk V c (⟨0, h⟩ : Fin cfg0.N)) (wA V c (⟨0, h⟩ : Fin cfg0.N)) (aggBlk V c (⟨0, h⟩ : Fin cfg0.N)) (wB V c (⟨0, h⟩ : Fin cfg0.N)) (biasBlk V c (⟨0, h⟩ : Fin cfg0.N)) (k0_pay2 (F := Ideal)) q).trans ?_
      rw [reset_sum_at q, zero_add, block_sum V c (⟨0, h⟩ : Fin cfg0.N) q]
      exact Finset.sum_congr rfl fun i _ => congrArg (col V c q) (by show 2000 * 0 + i = i; omega)
    · refine (sumsq_at (k0_pay6 (k0_pay3 (F := Ideal))) (k0_pay7 (nodesBlk V c (⟨0, h⟩ : Fin cfg0.N)) (wA V c (⟨0, h⟩ : Fin cfg0.N)) (aggBlk V c (⟨0, h⟩ : Fin cfg0.N)) (wB V c (⟨0, h⟩ : Fin cfg0.N)) (biasBlk V c (⟨0, h⟩ : Fin cfg0.N))) q).trans ?_
      rw [carried_eq, reset_sumsq_at q, zero_add, block_sumsq V c (⟨0, h⟩ : Fin cfg0.N) q]
      exact Finset.sum_congr rfl fun i _ => by
        rw [show 2000 * (⟨0, h⟩ : Fin cfg0.N).val + i = i by show 2000 * 0 + i = i; omega]
  | n + 1, h => by
    obtain ⟨-, ih6, ih7⟩ := after_point n (Nat.lt_of_succ_lt h)
    rw [outs_later V c n h]
    dsimp only
    refine ⟨fun r q => act_block_at V c (⟨n + 1, h⟩ : Fin cfg0.N) r q, fun q => ?_, fun q => ?_⟩
    · refine (sum_at (nodesBlk V c (⟨n + 1, h⟩ : Fin cfg0.N)) (wA V c (⟨n + 1, h⟩ : Fin cfg0.N)) (aggBlk V c (⟨n + 1, h⟩ : Fin cfg0.N)) (wB V c (⟨n + 1, h⟩ : Fin cfg0.N)) (biasBlk V c (⟨n + 1, h⟩ : Fin cfg0.N)) (outsAt0 V c n (Nat.lt_of_succ_lt h)).2.1 q).trans ?_
      rw [ih6 q, block_sum V c (⟨n + 1, h⟩ : Fin cfg0.N) q, show 2000 * (n + 1 + 1) = 2000 * (n + 1) + 2000 by omega, Finset.sum_range_add]
    · refine (sumsq_at (k0_pay6 (outsAt0 V c n (Nat.lt_of_succ_lt h)).2.2) (k0_pay7 (nodesBlk V c (⟨n + 1, h⟩ : Fin cfg0.N)) (wA V c (⟨n + 1, h⟩ : Fin cfg0.N)) (aggBlk V c (⟨n + 1, h⟩ : Fin cfg0.N)) (wB V c (⟨n + 1, h⟩ : Fin cfg0.N)) (biasBlk V c (⟨n + 1, h⟩ : Fin cfg0.N))) q).trans ?_
      rw [carried_eq, ih7 q, block_sumsq V c (⟨n + 1, h⟩ : Fin cfg0.N) q, show 2000 * (n + 1 + 1) = 2000 * (n + 1) + 2000 by omega,
        Finset.sum_range_add]

/-! ## From the blocks to the arrays -/

/-- The activation as an array. -/
def actArr : S50000x128.Idx → EReal := fun i => H1 V c (i 0) (i 1)

/-- The column sums of the activation as a one-row array. -/
def sumArr : S1x128.Idx → EReal := fun i => Spec.colsum (H1 V c) (i 1)

/-- The column sums of the activation's squares as a one-row array. -/
def sumsqArr : S1x128.Idx → EReal := fun i => Spec.colsumsq (H1 V c) (i 1)

theorem actArr_ix (p : Fin 50000) (q : Fin 128) : actArr V c (ix2 p q) = H1 V c p q := rfl
theorem sumArr_ix (q : Fin 128) : sumArr V c (ix2 0 q) = Spec.colsum (H1 V c) q := rfl
theorem sumsqArr_ix (q : Fin 128) : sumsqArr V c (ix2 0 q) = Spec.colsumsq (H1 V c) q := rfl

/-- Block t of any contents of the activation array, at entry (r, q): the contents at row 2000 t + r. -/
theorem act_block_read (G : S50000x128.Idx → EReal) (t : Fin cfg0.N) (r : Fin 2000) (q : Fin 128)
    (h : 2000 * t.val + r.val < 50000) :
    (((cfg0.win 5).blk t).view.read (Elt Ideal) G : Vec Ideal S2000x128 .f32) (ix2 r q)
      = G (ix2 ⟨2000 * t.val + r.val, h⟩ q) := by
  have hi := block_index t
  rw [View.read_apply]
  show G _ = G _
  congr 1
  funext a
  apply Fin.ext
  match a with
  | ⟨0, _⟩ => show win0_5.index t 0 * 2000 + 1 * r.val = 2000 * t.val + r.val
              rw [hi.2.2.2.2.2.2.2.2.2.2.1]; omega
  | ⟨1, _⟩ => show win0_5.index t 1 * 128 + 1 * q.val = q.val
              rw [hi.2.2.2.2.2.2.2.2.2.2.2.1]; omega

/-- The one block of any contents of the first accumulator's array is those contents. -/
theorem sum_block_read (G : S1x128.Idx → EReal) (t : Fin cfg0.N) (q : Fin 128) :
    (((cfg0.win 6).blk t).view.read (Elt Ideal) G : Vec Ideal S1x128 .f32) (ix2 0 q) = G (ix2 0 q) := by
  have hi := block_index t
  rw [View.read_apply]
  show G _ = G _
  congr 1
  funext a
  apply Fin.ext
  match a with
  | ⟨0, _⟩ => show win0_6.index t 0 * 1 + 1 * 0 = 0
              rw [hi.2.2.2.2.2.2.2.2.2.2.2.2.1]
  | ⟨1, _⟩ => show win0_6.index t 1 * 128 + 1 * q.val = q.val
              rw [hi.2.2.2.2.2.2.2.2.2.2.2.2.2.1]; omega

/-- The one block of any contents of the second accumulator's array is those contents. -/
theorem sumsq_block_read (G : S1x128.Idx → EReal) (t : Fin cfg0.N) (q : Fin 128) :
    (((cfg0.win 7).blk t).view.read (Elt Ideal) G : Vec Ideal S1x128 .f32) (ix2 0 q) = G (ix2 0 q) := by
  have hi := block_index t
  rw [View.read_apply]
  show G _ = G _
  congr 1
  funext a
  apply Fin.ext
  match a with
  | ⟨0, _⟩ => show win0_7.index t 0 * 1 + 1 * 0 = 0
              rw [hi.2.2.2.2.2.2.2.2.2.2.2.2.2.2.1]
  | ⟨1, _⟩ => show win0_7.index t 1 * 128 + 1 * q.val = q.val
              rw [hi.2.2.2.2.2.2.2.2.2.2.2.2.2.2.2]; omega

/-- All 50000 terms of a column's sequence sum to the activation's column sum. -/
theorem col_sum_total (q : Fin 128) :
    ∑ i ∈ Finset.range (2000 * (24 + 1)), col V c q i = Spec.colsum (H1 V c) q := by
  unfold Spec.colsum
  rw [show 2000 * (24 + 1) = 50000 by norm_num, ← Fin.sum_univ_eq_sum_range (fun i => col V c q i) 50000]
  exact Finset.sum_congr rfl fun p _ => col_lt V c q p.val p.isLt

/-- And their squares to the column sum of the activation's squares. -/
theorem col_sumsq_total (q : Fin 128) :
    ∑ i ∈ Finset.range (2000 * (24 + 1)), col V c q i * col V c q i = Spec.colsumsq (H1 V c) q := by
  unfold Spec.colsumsq
  rw [show 2000 * (24 + 1) = 50000 by norm_num,
    ← Fin.sum_univ_eq_sum_range (fun i => col V c q i * col V c q i) 50000]
  exact Finset.sum_congr rfl fun p _ => by rw [col_lt V c q p.val p.isLt]

/-- WHAT POINT t WRITES BACK to the activation array is block t of the activation. -/
theorem act_flushed (t : Fin cfg0.N) :
    (dat0 V c).flushed 5 t = ((cfg0.win 5).blk t).view.read (Elt Ideal) (actArr V c) := by
  have hN : t.val < 25 := lt_of_lt_of_eq t.isLt (show cfg0.N = 25 from N_0)
  show (cfg0.win 5).cut (grid0.coords t) ((dat0 V c).after 5 t) = _
  rw [after0_5]
  funext y
  obtain ⟨r, q, rfl⟩ : ∃ (r : Fin 2000) (q : Fin 128), y = ix2 r q := ⟨y 0, y 1, eq_ix2 y⟩
  have h : 2000 * t.val + r.val < 50000 := by have := r.isLt; omega
  refine ((after_point V c t.val t.isLt).1 r q).trans ?_
  refine (col_lt V c q _ h).trans ?_
  exact ((act_block_read (actArr V c) t r q h).trans (actArr_ix V c ⟨2000 * t.val + r.val, h⟩ q)).symm
/-- Every row of the activation array is in the block of the point its row falls in. -/
theorem act_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  have hi := block_index t
  refine ⟨t, flush0_5 t, ?_⟩
  rw [mem_act_block]
  intro a
  match a with
  | ⟨0, _⟩ =>
    show win0_5.index t 0 * 2000 ≤ (i 0).val ∧ (i 0).val < win0_5.index t 0 * 2000 + 2000
    rw [hi.2.2.2.2.2.2.2.2.2.2.1, ht]; omega
  | ⟨1, _⟩ =>
    show win0_5.index t 1 * 128 ≤ (i 1).val ∧ (i 1).val < win0_5.index t 1 * 128 + 128
    rw [hi.2.2.2.2.2.2.2.2.2.2.2.1]; omega

/-- The activation array after the region. -/
theorem act_final : (dat0 V c).arrAt 5 cfg0.N = actArr V c :=
  (dat0 V c).arrAt_eq_of_cover 5 (actArr V c) (fun t _ => act_flushed V c t) (act_cover)

/-- The last point, the one that writes the accumulators back. -/
theorem last_of_flush (t : Fin cfg0.N) (h : t.val % 25 = 24) : t.val = 24 := by
  have hN : t.val < 25 := lt_of_lt_of_eq t.isLt (show cfg0.N = 25 from N_0)
  omega

/-- WHAT THE LAST POINT WRITES BACK to the first accumulator's array is the row of column sums. -/
theorem sum_flushed (t : Fin cfg0.N) (hf : (cfg0.win 6).flush t = true) :
    (dat0 V c).flushed 6 t = ((cfg0.win 6).blk t).view.read (Elt Ideal) (sumArr V c) := by
  have h24 : t.val = 24 := last_of_flush t ((flush0_6 t).mp hf)
  show (cfg0.win 6).cut (grid0.coords t) ((dat0 V c).after 6 t) = _
  rw [after0_6]
  funext y
  obtain ⟨u, q, rfl⟩ : ∃ (u : Fin 1) (q : Fin 128), y = ix2 u q := ⟨y 0, y 1, eq_ix2 y⟩
  obtain rfl : u = 0 := Subsingleton.elim _ _
  refine ((after_point V c t.val t.isLt).2.1 q).trans ?_
  rw [h24]
  refine (col_sum_total V c q).trans ?_
  exact ((sum_block_read (sumArr V c) t q).trans (sumArr_ix V c q)).symm

/-- WHAT THE LAST POINT WRITES BACK to the second accumulator's array is the row of column sums of squares. -/
theorem sumsq_flushed (t : Fin cfg0.N) (hf : (cfg0.win 7).flush t = true) :
    (dat0 V c).flushed 7 t = ((cfg0.win 7).blk t).view.read (Elt Ideal) (sumsqArr V c) := by
  have h24 : t.val = 24 := last_of_flush t ((flush0_7 t).mp hf)
  show (cfg0.win 7).cut (grid0.coords t) ((dat0 V c).after 7 t) = _
  rw [after0_7]
  funext y
  obtain ⟨u, q, rfl⟩ : ∃ (u : Fin 1) (q : Fin 128), y = ix2 u q := ⟨y 0, y 1, eq_ix2 y⟩
  obtain rfl : u = 0 := Subsingleton.elim _ _
  refine ((after_point V c t.val t.isLt).2.2 q).trans ?_
  rw [h24]
  refine (col_sumsq_total V c q).trans ?_
  exact ((sumsq_block_read (sumsqArr V c) t q).trans (sumsqArr_ix V c q)).symm

/-- The last point's block is the whole one-row array, for either accumulator. -/
theorem last_point : ∃ t : Fin cfg0.N, t.val = 24 := ⟨⟨24, by rw [show cfg0.N = 25 from N_0]; norm_num⟩, rfl⟩

theorem sum_cover (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  obtain ⟨t, ht⟩ := last_point
  have hi := block_index t
  refine ⟨t, (flush0_6 t).mpr (by rw [ht]), ?_⟩
  rw [mem_sum_block]
  intro a
  match a with
  | ⟨0, _⟩ =>
    show win0_6.index t 0 * 1 ≤ (i 0).val ∧ (i 0).val < win0_6.index t 0 * 1 + 1
    rw [hi.2.2.2.2.2.2.2.2.2.2.2.2.1]; omega
  | ⟨1, _⟩ =>
    show win0_6.index t 1 * 128 ≤ (i 1).val ∧ (i 1).val < win0_6.index t 1 * 128 + 128
    rw [hi.2.2.2.2.2.2.2.2.2.2.2.2.2.1]; omega

theorem sumsq_cover (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  obtain ⟨t, ht⟩ := last_point
  have hi := block_index t
  refine ⟨t, (flush0_7 t).mpr (by rw [ht]), ?_⟩
  rw [mem_sumsq_block]
  intro a
  match a with
  | ⟨0, _⟩ =>
    show win0_7.index t 0 * 1 ≤ (i 0).val ∧ (i 0).val < win0_7.index t 0 * 1 + 1
    rw [hi.2.2.2.2.2.2.2.2.2.2.2.2.2.2.1]; omega
  | ⟨1, _⟩ =>
    show win0_7.index t 1 * 128 ≤ (i 1).val ∧ (i 1).val < win0_7.index t 1 * 128 + 128
    rw [hi.2.2.2.2.2.2.2.2.2.2.2.2.2.2.2]; omega

/-- The first accumulator's array after the region. -/
theorem sum_final : (dat0 V c).arrAt 6 cfg0.N = sumArr V c :=
  (dat0 V c).arrAt_eq_of_cover 6 (sumArr V c) (sum_flushed V c) sum_cover

/-- The second accumulator's array after the region. -/
theorem sumsq_final : (dat0 V c).arrAt 7 cfg0.N = sumsqArr V c :=
  (dat0 V c).arrAt_eq_of_cover 7 (sumsqArr V c) (sumsq_flushed V c) sumsq_cover

/-- The activation array after the region. -/
theorem arr5 (p : Fin 50000) (q : Fin 128) :
    ((dat0 V c).arrAt 5 cfg0.N : S50000x128.Idx → EReal) (ix2 p q) = H1 V c p q :=
  congrFun (act_final V c) (ix2 p q)

/-- The first accumulator after the region: the column sums of the activation. -/
theorem arr6 (q : Fin 128) :
    ((dat0 V c).arrAt 6 cfg0.N : S1x128.Idx → EReal) (ix2 0 q) = Spec.colsum (H1 V c) q :=
  congrFun (sum_final V c) (ix2 0 q)

/-- The second accumulator after the region: the column sums of its squares. -/
theorem arr7 (q : Fin 128) :
    ((dat0 V c).arrAt 7 cfg0.N : S1x128.Idx → EReal) (ix2 0 q) = Spec.colsumsq (H1 V c) q :=
  congrFun (sumsq_final V c) (ix2 0 q)

end Cert.KernelIdeal.Reg0

end
-- ==== Proof.K1.lean ====
/-
  Region 1 (the second layer), read as values over the extended reals: from the arrays the region finds
  (the first activation, its mean and variance rows, scale, shift, weight, bias), the activation array it leaves is
  silu of the linear layer of the normalized input, and the two accumulators end at its column sums and column
  sums of squares.

  The road: each case of the body leaves, in the three staging buffers, the payloads of the blocks it read; a payload
  read at a row and a feature is the specification's term over the blocks; a block's entry is the array's entry at
  row 2000 t + r; so after point t the activation's staging block holds rows 2000 t .. 2000 t + 1999 of the second
  activation, and, by induction on the point, the accumulators hold the sums over the first 2000 (t + 1) rows. Every
  point writes its activation block back and the blocks tile the array; the last point writes the accumulators back.
-/
import proofs.«146441_j13108240188139_1_alg».proof.Proof.Gen.KernelIdeal.Frame
import proofs.«146441_j13108240188139_1_alg».proof.Proof.Spec
import proofs.«146441_j13108240188139_1_alg».proof.Proof.Args
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg1

open Cert.KernelIdeal Cert.KernelIdeal.Gen Cert.Args
open Idealize.ShloMosaic Idealize.ShloMosaic.TcCoe Idealize.SL.Sem Idealize.ShloMosaic.ValueIdx
open Idealize.ShloMosaic.Pipeline (Dat)

/-! ## What each case of the body leaves in the staging buffers -/

section Pieces
variable {F : FTy → Type} [FloatOps F]

/-- The zero offsets of a whole block. -/
theorem hz : (![0, 0] : Fin 2 → Nat) = fun _ => 0 := funext fun a => by fin_cases a <;> rfl

/-- Where the accumulators are carried, the activation block left is the payload of the seven blocks read. -/
theorem out_B_7 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = k1_pay5 x0 x1 x2 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x128) hz, View.ld_unit_zero (S := S1x128) hz, View.ld_unit_zero (S := S128x128) hz]

/-- Where the accumulators are carried, the first one ends at its old contents plus the block's column sums. -/
theorem out_B_8 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x1 x2 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2000x128) hz, View.ld_unit_zero (S := S1x128) hz, View.ld_unit_zero (S := S128x128) hz]

/-- Where the accumulators are carried, the second one ends at its old contents plus the column sums of squares. -/
theorem out_B_9 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h9.read_unread, h10.read_unread, View.ld_unit_zero (S := S2000x128) hz, View.ld_unit_zero (S := S1x128) hz, View.ld_unit_zero (S := S128x128) hz]

/-- Where the accumulators are reset, the activation block left is the same payload. -/
theorem out_A_7 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out1_A_7 c i a1 h1 a2 h2 a3 h3 a4 h4 a5 h5 a6 h6 a7 h7 a8 h8 a9 h9 a10 h10 hc x0 x1 x2 x3 x4 x5 x6 = k1_pay5 x0 x1 x2 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x128) hz, View.ld_unit_zero (S := S1x128) hz, View.ld_unit_zero (S := S128x128) hz]

/-- Where the accumulators are reset, the first one ends at the zero row plus the block's column sums. -/
theorem out_A_8 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay1 (k1_pay5 x0 x1 x2 x3 x4 x5 x6) k1_pay3 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S2000x128) hz, View.ld_unit_zero (S := S1x128) hz, View.ld_unit_zero (S := S128x128) hz]

/-- Where the accumulators are reset, the second one ends at the zero row plus the column sums of squares. -/
theorem out_A_9 (c : Dev nD) (i : grid1.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay2 (k1_pay5 x0 x1 x2 x3 x4 x5 x6) k1_pay4 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S2000x128) hz, View.ld_unit_zero (S := S1x128) hz, View.ld_unit_zero (S := S128x128) hz]

end Pieces

/-! ## The payloads read at a row and a feature -/

section Payload

/-- The reciprocal square root of a row, entry by entry. -/
theorem rsqrt_apply {s : Shape} {φ : FTy} (a : FVec Ideal s φ) (i : s.Idx) : rsqrt a i = Ideal.rsqrt (a i) := rfl
/-- The logistic function of a block, entry by entry. -/
theorem logistic_apply {s : Shape} {φ : FTy} (a : FVec Ideal s φ) (i : s.Idx) : logistic a i = Ideal.logistic (a i) := rfl
/-- A scalar word read as the extended real it encodes. -/
theorem scalar_ofBits (φ : FTy) (b : BitVec φ.bits) : Scalar.ofBits (F := Ideal) φ b = Ideal.ofBits φ b := rfl

/-- In the product of a 2000 by 128 block with a 128 by 128 matrix, the left factor's row is the result's row, -/
theorem lhs_dot_0 (j : S2000x128.Idx) (k : dot_S2000x128_S128x128_S2000x128_1_0_0_1_n_n.contr.Idx) :
    (dot_S2000x128_S128x128_S2000x128_1_0_0_1_n_n.lhsIdx j k 0).val = (j 0).val := rfl
/-- its column the contracted coordinate; -/
theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val := rfl
/-- the right factor's row is the contracted coordinate, -/
theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val := rfl
/-- its column the result's column. -/
theorem rhs_dot_1 (j : S2000x128.Idx) (k : dot_S2000x128_S128x128_S2000x128_1_0_0_1_n_n.contr.Idx) :
    (dot_S2000x128_S128x128_S2000x128_1_0_0_1_n_n.rhsIdx j k 1).val = (j 1).val := rfl

/-- The product into the zero block, at a row and a column: the sum over the 128 contracted coordinates of the products. -/
theorem matmul_ix (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ κ : Fin 128, A (ix2 p κ) * B (ix2 κ q) := by
  refine (Ideal.matmul_constant_zero_apply dot_S2000x128_S128x128_S2000x128_1_0_0_1_n_n none A B (ix2 p q)).trans ?_
  rw [← Equiv.sum_comp (contrEquiv1 dot_S2000x128_S128x128_S2000x128_1_0_0_1_n_n 128 rfl rfl).symm]
  refine Finset.sum_congr rfl fun κ _ => ?_
  have hk := contrEquiv1_symm_val dot_S2000x128_S128x128_S2000x128_1_0_0_1_n_n 128 rfl rfl κ
  have hl : dot_S2000x128_S128x128_S2000x128_1_0_0_1_n_n.lhsIdx (ix2 p q)
      ((contrEquiv1 dot_S2000x128_S128x128_S2000x128_1_0_0_1_n_n 128 rfl rfl).symm κ) = ix2 p κ := by
    funext a; apply Fin.ext
    match a with
    | ⟨0, _⟩ => exact lhs_dot_0 _ _
    | ⟨1, _⟩ => exact (lhs_dot_1 _ _).trans hk
  have hr : dot_S2000x128_S128x128_S2000x128_1_0_0_1_n_n.rhsIdx (ix2 p q)
      ((contrEquiv1 dot_S2000x128_S128x128_S2000x128_1_0_0_1_n_n 128 rfl rfl).symm κ) = ix2 κ q := by
    funext a; apply Fin.ext
    match a with
    | ⟨0, _⟩ => exact (rhs_dot_0 _ _).trans hk
    | ⟨1, _⟩ => exact rhs_dot_1 _ _
  rw [hl, hr]

/-- The activation block at a row and a feature: silu of the linear layer of the normalized rows. -/
theorem pay5_apply (x0 : Vec Ideal S2000x128 .f32) (x1 : Vec Ideal S1x128 .f32) (x2 : Vec Ideal S1x128 .f32) (x3 : Vec Ideal S1x128 .f32) (x4 : Vec Ideal S1x128 .f32) (x5 : Vec Ideal S128x128 .f32) (x6 : Vec Ideal S1x128 .f32) (p : Fin 2000) (q : Fin 128) :
    k1_pay5 (F := Ideal) x0 x1 x2 x3 x4 x5 x6 (ix2 p q)
      = Spec.act (Spec.lin (Spec.bn (mat x0) (row x1) (row x2) (Ideal.ofBits .f32 0x3727C5AC#32) (row x3) (row x4))
          (mat x5) (row x6)) p q := by
  unfold k1_pay5 Spec.act Spec.lin Spec.bn Spec.silu
  simp only [mulf_apply, logistic_apply, addf_apply, subf_apply, matmul_ix, truncf_apply, shapeCast_self,
    broadcastTo_1b_ab_apply, rsqrt_apply, broadcast_apply, scalar_ofBits, mat_apply, row_apply]

/-- A sum over the rows of a block, at a feature. -/
theorem colsum_ix (v : FVec Ideal S2000x128 .f32) (q : Fin 128) :
    multiReduction (F := Ideal) .add [0] S128 v 0x00000000#32 reduces_S2000x128_S128 (.inl rfl) rfl (ix1 q)
      = ∑ r : Fin 2000, v (ix2 r q) := by
  refine (Ideal.multiReduction_add_single v 0x00000000#32 reduces_S2000x128_S128 (.inl rfl) rfl (ix1 q)).trans ?_
  refine Finset.sum_congr rfl fun r _ => congrArg v ?_
  funext a
  match a with
  | ⟨0, _⟩ => rfl
  | ⟨1, _⟩ => rfl

/-- The first accumulator's update at a feature: the old entry plus the block's column sum. -/
theorem pay1_apply (v : FVec Ideal S2000x128 .f32) (xo : Vec Ideal S1x128 .f32) (q : Fin 128) :
    k1_pay1 (F := Ideal) v xo (ix2 0 q) = xo (ix2 0 q) + ∑ r : Fin 2000, v (ix2 r q) := by
  unfold k1_pay1
  simp only [addf_apply, shapeCast_self, shapeCast_a_1a_apply]
  rw [colsum_ix]

/-- The second accumulator's update at a feature: the old entry plus the block's column sum of squares. -/
theorem pay2_apply (v : FVec Ideal S2000x128 .f32) (xo : Vec Ideal S1x128 .f32) (q : Fin 128) :
    k1_pay2 (F := Ideal) v xo (ix2 0 q) = xo (ix2 0 q) + ∑ r : Fin 2000, v (ix2 r q) * v (ix2 r q) := by
  unfold k1_pay2
  simp only [addf_apply, shapeCast_self, shapeCast_a_1a_apply]
  rw [colsum_ix]
  simp only [mulf_apply]

/-- The reset rows are zero. -/
theorem pay3_apply (q : Fin 128) : k1_pay3 (F := Ideal) (ix2 0 q) = 0 := Ideal.ofBits_zero_f32
theorem pay4_apply (q : Fin 128) : k1_pay4 (F := Ideal) (ix2 0 q) = 0 := Ideal.ofBits_zero_f32

end Payload

/-! ## The blocks, and the staging buffers after each point -/

variable (V : (c : Dev nD) → (b : Ref sig .tc) → Buf (Elt Ideal) ((c : Thread nD τ).loc b)) (c : Dev nD)

/-- The second activation over the arrays the region finds. -/
abbrev H2 : Fin 50000 → Fin 128 → EReal :=
  Spec.act (Spec.lin (Spec.bn (mat (V c main_v14_0)) (row (V c main_v16)) (row (V c main_v20)) (Ideal.ofBits .f32 0x3727C5AC#32)
    (row (V c main_v8)) (row (V c main_v9))) (mat (V c main_arg7)) (row (V c main_v10)))

section Blocks

/-- The block index maps over the grid: the row blocks of the input and of the activation move with the point, -/
theorem idx_rows : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)
/-- and every small array is one block, at index zero. -/
theorem idx_small : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The grid has 25 points. -/
theorem tlt (t : Fin cfg1.N) : t.val < 25 := lt_of_lt_of_eq t.isLt (show cfg1.N = 25 from N_1)

/-- Row r of the input block at point t is row 2000 t + r of the first activation. -/
theorem b0_apply (t : Fin cfg1.N) (r : Fin 2000) (h : 2000 * t.val + r.val < 50000) (κ : Fin 128) :
    mat (iblk1 V c 0 t : Vec Ideal S2000x128 .f32) r κ = mat (V c main_v14_0) ⟨2000 * t.val + r.val, h⟩ κ := by
  unfold mat iblk1
  rw [View.read_apply]
  show V c main_v14_0 _ = V c main_v14_0 _
  congr 1
  funext a; apply Fin.ext
  match a with
  | ⟨0, _⟩ => show win1_0.index t 0 * 2000 + 1 * r.val = 2000 * t.val + r.val; rw [(idx_rows t).1]; omega
  | ⟨1, _⟩ => show win1_0.index t 1 * 128 + 1 * κ.val = κ.val; rw [(idx_rows t).2.1]; omega

/-- The mean row's block is the mean row. -/
theorem b1_row (t : Fin cfg1.N) : row (iblk1 V c 1 t : Vec Ideal S1x128 .f32) = row (V c main_v16) := by
  funext κ
  unfold row iblk1
  rw [View.read_apply]
  show V c main_v16 _ = V c main_v16 _
  congr 1
  funext a; apply Fin.ext
  match a with
  | ⟨0, _⟩ => show win1_1.index t 0 * 1 + 1 * 0 = 0; rw [(idx_small t).1]
  | ⟨1, _⟩ => show win1_1.index t 1 * 128 + 1 * κ.val = κ.val; rw [(idx_small t).2.1]; omega

/-- The variance row's block is the variance row. -/
theorem b2_row (t : Fin cfg1.N) : row (iblk1 V c 2 t : Vec Ideal S1x128 .f32) = row (V c main_v20) := by
  funext κ
  unfold row iblk1
  rw [View.read_apply]
  show V c main_v20 _ = V c main_v20 _
  congr 1
  funext a; apply Fin.ext
  match a with
  | ⟨0, _⟩ => show win1_2.index t 0 * 1 + 1 * 0 = 0; rw [(idx_small t).2.2.1]
  | ⟨1, _⟩ => show win1_2.index t 1 * 128 + 1 * κ.val = κ.val; rw [(idx_small t).2.2.2.1]; omega

/-- The scale row's block is the scale row. -/
theorem b3_row (t : Fin cfg1.N) : row (iblk1 V c 3 t : Vec Ideal S1x128 .f32) = row (V c main_v8) := by
  funext κ
  unfold row iblk1
  rw [View.read_apply]
  show V c main_v8 _ = V c main_v8 _
  congr 1
  funext a; apply Fin.ext
  match a with
  | ⟨0, _⟩ => show win1_3.index t 0 * 1 + 1 * 0 = 0; rw [(idx_small t).2.2.2.2.1]
  | ⟨1, _⟩ => show win1_3.index t 1 * 128 + 1 * κ.val = κ.val; rw [(idx_small t).2.2.2.2.2.1]; omega

/-- The shift row's block is the shift row. -/
theorem b4_row (t : Fin cfg1.N) : row (iblk1 V c 4 t : Vec Ideal S1x128 .f32) = row (V c main_v9) := by
  funext κ
  unfold row iblk1
  rw [View.read_apply]
  show V c main_v9 _ = V c main_v9 _
  congr 1
  funext a; apply Fin.ext
  match a with
  | ⟨0, _⟩ => show win1_4.index t 0 * 1 + 1 * 0 = 0; rw [(idx_small t).2.2.2.2.2.2.1]
  | ⟨1, _⟩ => show win1_4.index t 1 * 128 + 1 * κ.val = κ.val; rw [(idx_small t).2.2.2.2.2.2.2.1]; omega

/-- The weight's block is the weight. -/
theorem b5_mat (t : Fin cfg1.N) : mat (iblk1 V c 5 t : Vec Ideal S128x128 .f32) = mat (V c main_arg7) := by
  funext κ q
  unfold mat iblk1
  rw [View.read_apply]
  show V c main_arg7 _ = V c main_arg7 _
  congr 1
  funext a; apply Fin.ext
  match a with
  | ⟨0, _⟩ => show win1_5.index t 0 * 128 + 1 * κ.val = κ.val; rw [(idx_small t).2.2.2.2.2.2.2.2.1]; omega
  | ⟨1, _⟩ => show win1_5.index t 1 * 128 + 1 * q.val = q.val; rw [(idx_small t).2.2.2.2.2.2.2.2.2.1]; omega

/-- The bias row's block is the bias row. -/
theorem b6_row (t : Fin cfg1.N) : row (iblk1 V c 6 t : Vec Ideal S1x128 .f32) = row (V c main_v10) := by
  funext κ
  unfold row iblk1
  rw [View.read_apply]
  show V c main_v10 _ = V c main_v10 _
  congr 1
  funext a; apply Fin.ext
  match a with
  | ⟨0, _⟩ => show win1_6.index t 0 * 1 + 1 * 0 = 0; rw [(idx_small t).2.2.2.2.2.2.2.2.2.2.1]
  | ⟨1, _⟩ => show win1_6.index t 1 * 128 + 1 * κ.val = κ.val; rw [(idx_small t).2.2.2.2.2.2.2.2.2.2.2.1]; omega

/-- The payload of the blocks at point t, at row r: the second activation at row 2000 t + r. -/
theorem blk_H2 (t : Fin cfg1.N) (r : Fin 2000) (h : 2000 * t.val + r.val < 50000) (q : Fin 128) :
    k1_pay5 (F := Ideal) (iblk1 V c 0 t) (iblk1 V c 1 t) (iblk1 V c 2 t) (iblk1 V c 3 t) (iblk1 V c 4 t) (iblk1 V c 5 t)
        (iblk1 V c 6 t) (ix2 r q)
      = H2 V c ⟨2000 * t.val + r.val, h⟩ q := by
  refine (pay5_apply (iblk1 V c 0 t) (iblk1 V c 1 t) (iblk1 V c 2 t) (iblk1 V c 3 t) (iblk1 V c 4 t) (iblk1 V c 5 t)
    (iblk1 V c 6 t) r q).trans ?_
  rw [b1_row V c t, b2_row V c t, b3_row V c t, b4_row V c t, b5_mat V c t, b6_row V c t]
  simp only [Spec.act, Spec.lin, Spec.bn, b0_apply V c t r h]

end Blocks

section Points

/-- The second activation's entry in row i of a column, zero past the last row. -/
def hrow (q : Fin 128) (i : ℕ) : EReal := if h : i < 50000 then H2 V c ⟨i, h⟩ q else 0

theorem hrow_lt (q : Fin 128) (i : ℕ) (h : i < 50000) : hrow V c q i = H2 V c ⟨i, h⟩ q := dif_pos h

/-- The payload of the blocks at point t, at row r of the block. -/
theorem blk_hrow (t : Fin cfg1.N) (r : Fin 2000) (q : Fin 128) :
    k1_pay5 (F := Ideal) (iblk1 V c 0 t) (iblk1 V c 1 t) (iblk1 V c 2 t) (iblk1 V c 3 t) (iblk1 V c 4 t) (iblk1 V c 5 t) (iblk1 V c 6 t) (ix2 r q) = hrow V c q (2000 * t.val + r.val) := by
  have h : 2000 * t.val + r.val < 50000 := by have := tlt t; omega
  rw [hrow_lt V c q _ h]
  exact blk_H2 V c t r h q

/-- The column sums of the block at point t: the entries of rows 2000 t to 2000 t + 1999. -/
theorem blk_sum (t : Fin cfg1.N) (q : Fin 128) :
    ∑ r : Fin 2000, k1_pay5 (F := Ideal) (iblk1 V c 0 t) (iblk1 V c 1 t) (iblk1 V c 2 t) (iblk1 V c 3 t) (iblk1 V c 4 t) (iblk1 V c 5 t) (iblk1 V c 6 t) (ix2 r q) = ∑ i ∈ Finset.range 2000, hrow V c q (2000 * t.val + i) := by
  rw [← Fin.sum_univ_eq_sum_range (fun i => hrow V c q (2000 * t.val + i)) 2000]
  exact Finset.sum_congr rfl fun r _ => blk_hrow V c t r q

/-- The column sums of squares of the block at point t. -/
theorem blk_sumsq (t : Fin cfg1.N) (q : Fin 128) :
    ∑ r : Fin 2000, k1_pay5 (F := Ideal) (iblk1 V c 0 t) (iblk1 V c 1 t) (iblk1 V c 2 t) (iblk1 V c 3 t) (iblk1 V c 4 t) (iblk1 V c 5 t) (iblk1 V c 6 t) (ix2 r q) * k1_pay5 (F := Ideal) (iblk1 V c 0 t) (iblk1 V c 1 t) (iblk1 V c 2 t) (iblk1 V c 3 t) (iblk1 V c 4 t) (iblk1 V c 5 t) (iblk1 V c 6 t) (ix2 r q)
      = ∑ i ∈ Finset.range 2000, hrow V c q (2000 * t.val + i) * hrow V c q (2000 * t.val + i) := by
  rw [← Fin.sum_univ_eq_sum_range (fun i => hrow V c q (2000 * t.val + i) * hrow V c q (2000 * t.val + i)) 2000]
  exact Finset.sum_congr rfl fun r _ => by rw [blk_hrow V c t r q]

/-- After every point the activation's staging block holds rows 2000 t to 2000 t + 1999 of the second activation. -/
theorem out7 (t : Fin cfg1.N) (y : S2000x128.Idx) :
    (outsAt1 V c t.val t.isLt).1 y = hrow V c ⟨(y 1).val, idx2_lt1 y⟩ (2000 * t.val + (y 0).val) := by
  obtain ⟨r, q, rfl⟩ : ∃ (r : Fin 2000) (q : Fin 128), y = ix2 r q := ⟨y 0, y 1, eq_ix2 y⟩
  show (outsAt1 V c t.val t.isLt).1 (ix2 r q) = hrow V c q (2000 * t.val + r.val)
  by_cases h0 : t.val % 25 = 0
  · rw [outsAt1_A V c t h0]; dsimp only
    refine (congrFun (out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)) (ix2 r q)).trans ?_
    exact blk_hrow V c t r q
  · rw [outsAt1_B V c t h0]; dsimp only
    refine (congrFun (out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t)
      (outsAt1 V c (t.val - 1) (Nat.lt_of_le_of_lt (Nat.sub_le _ _) t.isLt)).2.1 (outsAt1 V c (t.val - 1) (Nat.lt_of_le_of_lt (Nat.sub_le _ _) t.isLt)).2.2) (ix2 r q)).trans ?_
    exact blk_hrow V c t r q

/-- After point n the first accumulator holds the column sums over the first 2000 (n + 1) rows. -/
theorem acc8 : ∀ (n : ℕ) (hn : n < cfg1.N) (q : Fin 128),
    (outsAt1 V c n hn).2.1 (ix2 0 q) = ∑ i ∈ Finset.range (2000 * (n + 1)), hrow V c q i
  | 0, hn, q => by
    rw [outsAt1_A V c ⟨0, hn⟩ rfl]; dsimp only
    refine (congrFun (out_A_8 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)) (ix2 0 q)).trans ?_
    refine (pay1_apply _ _ q).trans ?_
    rw [pay3_apply, zero_add, blk_sum V c ⟨0, hn⟩ q]
    simp only [Nat.mul_zero, Nat.zero_add, Nat.mul_one]
  | n + 1, hn, q => by
    have hB : ¬(⟨n + 1, hn⟩ : Fin cfg1.N).val % 25 = 0 := by
      have := tlt ⟨n + 1, hn⟩; dsimp only at this ⊢; omega
    rw [outsAt1_B V c ⟨n + 1, hn⟩ hB]; dsimp only
    refine (congrFun (out_B_8 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
      (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2) (ix2 0 q)).trans ?_
    refine (pay1_apply _ _ q).trans ?_
    rw [blk_sum V c ⟨n + 1, hn⟩ q]
    refine (congrArg (· + _) (acc8 n (Nat.lt_of_succ_lt hn) q)).trans ?_
    rw [show 2000 * (n + 1 + 1) = 2000 * (n + 1) + 2000 from by omega, Finset.sum_range_add]

/-- After point n the second accumulator holds the column sums of squares over the first 2000 (n + 1) rows. -/
theorem acc9 : ∀ (n : ℕ) (hn : n < cfg1.N) (q : Fin 128),
    (outsAt1 V c n hn).2.2 (ix2 0 q) = ∑ i ∈ Finset.range (2000 * (n + 1)), hrow V c q i * hrow V c q i
  | 0, hn, q => by
    rw [outsAt1_A V c ⟨0, hn⟩ rfl]; dsimp only
    refine (congrFun (out_A_9 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)) (ix2 0 q)).trans ?_
    refine (pay2_apply _ _ q).trans ?_
    rw [pay4_apply, zero_add, blk_sumsq V c ⟨0, hn⟩ q]
    simp only [Nat.mul_zero, Nat.zero_add, Nat.mul_one]
  | n + 1, hn, q => by
    have hB : ¬(⟨n + 1, hn⟩ : Fin cfg1.N).val % 25 = 0 := by
      have := tlt ⟨n + 1, hn⟩; dsimp only at this ⊢; omega
    rw [outsAt1_B V c ⟨n + 1, hn⟩ hB]; dsimp only
    refine (congrFun (out_B_9 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
      (outsAt1 V c ((⟨n + 1, hn⟩ : Fin cfg1.N).val - 1) (Nat.lt_of_le_of_lt (Nat.sub_le _ _) (⟨n + 1, hn⟩ : Fin cfg1.N).isLt)).2.1 (outsAt1 V c ((⟨n + 1, hn⟩ : Fin cfg1.N).val - 1) (Nat.lt_of_le_of_lt (Nat.sub_le _ _) (⟨n + 1, hn⟩ : Fin cfg1.N).isLt)).2.2) (ix2 0 q)).trans ?_
    refine (pay2_apply _ _ q).trans ?_
    rw [blk_sumsq V c ⟨n + 1, hn⟩ q]
    refine (congrArg (· + _) (acc9 n (Nat.lt_of_succ_lt hn) q)).trans ?_
    rw [show 2000 * (n + 1 + 1) = 2000 * (n + 1) + 2000 from by omega, Finset.sum_range_add]

end Points

/-! ## The arrays after the region -/

section Arrays

/-- What the activation array ends holding: at row p and feature q, the second activation there. -/
def G7 : S50000x128.Idx → EReal := fun i => hrow V c ⟨(i 1).val, idx2_lt1 i⟩ (i 0).val
/-- What the first accumulator ends holding: the column sums over all 50000 rows. -/
def G8 : S1x128.Idx → EReal := fun i => ∑ k ∈ Finset.range 50000, hrow V c ⟨(i 1).val, idx2_lt1 i⟩ k
/-- What the second accumulator ends holding: the column sums of squares over all 50000 rows. -/
def G9 : S1x128.Idx → EReal :=
  fun i => ∑ k ∈ Finset.range 50000, (fun q k => hrow V c q k * hrow V c q k) ⟨(i 1).val, idx2_lt1 i⟩ k

theorem G8_apply (i : S1x128.Idx) :
    G8 V c i = ∑ k ∈ Finset.range 50000, hrow V c ⟨(i 1).val, idx2_lt1 i⟩ k := rfl
theorem G9_apply (i : S1x128.Idx) :
    G9 V c i = ∑ k ∈ Finset.range 50000, (fun q k => hrow V c q k * hrow V c q k) ⟨(i 1).val, idx2_lt1 i⟩ k := rfl
attribute [irreducible] G8 G9

/-- Two sums over initial segments of the rows agree when their lengths and their columns do. -/
theorem range_sum_congr (f : Fin 128 → ℕ → EReal) {n m : ℕ} (hnm : n = m) {q q' : Fin 128} (hq : q.val = q'.val) :
    ∑ i ∈ Finset.range n, f q i = ∑ i ∈ Finset.range m, f q' i := by
  subst hnm
  obtain rfl : q = q' := Fin.ext hq
  rfl

/-- What point t writes back of the activation is block t of it. -/
theorem flushed7 (t : Fin cfg1.N) (hf : (cfg1.win 7).flush t = true) :
    (dat1 V c).flushed 7 t = ((cfg1.win 7).blk t).view.read (Elt Ideal) (G7 V c) := by
  show (cfg1.win 7).cut (grid1.coords t) ((dat1 V c).after 7 t) = _
  rw [after1_7]
  funext j
  refine (out7 V c t j).trans ?_
  show _ = G7 V c (((cfg1.win 7).blk t).view.emb j)
  unfold G7
  have e1 : ((((cfg1.win 7).blk t).view.emb j) 1).val = (j 1).val := by
    show win1_7.index t 1 * 128 + 1 * (j 1).val = (j 1).val
    rw [(idx_rows t).2.2.2]; omega
  have e0 : ((((cfg1.win 7).blk t).view.emb j) 0).val = 2000 * t.val + (j 0).val := by
    show win1_7.index t 0 * 2000 + 1 * (j 0).val = 2000 * t.val + (j 0).val
    rw [(idx_rows t).2.2.1]; omega
  exact congr (congrArg (hrow V c) (Fin.ext e1.symm)) e0.symm

/-- An index of the activation array is in point t's block iff each coordinate is in the block's range. -/
theorem mem_blk7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v21_0).slice (win1_7.rect t)).set ↔ _
  rw [View.set_slice_whole, Rect.mem_set_unit]
  exact Iff.rfl

/-- Row p of the activation array is in the block of point p / 2000. -/
theorem cover7 (i : S50000x128.Idx) : ∃ t : Fin cfg1.N, (cfg1.win 7).flush t = true ∧ i ∈ ((cfg1.win 7).blk t).view.set := by
  have hi0 : (i 0).val < 50000 := idx2_lt0 i
  have hi1 : (i 1).val < 128 := idx2_lt1 i
  have hN : cfg1.N = 25 := N_1
  let t : Fin cfg1.N := ⟨(i 0).val / 2000, by rw [hN]; omega⟩
  refine ⟨t, flush1_7 t, ?_⟩
  rw [mem_blk7]
  intro a
  match a with
  | ⟨0, _⟩ =>
    show win1_7.index t 0 * 2000 ≤ (i 0).val ∧ (i 0).val < win1_7.index t 0 * 2000 + 2000
    rw [(idx_rows t).2.2.1]
    show (i 0).val / 2000 * 2000 ≤ (i 0).val ∧ (i 0).val < (i 0).val / 2000 * 2000 + 2000
    omega
  | ⟨1, _⟩ =>
    show win1_7.index t 1 * 128 ≤ (i 1).val ∧ (i 1).val < win1_7.index t 1 * 128 + 128
    rw [(idx_rows t).2.2.2]; omega

/-- After point n the first accumulator's staging row holds the column sums over the first 2000 (n + 1) rows. -/
theorem out8 (n : ℕ) (hn : n < cfg1.N) (y : S1x128.Idx) :
    (outsAt1 V c n hn).2.1 y = ∑ i ∈ Finset.range (2000 * (n + 1)), (hrow V c) ⟨(y 1).val, idx2_lt1 y⟩ i := by
  obtain ⟨u, q, rfl⟩ : ∃ (u : Fin 1) (q : Fin 128), y = ix2 u q := ⟨y 0, y 1, eq_ix2 y⟩
  obtain rfl : u = 0 := Subsingleton.elim _ _
  exact acc8 V c n hn q

/-- The one write-back of the first accumulator, at the last point, writes the column sums over all rows. -/
theorem flushed8 (t : Fin cfg1.N) (hf : (cfg1.win 8).flush t = true) :
    (dat1 V c).flushed 8 t = ((cfg1.win 8).blk t).view.read (Elt Ideal) (G8 V c) := by
  have h24 : t.val = 24 := by have := (flush1_8 t).mp hf; have := tlt t; omega
  show (cfg1.win 8).cut (grid1.coords t) ((dat1 V c).after 8 t) = _
  rw [after1_8]
  funext j
  refine (out8 V c t.val t.isLt j).trans ?_
  show _ = G8 V c (((cfg1.win 8).blk t).view.emb j)
  rw [G8_apply]
  have e1 : ((((cfg1.win 8).blk t).view.emb j) 1).val = (j 1).val := by
    show win1_8.index t 1 * 128 + 1 * (j 1).val = (j 1).val
    rw [(idx_small t).2.2.2.2.2.2.2.2.2.2.2.2.2.1]; omega
  exact range_sum_congr (hrow V c) (by omega) e1.symm

/-- An index of the accumulator is in point t's block iff each coordinate is in the block's range. -/
theorem mem_blk8 (t : Fin cfg1.N) (i : S1x128.Idx) :
    i ∈ ((cfg1.win 8).blk t).view.set ↔ ∀ a : Fin 2, win1_8.index t a * S1x128.size a ≤ (i a).val
      ∧ (i a).val < win1_8.index t a * S1x128.size a + S1x128.size a := by
  show i ∈ ((View.whole main_v21_1).slice (win1_8.rect t)).set ↔ _
  rw [View.set_slice_whole, Rect.mem_set_unit]
  exact Iff.rfl

/-- The last point's block is the whole accumulator. -/
theorem cover8 (i : S1x128.Idx) : ∃ t : Fin cfg1.N, (cfg1.win 8).flush t = true ∧ i ∈ ((cfg1.win 8).blk t).view.set := by
  have hi0 : (i 0).val < 1 := idx2_lt0 i
  have hi1 : (i 1).val < 128 := idx2_lt1 i
  have hN : cfg1.N = 25 := N_1
  let t : Fin cfg1.N := ⟨24, by rw [hN]; omega⟩
  refine ⟨t, (flush1_8 t).mpr rfl, ?_⟩
  rw [mem_blk8]
  intro a
  match a with
  | ⟨0, _⟩ =>
    show win1_8.index t 0 * 1 ≤ (i 0).val ∧ (i 0).val < win1_8.index t 0 * 1 + 1
    rw [(idx_small t).2.2.2.2.2.2.2.2.2.2.2.2.1]; omega
  | ⟨1, _⟩ =>
    show win1_8.index t 1 * 128 ≤ (i 1).val ∧ (i 1).val < win1_8.index t 1 * 128 + 128
    rw [(idx_small t).2.2.2.2.2.2.2.2.2.2.2.2.2.1]; omega

/-- After point n the second accumulator's staging row holds the column sums of squares over the first 2000 (n + 1) rows. -/
theorem out9 (n : ℕ) (hn : n < cfg1.N) (y : S1x128.Idx) :
    (outsAt1 V c n hn).2.2 y = ∑ i ∈ Finset.range (2000 * (n + 1)), (fun q k => hrow V c q k * hrow V c q k) ⟨(y 1).val, idx2_lt1 y⟩ i := by
  obtain ⟨u, q, rfl⟩ : ∃ (u : Fin 1) (q : Fin 128), y = ix2 u q := ⟨y 0, y 1, eq_ix2 y⟩
  obtain rfl : u = 0 := Subsingleton.elim _ _
  exact acc9 V c n hn q

/-- The one write-back of the second accumulator, at the last point, writes the column sums of squares over all rows. -/
theorem flushed9 (t : Fin cfg1.N) (hf : (cfg1.win 9).flush t = true) :
    (dat1 V c).flushed 9 t = ((cfg1.win 9).blk t).view.read (Elt Ideal) (G9 V c) := by
  have h24 : t.val = 24 := by have := (flush1_9 t).mp hf; have := tlt t; omega
  show (cfg1.win 9).cut (grid1.coords t) ((dat1 V c).after 9 t) = _
  rw [after1_9]
  funext j
  refine (out9 V c t.val t.isLt j).trans ?_
  show _ = G9 V c (((cfg1.win 9).blk t).view.emb j)
  rw [G9_apply]
  have e1 : ((((cfg1.win 9).blk t).view.emb j) 1).val = (j 1).val := by
    show win1_9.index t 1 * 128 + 1 * (j 1).val = (j 1).val
    rw [(idx_small t).2.2.2.2.2.2.2.2.2.2.2.2.2.2.2]; omega
  exact range_sum_congr (fun q k => hrow V c q k * hrow V c q k) (by omega) e1.symm

/-- An index of the accumulator is in point t's block iff each coordinate is in the block's range. -/
theorem mem_blk9 (t : Fin cfg1.N) (i : S1x128.Idx) :
    i ∈ ((cfg1.win 9).blk t).view.set ↔ ∀ a : Fin 2, win1_9.index t a * S1x128.size a ≤ (i a).val
      ∧ (i a).val < win1_9.index t a * S1x128.size a + S1x128.size a := by
  show i ∈ ((View.whole main_v21_2).slice (win1_9.rect t)).set ↔ _
  rw [View.set_slice_whole, Rect.mem_set_unit]
  exact Iff.rfl

/-- The last point's block is the whole accumulator. -/
theorem cover9 (i : S1x128.Idx) : ∃ t : Fin cfg1.N, (cfg1.win 9).flush t = true ∧ i ∈ ((cfg1.win 9).blk t).view.set := by
  have hi0 : (i 0).val < 1 := idx2_lt0 i
  have hi1 : (i 1).val < 128 := idx2_lt1 i
  have hN : cfg1.N = 25 := N_1
  let t : Fin cfg1.N := ⟨24, by rw [hN]; omega⟩
  refine ⟨t, (flush1_9 t).mpr rfl, ?_⟩
  rw [mem_blk9]
  intro a
  match a with
  | ⟨0, _⟩ =>
    show win1_9.index t 0 * 1 ≤ (i 0).val ∧ (i 0).val < win1_9.index t 0 * 1 + 1
    rw [(idx_small t).2.2.2.2.2.2.2.2.2.2.2.2.2.2.1]; omega
  | ⟨1, _⟩ =>
    show win1_9.index t 1 * 128 ≤ (i 1).val ∧ (i 1).val < win1_9.index t 1 * 128 + 128
    rw [(idx_small t).2.2.2.2.2.2.2.2.2.2.2.2.2.2.2]; omega

end Arrays

/-- The activation array after the region. -/
theorem arr7 (p : Fin 50000) (q : Fin 128) :
    ((dat1 V c).arrAt 7 cfg1.N : S50000x128.Idx → EReal) (ix2 p q) = H2 V c p q := by
  refine (congrFun ((dat1 V c).arrAt_eq_of_cover 7 (G7 V c) (flushed7 V c) cover7) (ix2 p q)).trans ?_
  exact hrow_lt V c q p.val p.isLt

/-- The first accumulator after the region: the column sums of the activation. -/
theorem arr8 (q : Fin 128) :
    ((dat1 V c).arrAt 8 cfg1.N : S1x128.Idx → EReal) (ix2 0 q) = Spec.colsum (H2 V c) q := by
  refine (congrFun ((dat1 V c).arrAt_eq_of_cover 8 (G8 V c) (flushed8 V c) cover8) (ix2 0 q)).trans ?_
  refine (G8_apply V c (ix2 0 q)).trans ?_
  unfold Spec.colsum
  show ∑ k ∈ Finset.range 50000, hrow V c q k = _
  rw [← Fin.sum_univ_eq_sum_range (fun k => hrow V c q k) 50000]
  exact Finset.sum_congr rfl fun p _ => hrow_lt V c q p.val p.isLt

/-- The second accumulator after the region: the column sums of its squares. -/
theorem arr9 (q : Fin 128) :
    ((dat1 V c).arrAt 9 cfg1.N : S1x128.Idx → EReal) (ix2 0 q) = Spec.colsumsq (H2 V c) q := by
  refine (congrFun ((dat1 V c).arrAt_eq_of_cover 9 (G9 V c) (flushed9 V c) cover9) (ix2 0 q)).trans ?_
  refine (G9_apply V c (ix2 0 q)).trans ?_
  unfold Spec.colsumsq
  show ∑ k ∈ Finset.range 50000, hrow V c q k * hrow V c q k = _
  rw [← Fin.sum_univ_eq_sum_range (fun k => hrow V c q k * hrow V c q k) 50000]
  exact Finset.sum_congr rfl fun p _ => by rw [hrow_lt V c q p.val p.isLt]

end Cert.KernelIdeal.Reg1

end
-- ==== Proof.K2.lean ====
/-
  Region 2 (the third layer), read as values over the extended reals: from the arrays the region finds
  (the second activation, its mean and variance rows, scale, shift, weight, bias), the array it leaves is the
  linear layer of the normalized input.

  The steps: the contraction's operand indices axis by axis, so that a product into the zero accumulator read at
  (p, q) is the sum over the 128 contracted positions; the body's arithmetic at an index (subtract the mean,
  multiply by the reciprocal square root of variance plus epsilon, scale, shift, contract with the weight, add
  the bias); each loaded block as entries of its array (the activation's block at point t is rows
  2000 t … 2000 t + 1999, every small array is staged whole); what point t writes back as block t of one
  function of the array's index; the 25 blocks cover the 50000 rows, so the array ends at that function.
-/
import proofs.«146441_j13108240188139_1_alg».proof.Proof.Gen.KernelIdeal.Frame
import proofs.«146441_j13108240188139_1_alg».proof.Proof.Spec
import proofs.«146441_j13108240188139_1_alg».proof.Proof.Args
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg2

open Cert.KernelIdeal Cert.KernelIdeal.Gen Cert.Args
open Idealize.ShloMosaic Idealize.ShloMosaic.TcCoe Idealize.SL.Sem Idealize.ShloMosaic.ValueIdx
open Idealize.ShloMosaic.Pipeline (Dat)
open scoped BigOperators

/-! ## The contraction's operand indices, axis by axis -/

theorem lhs_ax0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem lhs_ax1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ :=
  dot_S2000x128_S128x128_S2000x128_1_0_0_1_n_n.lhsIdx_val_of_single (cl := 1) rfl j k
theorem rhs_ax0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ :=
  dot_S2000x128_S128x128_S2000x128_1_0_0_1_n_n.rhsIdx_val_of_single (cr := 0) rfl j k
theorem rhs_ax1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- A product into the zero accumulator, read at row p and column q, is the sum over the 128 contracted
    positions of the products of the left operand's row p and the right operand's column q. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ κ : Fin 128, A (ix2 p κ) * B (ix2 κ q) := by
  refine (Ideal.matmul_constant_zero_apply dot_S2000x128_S128x128_S2000x128_1_0_0_1_n_n none A B (ix2 p q)).trans ?_
  rw [← Equiv.sum_comp (contrEquiv1 dot_S2000x128_S128x128_S2000x128_1_0_0_1_n_n 128 rfl rfl).symm]
  refine Finset.sum_congr rfl fun κ _ => ?_
  have hl : dot_S2000x128_S128x128_S2000x128_1_0_0_1_n_n.lhsIdx (ix2 p q)
      ((contrEquiv1 dot_S2000x128_S128x128_S2000x128_1_0_0_1_n_n 128 rfl rfl).symm κ) = ix2 p κ := by
    funext a; apply Fin.ext
    match a with
    | ⟨0, _⟩ => exact lhs_ax0 _ _
    | ⟨1, _⟩ => exact (lhs_ax1 _ _).trans (contrEquiv1_symm_val dot_S2000x128_S128x128_S2000x128_1_0_0_1_n_n 128 rfl rfl κ)
  have hr : dot_S2000x128_S128x128_S2000x128_1_0_0_1_n_n.rhsIdx (ix2 p q)
      ((contrEquiv1 dot_S2000x128_S128x128_S2000x128_1_0_0_1_n_n 128 rfl rfl).symm κ) = ix2 κ q := by
    funext a; apply Fin.ext
    match a with
    | ⟨0, _⟩ => exact (rhs_ax0 _ _).trans (contrEquiv1_symm_val dot_S2000x128_S128x128_S2000x128_1_0_0_1_n_n 128 rfl rfl κ)
    | ⟨1, _⟩ => exact rhs_ax1 _ _
  rw [hl, hr]

/-! ## The body's arithmetic at an index -/

/-- The normalized, scaled and shifted entry the body feeds to the product. -/
abbrev nrm (x0 : Vec Ideal S2000x128 .f32) (x1 x2 x3 x4 : Vec Ideal S1x128 .f32) (p : Fin 2000) (κ : Fin 128) : EReal :=
  ((x0 (ix2 p κ) - x1 (ix2 0 κ)) * Ideal.rsqrt (x2 (ix2 0 κ) + Ideal.ofBits .f32 0x3727C5AC#32)) * x3 (ix2 0 κ) + x4 (ix2 0 κ)

theorem pay_at (x0 : Vec Ideal S2000x128 .f32) (x1 x2 x3 x4 : Vec Ideal S1x128 .f32) (x5 : Vec Ideal S128x128 .f32)
    (x6 : Vec Ideal S1x128 .f32) (p : Fin 2000) (q : Fin 128) :
    k2_pay1 (F := Ideal) x0 x1 x2 x3 x4 x5 x6 (ix2 p q)
      = (∑ κ : Fin 128, nrm x0 x1 x2 x3 x4 p κ * x5 (ix2 κ q)) + x6 (ix2 0 q) := by
  unfold k2_pay1
  refine (addf_apply _ _ _).trans (congrArg₂ (· + ·) ?_ ?_)
  · refine (matmul_at _ _ p q).trans (Finset.sum_congr rfl fun κ _ => ?_)
    refine congrArg₂ (· * ·) ?_ rfl
    simp only [truncf_apply, addf_apply, mulf_apply, subf_apply, shapeCast_self, broadcastTo_1b_ab_apply]
    rfl
  · simp only [shapeCast_self, broadcastTo_1b_ab_apply]

/-- The body's result at an index is the specification's linear layer of the normalized input, once each loaded
    block's entries are named as entries of the arrays. -/
theorem pay_spec (x0 : Vec Ideal S2000x128 .f32) (x1 x2 x3 x4 : Vec Ideal S1x128 .f32) (x5 : Vec Ideal S128x128 .f32)
    (x6 : Vec Ideal S1x128 .f32) (H : Fin 50000 → Fin 128 → EReal) (μ v g be : Fin 128 → EReal)
    (W : Fin 128 → Fin 128 → EReal) (b : Fin 128 → EReal) (r : Fin 50000) (p : Fin 2000) (q : Fin 128)
    (h0 : ∀ κ, x0 (ix2 p κ) = H r κ) (h1 : ∀ κ, x1 (ix2 0 κ) = μ κ) (h2 : ∀ κ, x2 (ix2 0 κ) = v κ)
    (h3 : ∀ κ, x3 (ix2 0 κ) = g κ) (h4 : ∀ κ, x4 (ix2 0 κ) = be κ) (h5 : ∀ κ, x5 (ix2 κ q) = W κ q)
    (h6 : x6 (ix2 0 q) = b q) :
    k2_pay1 (F := Ideal) x0 x1 x2 x3 x4 x5 x6 (ix2 p q)
      = Spec.lin (Spec.bn H μ v (Ideal.ofBits .f32 0x3727C5AC#32) g be) W b r q := by
  rw [pay_at]
  unfold Spec.lin Spec.bn
  simp only [nrm, h0, h1, h2, h3, h4, h5, h6]

/-! ## From the blocks to the array -/

variable (V : (c : Dev nD) → (b : Ref sig .tc) → Buf (Elt Ideal) ((c : Thread nD τ).loc b)) (c : Dev nD)

/-- The result over the arrays the region finds. -/
abbrev Out : Fin 50000 → Fin 128 → EReal :=
  Spec.lin (Spec.bn (mat (V c main_v21_0)) (row (V c main_v23)) (row (V c main_v27)) (Ideal.ofBits .f32 0x3727C5AC#32)
    (row (V c main_v11)) (row (V c main_v12))) (mat (V c main_arg11)) (row (V c main_v13))

theorem hz : (![0, 0] : Fin 2 → Nat) = fun _ => 0 :=
  funext fun a => by match a with | ⟨0, _⟩ => rfl | ⟨1, _⟩ => rfl

/-- The index maps over the grid: at point t the two row windows sit at block t, every small array at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The activation's block at point t holds rows 2000 t … 2000 t + 1999 of the array. -/
theorem blk0_at (t : Fin cfg2.N) (p : Fin 2000) (κ : Fin 128) (hr : 2000 * t.val + p.val < 50000) :
    (iblk2 V c 0 t : Vec Ideal S2000x128 .f32) (ix2 p κ) = mat (V c main_v21_0) ⟨2000 * t.val + p.val, hr⟩ κ := by
  obtain ⟨e, e', -⟩ := idx_facts t
  unfold iblk2
  rw [View.read_apply]
  show V c main_v21_0 _ = V c main_v21_0 _
  congr 1
  funext a; apply Fin.ext
  match a with
  | ⟨0, _⟩ => show win2_0.index t (0 : Fin 2) * 2000 + 1 * p.val = 2000 * t.val + p.val; omega
  | ⟨1, _⟩ => show win2_0.index t (1 : Fin 2) * 128 + 1 * κ.val = κ.val; omega

/-- The mean row's block is the whole row at every point. -/
theorem blk1_at (t : Fin cfg2.N) (κ : Fin 128) :
    (iblk2 V c 1 t : Vec Ideal S1x128 .f32) (ix2 0 κ) = row (V c main_v23) κ := by
  obtain ⟨-, -, e, e', -⟩ := idx_facts t
  unfold iblk2
  rw [View.read_apply]
  show V c main_v23 _ = V c main_v23 _
  congr 1
  funext a; apply Fin.ext
  match a with
  | ⟨0, _⟩ => show win2_1.index t (0 : Fin 2) * 1 + 1 * 0 = 0; omega
  | ⟨1, _⟩ => show win2_1.index t (1 : Fin 2) * 128 + 1 * κ.val = κ.val; omega

/-- The weight's block is the whole matrix at every point. -/
theorem blk5_at (t : Fin cfg2.N) (κ q : Fin 128) :
    (iblk2 V c 5 t : Vec Ideal S128x128 .f32) (ix2 κ q) = mat (V c main_arg11) κ q := by
  obtain ⟨-, -, -, -, -, -, -, -, -, -, e, e', -⟩ := idx_facts t
  unfold iblk2
  rw [View.read_apply]
  show V c main_arg11 _ = V c main_arg11 _
  congr 1
  funext a; apply Fin.ext
  match a with
  | ⟨0, _⟩ => show win2_5.index t (0 : Fin 2) * 128 + 1 * κ.val = κ.val; omega
  | ⟨1, _⟩ => show win2_5.index t (1 : Fin 2) * 128 + 1 * q.val = q.val; omega

/-- The variance row's block is the whole row at every point. -/
theorem blk2_at (t : Fin cfg2.N) (κ : Fin 128) :
    (iblk2 V c 2 t : Vec Ideal S1x128 .f32) (ix2 0 κ) = row (V c main_v27) κ := by
  obtain ⟨-, -, -, -, e, e', -⟩ := idx_facts t
  unfold iblk2
  rw [View.read_apply]
  show V c main_v27 _ = V c main_v27 _
  congr 1
  funext a; apply Fin.ext
  match a with
  | ⟨0, _⟩ => show win2_2.index t (0 : Fin 2) * 1 + 1 * 0 = 0; omega
  | ⟨1, _⟩ => show win2_2.index t (1 : Fin 2) * 128 + 1 * κ.val = κ.val; omega

/-- The scale row's block is the whole row at every point. -/
theorem blk3_at (t : Fin cfg2.N) (κ : Fin 128) :
    (iblk2 V c 3 t : Vec Ideal S1x128 .f32) (ix2 0 κ) = row (V c main_v11) κ := by
  obtain ⟨-, -, -, -, -, -, e, e', -⟩ := idx_facts t
  unfold iblk2
  rw [View.read_apply]
  show V c main_v11 _ = V c main_v11 _
  congr 1
  funext a; apply Fin.ext
  match a with
  | ⟨0, _⟩ => show win2_3.index t (0 : Fin 2) * 1 + 1 * 0 = 0; omega
  | ⟨1, _⟩ => show win2_3.index t (1 : Fin 2) * 128 + 1 * κ.val = κ.val; omega

/-- The shift row's block is the whole row at every point. -/
theorem blk4_at (t : Fin cfg2.N) (κ : Fin 128) :
    (iblk2 V c 4 t : Vec Ideal S1x128 .f32) (ix2 0 κ) = row (V c main_v12) κ := by
  obtain ⟨-, -, -, -, -, -, -, -, e, e', -⟩ := idx_facts t
  unfold iblk2
  rw [View.read_apply]
  show V c main_v12 _ = V c main_v12 _
  congr 1
  funext a; apply Fin.ext
  match a with
  | ⟨0, _⟩ => show win2_4.index t (0 : Fin 2) * 1 + 1 * 0 = 0; omega
  | ⟨1, _⟩ => show win2_4.index t (1 : Fin 2) * 128 + 1 * κ.val = κ.val; omega

/-- The bias row's block is the whole row at every point. -/
theorem blk6_at (t : Fin cfg2.N) (κ : Fin 128) :
    (iblk2 V c 6 t : Vec Ideal S1x128 .f32) (ix2 0 κ) = row (V c main_v13) κ := by
  obtain ⟨-, -, -, -, -, -, -, -, -, -, -, -, e, e', -⟩ := idx_facts t
  unfold iblk2
  rw [View.read_apply]
  show V c main_v13 _ = V c main_v13 _
  congr 1
  funext a; apply Fin.ext
  match a with
  | ⟨0, _⟩ => show win2_6.index t (0 : Fin 2) * 1 + 1 * 0 = 0; omega
  | ⟨1, _⟩ => show win2_6.index t (1 : Fin 2) * 128 + 1 * κ.val = κ.val; omega

/-- The result as one function of the array's index. -/
abbrev G : S50000x128.Idx → EReal := fun i => Out V c (i 0) (i 1)

/-- What point t writes back is block t of the result. -/
theorem flushed_eq (t : Fin cfg2.N) :
    (dat2 V c).flushed 7 t = ((cfg2.win 7).blk t).view.read (Elt Ideal) (G V c) := by
  have hN : t.val < 25 := Nat.lt_of_lt_of_eq t.isLt N_2
  obtain ⟨-, -, -, -, -, -, -, -, -, -, -, -, -, -, e, e'⟩ := idx_facts t
  show (cfg2.win 7).cut (grid2.coords t) ((dat2 V c).after 7 t) = _
  rw [after2_7]
  unfold out2_7
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have hr : 2000 * t.val + p.val < 50000 := by have := p.isLt; omega
  have hi : ((cfg2.win 7).blk t).view.emb (ix2 p q) = ix2 (⟨2000 * t.val + p.val, hr⟩ : Fin 50000) q := by
    funext a; apply Fin.ext
    match a with
    | ⟨0, _⟩ => show win2_7.index t (0 : Fin 2) * 2000 + 1 * p.val = 2000 * t.val + p.val; omega
    | ⟨1, _⟩ => show win2_7.index t (1 : Fin 2) * 128 + 1 * q.val = q.val; omega
  show k2_pay1 (F := Ideal) (iblk2 V c 0 t) (iblk2 V c 1 t) (iblk2 V c 2 t) (iblk2 V c 3 t) (iblk2 V c 4 t) (iblk2 V c 5 t)
      (iblk2 V c 6 t) (ix2 p q) = G V c (((cfg2.win 7).blk t).view.emb (ix2 p q))
  rw [hi]
  exact pay_spec (iblk2 V c 0 t) (iblk2 V c 1 t) (iblk2 V c 2 t) (iblk2 V c 3 t) (iblk2 V c 4 t) (iblk2 V c 5 t) (iblk2 V c 6 t)
    (mat (V c main_v21_0)) (row (V c main_v23)) (row (V c main_v27)) (row (V c main_v11)) (row (V c main_v12))
    (mat (V c main_arg11)) (row (V c main_v13)) ⟨2000 * t.val + p.val, hr⟩ p q
    (fun κ => blk0_at V c t p κ hr) (fun κ => blk1_at V c t κ) (fun κ => blk2_at V c t κ) (fun κ => blk3_at V c t κ)
    (fun κ => blk4_at V c t κ) (fun κ => blk5_at V c t κ q) (blk6_at V c t q)

/-- An index of the array is in point t's block iff each coordinate is in the block's range on its axis. -/
theorem mem_blk (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v28).slice (win2_7.rect t)).set ↔ _
  rw [View.set_slice_whole, Rect.mem_set_unit]
  exact Iff.rfl

/-- Every row lies in the block of the point its number divided by 2000 names. -/
theorem cover (i : S50000x128.Idx) :
    ∃ t : Fin cfg2.N, (cfg2.win 7).flush t = true ∧ i ∈ ((cfg2.win 7).blk t).view.set := by
  have h0 : (i 0).val < 50000 := (i 0).isLt
  have h1 : (i 1).val < 128 := (i 1).isLt
  have hN : cfg2.N = 25 := N_2
  have ht : (i 0).val / 2000 < cfg2.N := by rw [hN]; omega
  obtain ⟨-, -, -, -, -, -, -, -, -, -, -, -, -, -, e, e'⟩ := idx_facts ⟨(i 0).val / 2000, ht⟩
  refine ⟨⟨(i 0).val / 2000, ht⟩, flush2_7 _, ?_⟩
  rw [mem_blk]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [e]; show (i 0).val / 2000 * 2000 ≤ (i 0).val ∧ (i 0).val < (i 0).val / 2000 * 2000 + 2000; omega
  | ⟨1, _⟩ =>
    show win2_7.index ⟨(i 0).val / 2000, ht⟩ (1 : Fin 2) * 128 ≤ (i 1).val ∧ (i 1).val < win2_7.index ⟨(i 0).val / 2000, ht⟩ (1 : Fin 2) * 128 + 128
    rw [e']; omega

/-- The array after the region is the result, index by index. -/
theorem final : (dat2 V c).arrAt 7 cfg2.N = G V c :=
  (dat2 V c).arrAt_eq_of_cover 7 (G V c) (fun t _ => flushed_eq V c t) (cover)

/-- The result array after the region. -/
theorem arr7 (p : Fin 50000) (q : Fin 128) :
    ((dat2 V c).arrAt 7 cfg2.N : S50000x128.Idx → EReal) (ix2 p q) = Out V c p q := by
  rw [final V c]

end Cert.KernelIdeal.Reg2

end
-- ==== Proof.KChain.lean ====
/-
  The kernel program's result array over the extended reals, read back through the three regions and the host
  operations between them, GIVEN what each region leaves as a function of the arrays it finds: the first region the
  first activation and its column sums and sums of squares, the second the second activation and its sums, the third
  the result. Between the regions the host divides the sums by 50000 and subtracts the squared mean; before the first
  it aggregates the edge features, cuts the first weight in two and turns each vector into a row. The composition is
  the first arrangement of the node model (Spec.outK) of the argument arrays read by row and feature.
-/
import proofs.«146441_j13108240188139_1_alg».proof.Proof.Gen.KernelIdeal.Frame
import proofs.«146441_j13108240188139_1_alg».proof.Proof.Spec
import proofs.«146441_j13108240188139_1_alg».proof.Proof.Args
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Chain

open Cert.KernelIdeal Cert.KernelIdeal.Gen Cert.Args
open Idealize.ShloMosaic Idealize.ShloMosaic.TcCoe Idealize.SL.Sem Idealize.ShloMosaic.ValueIdx

/-- The aggregation: edge features added into the row of each edge's source node, from zeros. -/
def aggT (a1 : IVec S2x600000 32) (a2 : FVec Ideal S600000x128 .f32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0
      (shapeCast S600000 (extractStridedSlice S1x600000 ![0, 0] a1 slices_S2x600000_S1x600000_0_0) shapeCasts_S1x600000_S600000))
    a2

/-- The references the first stretch of host operations writes. -/
abbrev wr0 : List (Ref sig .tc) :=
  [main_v0, main_v1, main_cst, main_v2, main_v3, main_v4, main_v5, main_v6, main_v7, main_v8, main_v9, main_v10,
    main_v11, main_v12, main_v13]
/-- The references the second stretch writes. -/
abbrev wr1 : List (Ref sig .tc) :=
  [main_cst_0, main_v15, main_v16, main_cst_1, main_v17, main_v18, main_v19, main_v20]
/-- The references the third stretch writes. -/
abbrev wr2 : List (Ref sig .tc) :=
  [main_cst_2, main_v22, main_v23, main_cst_3, main_v24, main_v25, main_v26, main_v27]

/-- A reference the first stretch does not write keeps its contents. -/
theorem keep0 (V : Valuation τ sig (Elt Ideal)) {r : Ref sig .tc} (hr : r ∉ wr0) :
    StableHlo.after hostOps0 V (Proc.devRef .tc r) = V (Proc.devRef .tc r) :=
  StableHlo.after_of_writes_sub hostOps0 V (by
    simp only [List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
/-- A reference the second stretch does not write keeps its contents. -/
theorem keep1 (V : Valuation τ sig (Elt Ideal)) {r : Ref sig .tc} (hr : r ∉ wr1) :
    StableHlo.after hostOps1 V (Proc.devRef .tc r) = V (Proc.devRef .tc r) :=
  StableHlo.after_of_writes_sub hostOps1 V (by
    simp only [List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
/-- A reference the third stretch does not write keeps its contents. -/
theorem keep2 (V : Valuation τ sig (Elt Ideal)) {r : Ref sig .tc} (hr : r ∉ wr2) :
    StableHlo.after hostOps2 V (Proc.devRef .tc r) = V (Proc.devRef .tc r) :=
  StableHlo.after_of_writes_sub hostOps2 V (by
    simp only [List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

/-- The number of rows, 50000, as the kernel's word for it. -/
abbrev cN : EReal := Ideal.ofBits .f32 0x47435000#32

/-- The row of 50000s the host divides by. -/
abbrev cRow : FVec Ideal S1x128 .f32 :=
  broadcastInDim S1x128 ![] bcast_S_S1x128 (constant (F := Ideal) S_ .f32 0x47435000#32)

/-- A row of column sums divided by the row of 50000s is the row of means. -/
theorem mean_of {a : FVec Ideal S1x128 .f32} {H : Fin 50000 → Fin 128 → EReal}
    (ha : ∀ q, a (ix2 0 q) = Spec.colsum H q) : row (Host.divf a cRow) = Spec.meanK cN H :=
  funext fun q => congrArg (Ideal.div · cN) (ha q)

/-- The mean of squares less the squared mean, from the rows of sums and sums of squares. -/
theorem var_of {a b : FVec Ideal S1x128 .f32} {H : Fin 50000 → Fin 128 → EReal}
    (ha : ∀ q, a (ix2 0 q) = Spec.colsum H q) (hb : ∀ q, b (ix2 0 q) = Spec.colsumsq H q) :
    row (subf (Host.divf b cRow) (mulf (Host.divf a cRow) (Host.divf a cRow))) = Spec.varK cN H :=
  funext fun q => by
    show Ideal.div (b (ix2 0 q)) cN - Ideal.div (a (ix2 0 q)) cN * Ideal.div (a (ix2 0 q)) cN = _
    rw [ha, hb]
    rfl

/-- A 128-vector turned into a 1×128 row, read as a row, is the vector. -/
theorem row_shapeCast (x : FVec Ideal S128 .f32) : row (shapeCast S1x128 x shapeCasts_S128_S1x128) = vec x :=
  funext fun q => shapeCast_a_1a_apply x shapeCasts_S128_S1x128 0 q

variable (m : (ℓ : Loc nD τ sig) → Buf (Elt Ideal) ℓ) (ρ : Dev nD → PrngReg) (c : Dev nD)

/-- The first activation over the arrays region 0 finds. -/
abbrev H1 (V : (c : Dev nD) → (b : Ref sig .tc) → Buf (Elt Ideal) ((c : Thread nD τ).loc b)) : Fin 50000 → Fin 128 → EReal :=
  Spec.act (Spec.lin2 (mat (V c main_arg0)) (mat (V c main_v4)) (mat (V c main_v5)) (mat (V c main_v6)) (row (V c main_v7)))
/-- The second activation over the arrays region 1 finds. -/
abbrev H2 (V : (c : Dev nD) → (b : Ref sig .tc) → Buf (Elt Ideal) ((c : Thread nD τ).loc b)) : Fin 50000 → Fin 128 → EReal :=
  Spec.act (Spec.lin (Spec.bn (mat (V c main_v14_0)) (row (V c main_v16)) (row (V c main_v20)) (Ideal.ofBits .f32 0x3727C5AC#32)
    (row (V c main_v8)) (row (V c main_v9))) (mat (V c main_arg7)) (row (V c main_v10)))
/-- The result over the arrays region 2 finds. -/
abbrev Out (V : (c : Dev nD) → (b : Ref sig .tc) → Buf (Elt Ideal) ((c : Thread nD τ).loc b)) : Fin 50000 → Fin 128 → EReal :=
  Spec.lin (Spec.bn (mat (V c main_v21_0)) (row (V c main_v23)) (row (V c main_v27)) (Ideal.ofBits .f32 0x3727C5AC#32)
    (row (V c main_v11)) (row (V c main_v12))) (mat (V c main_arg11)) (row (V c main_v13))

/-! ### What the third stretch of host operations leaves -/

theorem W5_v23 :
    (W5 m ρ c (Proc.devRef .tc main_v23) : FVec Ideal S1x128 .f32)
      = Host.divf (W4 m ρ c (Proc.devRef .tc main_v21_1) : FVec Ideal S1x128 .f32) cRow := by
  show StableHlo.after hostOps2 _ (Proc.devRef .tc main_v23) = _
  after_results

theorem W5_v27 :
    (W5 m ρ c (Proc.devRef .tc main_v27) : FVec Ideal S1x128 .f32)
      = subf (Host.divf (W4 m ρ c (Proc.devRef .tc main_v21_2) : FVec Ideal S1x128 .f32) cRow)
          (mulf (Host.divf (W4 m ρ c (Proc.devRef .tc main_v21_1) : FVec Ideal S1x128 .f32) cRow)
            (Host.divf (W4 m ρ c (Proc.devRef .tc main_v21_1) : FVec Ideal S1x128 .f32) cRow)) := by
  show StableHlo.after hostOps2 _ (Proc.devRef .tc main_v27) = _
  after_results

/-! ### What the second stretch leaves -/

theorem W3_v16 :
    (W3 m ρ c (Proc.devRef .tc main_v16) : FVec Ideal S1x128 .f32)
      = Host.divf (W2 m ρ c (Proc.devRef .tc main_v14_1) : FVec Ideal S1x128 .f32) cRow := by
  show StableHlo.after hostOps1 _ (Proc.devRef .tc main_v16) = _
  after_results

theorem W3_v20 :
    (W3 m ρ c (Proc.devRef .tc main_v20) : FVec Ideal S1x128 .f32)
      = subf (Host.divf (W2 m ρ c (Proc.devRef .tc main_v14_2) : FVec Ideal S1x128 .f32) cRow)
          (mulf (Host.divf (W2 m ρ c (Proc.devRef .tc main_v14_1) : FVec Ideal S1x128 .f32) cRow)
            (Host.divf (W2 m ρ c (Proc.devRef .tc main_v14_1) : FVec Ideal S1x128 .f32) cRow)) := by
  show StableHlo.after hostOps1 _ (Proc.devRef .tc main_v20) = _
  after_results

/-! ### What the first stretch leaves -/

theorem W1_v7 : (W1 m ρ c (Proc.devRef .tc main_v7) : FVec Ideal S1x128 .f32)
    = shapeCast S1x128 (m ((c.tc : Thread nD τ).loc main_arg4) : FVec Ideal S128 .f32) shapeCasts_S128_S1x128 := by
  show StableHlo.after hostOps0 _ (Proc.devRef .tc main_v7) = _
  after_results
  rfl

theorem W1_v8 : (W1 m ρ c (Proc.devRef .tc main_v8) : FVec Ideal S1x128 .f32)
    = shapeCast S1x128 (m ((c.tc : Thread nD τ).loc main_arg5) : FVec Ideal S128 .f32) shapeCasts_S128_S1x128 := by
  show StableHlo.after hostOps0 _ (Proc.devRef .tc main_v8) = _
  after_results
  rfl

theorem W1_v9 : (W1 m ρ c (Proc.devRef .tc main_v9) : FVec Ideal S1x128 .f32)
    = shapeCast S1x128 (m ((c.tc : Thread nD τ).loc main_arg6) : FVec Ideal S128 .f32) shapeCasts_S128_S1x128 := by
  show StableHlo.after hostOps0 _ (Proc.devRef .tc main_v9) = _
  after_results
  rfl

theorem W1_v10 : (W1 m ρ c (Proc.devRef .tc main_v10) : FVec Ideal S1x128 .f32)
    = shapeCast S1x128 (m ((c.tc : Thread nD τ).loc main_arg8) : FVec Ideal S128 .f32) shapeCasts_S128_S1x128 := by
  show StableHlo.after hostOps0 _ (Proc.devRef .tc main_v10) = _
  after_results
  rfl

theorem W1_v11 : (W1 m ρ c (Proc.devRef .tc main_v11) : FVec Ideal S1x128 .f32)
    = shapeCast S1x128 (m ((c.tc : Thread nD τ).loc main_arg9) : FVec Ideal S128 .f32) shapeCasts_S128_S1x128 := by
  show StableHlo.after hostOps0 _ (Proc.devRef .tc main_v11) = _
  after_results
  rfl

theorem W1_v12 : (W1 m ρ c (Proc.devRef .tc main_v12) : FVec Ideal S1x128 .f32)
    = shapeCast S1x128 (m ((c.tc : Thread nD τ).loc main_arg10) : FVec Ideal S128 .f32) shapeCasts_S128_S1x128 := by
  show StableHlo.after hostOps0 _ (Proc.devRef .tc main_v12) = _
  after_results
  rfl

theorem W1_v13 : (W1 m ρ c (Proc.devRef .tc main_v13) : FVec Ideal S1x128 .f32)
    = shapeCast S1x128 (m ((c.tc : Thread nD τ).loc main_arg12) : FVec Ideal S128 .f32) shapeCasts_S128_S1x128 := by
  show StableHlo.after hostOps0 _ (Proc.devRef .tc main_v13) = _
  after_results
  rfl

theorem W1_v4 : (W1 m ρ c (Proc.devRef .tc main_v4) : FVec Ideal S50000x128 .f32)
    = aggT (m ((c.tc : Thread nD τ).loc main_arg1)) (m ((c.tc : Thread nD τ).loc main_arg2)) := by
  show StableHlo.after hostOps0 _ (Proc.devRef .tc main_v4) = _
  after_results
  unfold aggT
  congr 2

theorem W1_v5 : (W1 m ρ c (Proc.devRef .tc main_v5) : FVec Ideal S128x128 .f32)
    = extractStridedSlice S128x128 ![0, 0] (m ((c.tc : Thread nD τ).loc main_arg3) : FVec Ideal S256x128 .f32)
        slices_S256x128_S128x128_0_0 := by
  show StableHlo.after hostOps0 _ (Proc.devRef .tc main_v5) = _
  after_results

theorem W1_v6 : (W1 m ρ c (Proc.devRef .tc main_v6) : FVec Ideal S128x128 .f32)
    = extractStridedSlice S128x128 ![128, 0] (m ((c.tc : Thread nD τ).loc main_arg3) : FVec Ideal S256x128 .f32)
        slices_S256x128_S128x128_128_0 := by
  show StableHlo.after hostOps0 _ (Proc.devRef .tc main_v6) = _
  after_results

/-! ### Walking a buffer back through the stretches and regions that do not write it -/

theorem W3_to_W1 {r : Ref sig .tc} (h1 : r ∉ wr1) (h0 : ∀ w, Pipeline.arrRef spec0 w ≠ r) :
    W3 m ρ c (Proc.devRef .tc r) = W1 m ρ c (Proc.devRef .tc r) :=
  (keep1 (W2 m ρ c) h1).trans (W2_of_ne m ρ c r h0)

theorem W5_to_W3 {r : Ref sig .tc} (h2 : r ∉ wr2) (h1 : ∀ w, Pipeline.arrRef spec1 w ≠ r) :
    W5 m ρ c (Proc.devRef .tc r) = W3 m ρ c (Proc.devRef .tc r) :=
  (keep2 (W4 m ρ c) h2).trans (W4_of_ne m ρ c r h1)

/-! ### The arrays region 0 finds -/

theorem V1_arg0 : (V1 m ρ c main_arg0 : FVec Ideal S50000x128 .f32) = m ((c.tc : Thread nD τ).loc main_arg0) :=
  keep0 (W0 m ρ c) (r := main_arg0) (by decide)

theorem V1_v4 : (V1 m ρ c main_v4 : FVec Ideal S50000x128 .f32)
    = aggT (m ((c.tc : Thread nD τ).loc main_arg1)) (m ((c.tc : Thread nD τ).loc main_arg2)) := W1_v4 m ρ c

theorem mat_V1_v5 : mat (V1 m ρ c main_v5)
    = fun κ q => mat2 (a := 128) (m ((c.tc : Thread nD τ).loc main_arg3)) (Fin.castAdd 128 κ) q := by
  funext κ q
  show (W1 m ρ c (Proc.devRef .tc main_v5) : FVec Ideal S128x128 .f32) (ix2 κ q) = _
  rw [W1_v5]
  exact slice2_axis0_apply 0 _ slices_S256x128_S128x128_0_0 κ q (Fin.castAdd 128 κ) (Nat.zero_add _).symm

theorem mat_V1_v6 : mat (V1 m ρ c main_v6)
    = fun κ q => mat2 (a := 128) (m ((c.tc : Thread nD τ).loc main_arg3)) (Fin.natAdd 128 κ) q := by
  funext κ q
  show (W1 m ρ c (Proc.devRef .tc main_v6) : FVec Ideal S128x128 .f32) (ix2 κ q) = _
  rw [W1_v6]
  exact slice2_axis0_apply 128 _ slices_S256x128_S128x128_128_0 κ q (Fin.natAdd 128 κ) rfl

theorem row_V1_v7 : row (V1 m ρ c main_v7) = vec (m ((c.tc : Thread nD τ).loc main_arg4)) :=
  (congrArg row (W1_v7 m ρ c)).trans (row_shapeCast _)

/-! ### The arrays region 1 finds -/

theorem V3_v14_0 : (V3 m ρ c main_v14_0 : FVec Ideal S50000x128 .f32) = (dat0 (V1 m ρ) c).arrAt 5 cfg0.N :=
  (keep1 (W2 m ρ c) (r := main_v14_0) (by decide)).trans (W2_arr m ρ c 5)

theorem V3_v14_1 : (W2 m ρ c (Proc.devRef .tc main_v14_1) : FVec Ideal S1x128 .f32) = (dat0 (V1 m ρ) c).arrAt 6 cfg0.N :=
  W2_arr m ρ c 6
theorem V3_v14_2 : (W2 m ρ c (Proc.devRef .tc main_v14_2) : FVec Ideal S1x128 .f32) = (dat0 (V1 m ρ) c).arrAt 7 cfg0.N :=
  W2_arr m ρ c 7

section Region1
variable (h05 : ∀ p q, ((dat0 (V1 m ρ) c).arrAt 5 cfg0.N : S50000x128.Idx → EReal) (ix2 p q) = H1 c (V1 m ρ) p q)
variable (h06 : ∀ q, ((dat0 (V1 m ρ) c).arrAt 6 cfg0.N : S1x128.Idx → EReal) (ix2 0 q) = Spec.colsum (H1 c (V1 m ρ)) q)
variable (h07 : ∀ q, ((dat0 (V1 m ρ) c).arrAt 7 cfg0.N : S1x128.Idx → EReal) (ix2 0 q) = Spec.colsumsq (H1 c (V1 m ρ)) q)
include h05 in
theorem mat_V3_v14_0 : mat (V3 m ρ c main_v14_0) = H1 c (V1 m ρ) :=
  funext fun p => funext fun q => (congrFun (V3_v14_0 m ρ c) (ix2 p q)).trans (h05 p q)
include h06 in
theorem row_V3_v16 : row (V3 m ρ c main_v16) = Spec.meanK cN (H1 c (V1 m ρ)) :=
  (congrArg row ((W3_v16 m ρ c).trans (congrArg (Host.divf · cRow) (V3_v14_1 m ρ c)))).trans (mean_of h06)
include h06 h07 in
theorem row_V3_v20 : row (V3 m ρ c main_v20) = Spec.varK cN (H1 c (V1 m ρ)) := by
  refine (congrArg row ((W3_v20 m ρ c).trans ?_)).trans (var_of h06 h07)
  rw [V3_v14_1, V3_v14_2]
end Region1

theorem row_V3_v8 : row (V3 m ρ c main_v8) = vec (m ((c.tc : Thread nD τ).loc main_arg5)) :=
  (congrArg row ((W3_to_W1 m ρ c (r := main_v8) (by decide) (by decide)).trans (W1_v8 m ρ c))).trans (row_shapeCast _)
theorem row_V3_v9 : row (V3 m ρ c main_v9) = vec (m ((c.tc : Thread nD τ).loc main_arg6)) :=
  (congrArg row ((W3_to_W1 m ρ c (r := main_v9) (by decide) (by decide)).trans (W1_v9 m ρ c))).trans (row_shapeCast _)
theorem row_V3_v10 : row (V3 m ρ c main_v10) = vec (m ((c.tc : Thread nD τ).loc main_arg8)) :=
  (congrArg row ((W3_to_W1 m ρ c (r := main_v10) (by decide) (by decide)).trans (W1_v10 m ρ c))).trans (row_shapeCast _)
theorem V3_arg7 : (V3 m ρ c main_arg7 : FVec Ideal S128x128 .f32) = m ((c.tc : Thread nD τ).loc main_arg7) :=
  (W3_to_W1 m ρ c (r := main_arg7) (by decide) (by decide)).trans (keep0 (W0 m ρ c) (r := main_arg7) (by decide))

/-! ### The arrays region 2 finds -/

theorem V5_v21_0 : (V5 m ρ c main_v21_0 : FVec Ideal S50000x128 .f32) = (dat1 (V3 m ρ) c).arrAt 7 cfg1.N :=
  (keep2 (W4 m ρ c) (r := main_v21_0) (by decide)).trans (W4_arr m ρ c 7)
theorem V5_v21_1 : (W4 m ρ c (Proc.devRef .tc main_v21_1) : FVec Ideal S1x128 .f32) = (dat1 (V3 m ρ) c).arrAt 8 cfg1.N :=
  W4_arr m ρ c 8
theorem V5_v21_2 : (W4 m ρ c (Proc.devRef .tc main_v21_2) : FVec Ideal S1x128 .f32) = (dat1 (V3 m ρ) c).arrAt 9 cfg1.N :=
  W4_arr m ρ c 9

section Region2
variable (h17 : ∀ p q, ((dat1 (V3 m ρ) c).arrAt 7 cfg1.N : S50000x128.Idx → EReal) (ix2 p q) = H2 c (V3 m ρ) p q)
variable (h18 : ∀ q, ((dat1 (V3 m ρ) c).arrAt 8 cfg1.N : S1x128.Idx → EReal) (ix2 0 q) = Spec.colsum (H2 c (V3 m ρ)) q)
variable (h19 : ∀ q, ((dat1 (V3 m ρ) c).arrAt 9 cfg1.N : S1x128.Idx → EReal) (ix2 0 q) = Spec.colsumsq (H2 c (V3 m ρ)) q)
include h17 in
theorem mat_V5_v21_0 : mat (V5 m ρ c main_v21_0) = H2 c (V3 m ρ) :=
  funext fun p => funext fun q => (congrFun (V5_v21_0 m ρ c) (ix2 p q)).trans (h17 p q)
include h18 in
theorem row_V5_v23 : row (V5 m ρ c main_v23) = Spec.meanK cN (H2 c (V3 m ρ)) :=
  (congrArg row ((W5_v23 m ρ c).trans (congrArg (Host.divf · cRow) (V5_v21_1 m ρ c)))).trans (mean_of h18)
include h18 h19 in
theorem row_V5_v27 : row (V5 m ρ c main_v27) = Spec.varK cN (H2 c (V3 m ρ)) := by
  refine (congrArg row ((W5_v27 m ρ c).trans ?_)).trans (var_of h18 h19)
  rw [V5_v21_1, V5_v21_2]
end Region2

theorem row_V5_v11 : row (V5 m ρ c main_v11) = vec (m ((c.tc : Thread nD τ).loc main_arg9)) :=
  (congrArg row (((W5_to_W3 m ρ c (r := main_v11) (by decide) (by decide)).trans
    (W3_to_W1 m ρ c (r := main_v11) (by decide) (by decide))).trans (W1_v11 m ρ c))).trans (row_shapeCast _)
theorem row_V5_v12 : row (V5 m ρ c main_v12) = vec (m ((c.tc : Thread nD τ).loc main_arg10)) :=
  (congrArg row (((W5_to_W3 m ρ c (r := main_v12) (by decide) (by decide)).trans
    (W3_to_W1 m ρ c (r := main_v12) (by decide) (by decide))).trans (W1_v12 m ρ c))).trans (row_shapeCast _)
theorem row_V5_v13 : row (V5 m ρ c main_v13) = vec (m ((c.tc : Thread nD τ).loc main_arg12)) :=
  (congrArg row (((W5_to_W3 m ρ c (r := main_v13) (by decide) (by decide)).trans
    (W3_to_W1 m ρ c (r := main_v13) (by decide) (by decide))).trans (W1_v13 m ρ c))).trans (row_shapeCast _)
theorem V5_arg11 : (V5 m ρ c main_arg11 : FVec Ideal S128x128 .f32) = m ((c.tc : Thread nD τ).loc main_arg11) :=
  ((W5_to_W3 m ρ c (r := main_arg11) (by decide) (by decide)).trans
    (W3_to_W1 m ρ c (r := main_arg11) (by decide) (by decide))).trans (keep0 (W0 m ρ c) (r := main_arg11) (by decide))

/-! ### The three levels composed -/

/-- The first activation is the node model's, of the argument arrays. -/
theorem H1_eq : H1 c (V1 m ρ)
    = Spec.act (Spec.lin2 (mat (m ((c.tc : Thread nD τ).loc main_arg0)))
        (mat (aggT (m ((c.tc : Thread nD τ).loc main_arg1)) (m ((c.tc : Thread nD τ).loc main_arg2))))
        (fun κ q => mat2 (a := 128) (m ((c.tc : Thread nD τ).loc main_arg3)) (Fin.castAdd 128 κ) q)
        (fun κ q => mat2 (a := 128) (m ((c.tc : Thread nD τ).loc main_arg3)) (Fin.natAdd 128 κ) q)
        (vec (m ((c.tc : Thread nD τ).loc main_arg4)))) := by
  show Spec.act (Spec.lin2 (mat (V1 m ρ c main_arg0)) (mat (V1 m ρ c main_v4)) (mat (V1 m ρ c main_v5))
    (mat (V1 m ρ c main_v6)) (row (V1 m ρ c main_v7))) = _
  rw [V1_arg0, V1_v4, mat_V1_v5, mat_V1_v6, row_V1_v7]

section Compose
variable (h05 : ∀ p q, ((dat0 (V1 m ρ) c).arrAt 5 cfg0.N : S50000x128.Idx → EReal) (ix2 p q) = H1 c (V1 m ρ) p q)
variable (h06 : ∀ q, ((dat0 (V1 m ρ) c).arrAt 6 cfg0.N : S1x128.Idx → EReal) (ix2 0 q) = Spec.colsum (H1 c (V1 m ρ)) q)
variable (h07 : ∀ q, ((dat0 (V1 m ρ) c).arrAt 7 cfg0.N : S1x128.Idx → EReal) (ix2 0 q) = Spec.colsumsq (H1 c (V1 m ρ)) q)
include h05 h06 h07 in
/-- The second activation, over the first. -/
theorem H2_eq : H2 c (V3 m ρ)
    = Spec.act (Spec.lin (Spec.bn (H1 c (V1 m ρ)) (Spec.meanK cN (H1 c (V1 m ρ))) (Spec.varK cN (H1 c (V1 m ρ)))
        (Ideal.ofBits .f32 0x3727C5AC#32) (vec (m ((c.tc : Thread nD τ).loc main_arg5)))
        (vec (m ((c.tc : Thread nD τ).loc main_arg6)))) (mat (m ((c.tc : Thread nD τ).loc main_arg7)))
        (vec (m ((c.tc : Thread nD τ).loc main_arg8)))) := by
  show Spec.act (Spec.lin (Spec.bn (mat (V3 m ρ c main_v14_0)) (row (V3 m ρ c main_v16)) (row (V3 m ρ c main_v20))
    (Ideal.ofBits .f32 0x3727C5AC#32) (row (V3 m ρ c main_v8)) (row (V3 m ρ c main_v9))) (mat (V3 m ρ c main_arg7))
    (row (V3 m ρ c main_v10))) = _
  rw [mat_V3_v14_0 m ρ c h05, row_V3_v16 m ρ c h06, row_V3_v20 m ρ c h06 h07, row_V3_v8, row_V3_v9, V3_arg7, row_V3_v10]

variable (h17 : ∀ p q, ((dat1 (V3 m ρ) c).arrAt 7 cfg1.N : S50000x128.Idx → EReal) (ix2 p q) = H2 c (V3 m ρ) p q)
variable (h18 : ∀ q, ((dat1 (V3 m ρ) c).arrAt 8 cfg1.N : S1x128.Idx → EReal) (ix2 0 q) = Spec.colsum (H2 c (V3 m ρ)) q)
variable (h19 : ∀ q, ((dat1 (V3 m ρ) c).arrAt 9 cfg1.N : S1x128.Idx → EReal) (ix2 0 q) = Spec.colsumsq (H2 c (V3 m ρ)) q)
include h17 h18 h19 in
/-- The result, over the second activation. -/
theorem Out_eq : Out c (V5 m ρ)
    = Spec.lin (Spec.bn (H2 c (V3 m ρ)) (Spec.meanK cN (H2 c (V3 m ρ))) (Spec.varK cN (H2 c (V3 m ρ)))
        (Ideal.ofBits .f32 0x3727C5AC#32) (vec (m ((c.tc : Thread nD τ).loc main_arg9)))
        (vec (m ((c.tc : Thread nD τ).loc main_arg10)))) (mat (m ((c.tc : Thread nD τ).loc main_arg11)))
        (vec (m ((c.tc : Thread nD τ).loc main_arg12))) := by
  show Spec.lin (Spec.bn (mat (V5 m ρ c main_v21_0)) (row (V5 m ρ c main_v23)) (row (V5 m ρ c main_v27))
    (Ideal.ofBits .f32 0x3727C5AC#32) (row (V5 m ρ c main_v11)) (row (V5 m ρ c main_v12))) (mat (V5 m ρ c main_arg11))
    (row (V5 m ρ c main_v13)) = _
  rw [mat_V5_v21_0 m ρ c h17, row_V5_v23 m ρ c h18, row_V5_v27 m ρ c h18 h19, row_V5_v11, row_V5_v12, V5_arg11, row_V5_v13]
end Compose

/-- The result array after the run, at row p and feature q, given what the three regions leave. -/
theorem out_apply_of
    (h05 : ∀ p q, ((dat0 (V1 m ρ) c).arrAt 5 cfg0.N : S50000x128.Idx → EReal) (ix2 p q) = H1 c (V1 m ρ) p q)
    (h06 : ∀ q, ((dat0 (V1 m ρ) c).arrAt 6 cfg0.N : S1x128.Idx → EReal) (ix2 0 q) = Spec.colsum (H1 c (V1 m ρ)) q)
    (h07 : ∀ q, ((dat0 (V1 m ρ) c).arrAt 7 cfg0.N : S1x128.Idx → EReal) (ix2 0 q) = Spec.colsumsq (H1 c (V1 m ρ)) q)
    (h17 : ∀ p q, ((dat1 (V3 m ρ) c).arrAt 7 cfg1.N : S50000x128.Idx → EReal) (ix2 p q) = H2 c (V3 m ρ) p q)
    (h18 : ∀ q, ((dat1 (V3 m ρ) c).arrAt 8 cfg1.N : S1x128.Idx → EReal) (ix2 0 q) = Spec.colsum (H2 c (V3 m ρ)) q)
    (h19 : ∀ q, ((dat1 (V3 m ρ) c).arrAt 9 cfg1.N : S1x128.Idx → EReal) (ix2 0 q) = Spec.colsumsq (H2 c (V3 m ρ)) q)
    (h27 : ∀ p q, ((dat2 (V5 m ρ) c).arrAt 7 cfg2.N : S50000x128.Idx → EReal) (ix2 p q) = Out c (V5 m ρ) p q)
    (p : Fin 50000) (q : Fin 128) :
    (W6 m ρ c (Proc.devRef .tc main_v28) : S50000x128.Idx → EReal) (ix2 p q)
      = Spec.outK (Ideal.ofBits .f32 0x47435000#32) (Ideal.ofBits .f32 0x3727C5AC#32)
          (mat (m ((c.tc : Thread nD τ).loc main_arg0)))
          (mat (aggT (m ((c.tc : Thread nD τ).loc main_arg1)) (m ((c.tc : Thread nD τ).loc main_arg2))))
          (fun κ q => mat2 (a := 128) (m ((c.tc : Thread nD τ).loc main_arg3)) (Fin.castAdd 128 κ) q)
          (fun κ q => mat2 (a := 128) (m ((c.tc : Thread nD τ).loc main_arg3)) (Fin.natAdd 128 κ) q)
          (vec (m ((c.tc : Thread nD τ).loc main_arg4))) (vec (m ((c.tc : Thread nD τ).loc main_arg5)))
          (vec (m ((c.tc : Thread nD τ).loc main_arg6))) (mat (m ((c.tc : Thread nD τ).loc main_arg7)))
          (vec (m ((c.tc : Thread nD τ).loc main_arg8))) (vec (m ((c.tc : Thread nD τ).loc main_arg9)))
          (vec (m ((c.tc : Thread nD τ).loc main_arg10))) (mat (m ((c.tc : Thread nD τ).loc main_arg11)))
          (vec (m ((c.tc : Thread nD τ).loc main_arg12))) p q := by
  have e6 : (W6 m ρ c (Proc.devRef .tc main_v28) : S50000x128.Idx → EReal) = (dat2 (V5 m ρ) c).arrAt 7 cfg2.N :=
    W6_arr m ρ c 7
  rw [e6, h27 p q, Out_eq m ρ c h17 h18 h19, H2_eq m ρ c h05 h06 h07, H1_eq m ρ c]
  rfl

end Cert.KernelIdeal.Chain

end
-- ==== Proof.KValue.lean ====
/-
  The kernel program's result array over the extended reals: the three regions' values put into the chain through
  the host operations between them. It is the first arrangement of the node model of the argument arrays.
-/
import proofs.«146441_j13108240188139_1_alg».proof.Proof.K0
import proofs.«146441_j13108240188139_1_alg».proof.Proof.K1
import proofs.«146441_j13108240188139_1_alg».proof.Proof.K2
import proofs.«146441_j13108240188139_1_alg».proof.Proof.KChain

set_option maxRecDepth 16384

noncomputable section

namespace Cert.KernelIdeal.Value

open Cert.KernelIdeal Cert.KernelIdeal.Gen Cert.Args
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The result array after the run, at row p and feature q. -/
theorem out_apply (p : Fin 50000) (q : Fin 128) :
    (W6 m ρ c (Proc.devRef .tc main_v28) : S50000x128.Idx → EReal) (ix2 p q)
      = Spec.outK (Ideal.ofBits .f32 0x47435000#32) (Ideal.ofBits .f32 0x3727C5AC#32)
          (mat (m ((c.tc : Thread nD τ).loc main_arg0)))
          (mat (Chain.aggT (m ((c.tc : Thread nD τ).loc main_arg1)) (m ((c.tc : Thread nD τ).loc main_arg2))))
          (fun κ q => mat2 (a := 128) (m ((c.tc : Thread nD τ).loc main_arg3)) (Fin.castAdd 128 κ) q)
          (fun κ q => mat2 (a := 128) (m ((c.tc : Thread nD τ).loc main_arg3)) (Fin.natAdd 128 κ) q)
          (vec (m ((c.tc : Thread nD τ).loc main_arg4))) (vec (m ((c.tc : Thread nD τ).loc main_arg5)))
          (vec (m ((c.tc : Thread nD τ).loc main_arg6))) (mat (m ((c.tc : Thread nD τ).loc main_arg7)))
          (vec (m ((c.tc : Thread nD τ).loc main_arg8))) (vec (m ((c.tc : Thread nD τ).loc main_arg9)))
          (vec (m ((c.tc : Thread nD τ).loc main_arg10))) (mat (m ((c.tc : Thread nD τ).loc main_arg11)))
          (vec (m ((c.tc : Thread nD τ).loc main_arg12))) p q :=
  Chain.out_apply_of m ρ c (Reg0.arr5 (V1 m ρ) c) (Reg0.arr6 (V1 m ρ) c) (Reg0.arr7 (V1 m ρ) c)
    (Reg1.arr7 (V3 m ρ) c) (Reg1.arr8 (V3 m ρ) c) (Reg1.arr9 (V3 m ρ) c) (Reg2.arr7 (V5 m ρ) c) p q

end Cert.KernelIdeal.Value

end
-- ==== Proof.RTerms.lean ====
/-
  The reference program's stages as pure terms of its argument arrays, in the operations the program states:
  the aggregation (a scatter-add of the edge features at the source node of each edge), silu as
  z * (1 / (1 + exp (-z))), the mean of a column as its sum over the rows divided by 50000, the variance as the sum of
  squared deviations divided by 50000 - 0 where that is positive, and a normalized linear layer. The result is their
  composition.
-/
import proofs.«146441_j13108240188139_1_alg».proof.ReferenceIdeal

noncomputable section

namespace Cert.ReferenceIdeal.Terms

open Cert.ReferenceIdeal Idealize.ShloMosaic

variable {F : FTy → Type} [FloatOps F] [Facts]
open Facts₀ Facts

/-- The aggregation: edge features added into the row of each edge's source node, from zeros. -/
def aggT (a1 : IVec S2x600000 32) (a2 : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0
      (shapeCast S600000 (extractStridedSlice S1x600000 ![0, 0] a1 slices_S2x600000_S1x600000_0_0) shapeCasts_S1x600000_S600000))
    a2

/-- silu: z * (1 / (1 + exp (-z))). -/
def siluT (z : FVec F S50000x128 .f32) : FVec F S50000x128 .f32 :=
  mulf z (Host.divf (broadcastInDim S50000x128 ![] bcast_S_S50000x128 (constant S_ .f32 0x3F800000#32))
    (addf (broadcastInDim S50000x128 ![] bcast_S_S50000x128 (constant S_ .f32 0x3F800000#32)) (Host.exp (Host.negf z))))

/-- A vector along the features, as every row of a matrix. -/
def rowsT (v : FVec F S128 .f32) : FVec F S50000x128 .f32 :=
  broadcastInDim S50000x128 ![0, 1] bcast_S1x128_S50000x128_0_1 (broadcastInDim S1x128 ![1] bcast_S128_S1x128_1 v)

/-- The first activation: silu of [x | agg] times the weight, plus the bias. -/
def h1T (a0 : FVec F S50000x128 .f32) (a1 : IVec S2x600000 32) (a2 : FVec F S600000x128 .f32) (a3 : FVec F S256x128 .f32)
    (a4 : FVec F S128 .f32) : FVec F S50000x128 .f32 :=
  siluT (addf
    (Host.dotGeneral dot_S50000x256_S256x128_S50000x128_1_0_0_1_n_n none
      (concatenate S50000x256 1 [⟨S50000x128, a0⟩, ⟨S50000x128, aggT a1 a2⟩] concatenates_S50000x128_S50000x128_S50000x256_d1) a3)
    (rowsT a4))

/-- The column means: the sum over the rows from zero, divided by 50000. -/
def meanT (h : FVec F S50000x128 .f32) : FVec F S128 .f32 :=
  Host.divf (Host.reduceAdd h (constant S_ .f32 0x00000000#32) reducesTo_S50000x128_S128_d0 h_S_)
    (broadcastInDim S128 ![] bcast_S_S128 (constant S_ .f32 0x47435000#32))

/-- The number of rows less the correction 0, as the program computes it. -/
def countT : FVec F S_ .f32 := subf (constant S_ .f32 0x47435000#32) (sitofp .f32 (constantI S_ 32 0#32))

/-- The column variances: the sum of squared deviations from the column mean, divided by the count where it is
    positive. -/
def varT (h : FVec F S50000x128 .f32) : FVec F S128 .f32 :=
  select (broadcastInDim S128 ![] bcast_S_S128 (cmpf .ogt (countT (F := F)) (constant S_ .f32 0x00000000#32)))
    (Host.divf
      (Host.reduceAdd
        (mulf
          (subf h (broadcastInDim S50000x128 ![0, 1] bcast_S1x128_S50000x128_0_1
            (Host.divf (broadcastInDim S1x128 ![1] bcast_S128_S1x128_1
                (Host.reduceAdd h (constant S_ .f32 0x00000000#32) reducesTo_S50000x128_S128_d0 h_S_))
              (broadcastInDim S1x128 ![] bcast_S_S1x128 (constant S_ .f32 0x47435000#32)))))
          (subf h (broadcastInDim S50000x128 ![0, 1] bcast_S1x128_S50000x128_0_1
            (Host.divf (broadcastInDim S1x128 ![1] bcast_S128_S1x128_1
                (Host.reduceAdd h (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (countT (F := F))))
    (broadcastInDim S128 ![] bcast_S_S128 (id (constant S_ .f32 0x7FC00000#32)))

/-- A normalized linear layer: ((h - mean) * rsqrt (var + eps)) * scale + shift, times the weight, plus the bias. -/
def bnlinT (h : FVec F S50000x128 .f32) (μ v g be : FVec F S128 .f32) (W : FVec F S128x128 .f32) (b : FVec F S128 .f32) :
    FVec F S50000x128 .f32 :=
  addf
    (Host.dotGeneral dot_S50000x128_S128x128_S50000x128_1_0_0_1_n_n none
      (addf (mulf (mulf (subf h (rowsT μ))
          (rowsT (Host.rsqrt (addf v (broadcastInDim S128 ![] bcast_S_S128 (constant S_ .f32 0x3727C5AC#32))))))
        (rowsT g)) (rowsT be))
      W)
    (rowsT b)

/-- The program's result. -/
def outT (a0 : FVec F S50000x128 .f32) (a1 : IVec S2x600000 32) (a2 : FVec F S600000x128 .f32) (a3 : FVec F S256x128 .f32)
    (a4 a5 a6 : FVec F S128 .f32) (a7 : FVec F S128x128 .f32) (a8 a9 a10 : FVec F S128 .f32) (a11 : FVec F S128x128 .f32)
    (a12 : FVec F S128 .f32) : FVec F S50000x128 .f32 :=
  bnlinT (siluT (bnlinT (h1T a0 a1 a2 a3 a4) (meanT (h1T a0 a1 a2 a3 a4)) (varT (h1T a0 a1 a2 a3 a4)) a5 a6 a7 a8))
    (meanT (siluT (bnlinT (h1T a0 a1 a2 a3 a4) (meanT (h1T a0 a1 a2 a3 a4)) (varT (h1T a0 a1 a2 a3 a4)) a5 a6 a7 a8)))
    (varT (siluT (bnlinT (h1T a0 a1 a2 a3 a4) (meanT (h1T a0 a1 a2 a3 a4)) (varT (h1T a0 a1 a2 a3 a4)) a5 a6 a7 a8)))
    a9 a10 a11 a12

end Cert.ReferenceIdeal.Terms

end
-- ==== Proof.ROps.lean ====
/-
  The reference program's operations in order, as one list: those of @main, and at each call of a function of
  the module that function's operations over the call's own buffers. The list is cut where a stage ends: the
  first activation, its column means and variances, the second activation, its means and variances, the result.
-/
import proofs.«146441_j13108240188139_1_alg».proof.ReferenceIdeal

noncomputable section

namespace Cert.ReferenceIdeal.RunH

open Cert.ReferenceIdeal Idealize.ShloMosaic Idealize.SL.Sem

variable {F : FTy → Type} [FloatOps F] [Facts]
open Facts₀ Facts

/-- Stage 1: 20 operations, the last writing main_v10. -/
abbrev ops1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.nullary main_cst (constant S_ .f32 0x00000000#32),
    StableHlo.unary main_cst main_v2 (broadcastInDim S50000x128 ![] bcast_S_S50000x128 : (⟨S_, .f32⟩ : BufTy).Contents (Elt F) → (⟨S50000x128, .f32⟩ : BufTy).Contents (Elt F)),
    StableHlo.unary main_v1 main_v3 (broadcastInDim S600000x1 ![0] bcast_S600000_S600000x1_0 : (⟨S600000, .i32⟩ : BufTy).Contents (Elt F) → (⟨S600000x1, .i32⟩ : BufTy).Contents (Elt F)),
    StableHlo.ternary main_v2 main_v3 main_arg2 main_v4 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v4 main_v5 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v5 main_arg3 main_v6 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S50000x128 ![0, 1] bcast_S1x128_S50000x128_0_1 : (⟨S1x128, .f32⟩ : BufTy).Contents (Elt F) → (⟨S50000x128, .f32⟩ : BufTy).Contents (Elt F)),
    StableHlo.binary main_v6 main_v8 main_v9 (addf : (⟨S50000x128, .f32⟩ : BufTy).Contents (Elt F) → (⟨S50000x128, .f32⟩ : BufTy).Contents (Elt F) → (⟨S50000x128, .f32⟩ : BufTy).Contents (Elt F)),
    StableHlo.TRef.unary (.of main_v9) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S50000x128 ![] bcast_S_S50000x128),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S50000x128 ![] bcast_S_S50000x128),
    StableHlo.TRef.binary main_call0.v4 main_call0.v3 main_call0.v5 Host.divf,
    StableHlo.TRef.binary (.of main_v9) main_call0.v5 main_call0.v6 mulf ]

/-- Stage 2: 28 operations, the last writing main_v14. -/
abbrev ops2 : List (HloOp τ sig (Elt F)) :=
  [ StableHlo.nullary main_cst_0 (constant S_ .f32 0x00000000#32),
    StableHlo.binary main_v10 main_cst_0 main_v11 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_1 (constant S_ .f32 0x47435000#32),
    StableHlo.unary main_cst_1 main_v12 (broadcastInDim S128 ![] bcast_S_S128 : (⟨S_, .f32⟩ : BufTy).Contents (Elt F) → (⟨S128, .f32⟩ : BufTy).Contents (Elt F)),
    StableHlo.binary main_v11 main_v12 main_v13 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call1.cst (constant S_ .f32 0x00000000#32),
    StableHlo.TRef.binary (.of main_v10) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v10) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- Stage 3: 29 operations, the last writing main_v34. -/
abbrev ops3 : List (HloOp τ sig (Elt F)) :=
  [ StableHlo.unary main_v13 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v16 main_v17 (subf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x3727C5AC#32),
    StableHlo.unary main_cst_2 main_v18 (broadcastInDim S128 ![] bcast_S_S128 : (⟨S_, .f32⟩ : BufTy).Contents (Elt F) → (⟨S128, .f32⟩ : BufTy).Contents (Elt F)),
    StableHlo.binary main_v14 main_v18 main_v19 (addf : (⟨S128, .f32⟩ : BufTy).Contents (Elt F) → (⟨S128, .f32⟩ : BufTy).Contents (Elt F) → (⟨S128, .f32⟩ : BufTy).Contents (Elt F)),
    StableHlo.unary main_v19 main_v20 (Host.rsqrt : (⟨S128, .f32⟩ : BufTy).Contents (Elt F) → (⟨S128, .f32⟩ : BufTy).Contents (Elt F)),
    StableHlo.unary main_v20 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v22 main_v23 (mulf : (⟨S50000x128, .f32⟩ : BufTy).Contents (Elt F) → (⟨S50000x128, .f32⟩ : BufTy).Contents (Elt F) → (⟨S50000x128, .f32⟩ : BufTy).Contents (Elt F)),
    StableHlo.unary main_arg5 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (mulf : (⟨S50000x128, .f32⟩ : BufTy).Contents (Elt F) → (⟨S50000x128, .f32⟩ : BufTy).Contents (Elt F) → (⟨S50000x128, .f32⟩ : BufTy).Contents (Elt F)),
    StableHlo.unary main_arg6 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)),
    StableHlo.binary main_v29 main_arg7 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    StableHlo.TRef.unary (.of main_v33) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S50000x128 ![] bcast_S_S50000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S50000x128 ![] bcast_S_S50000x128),
    StableHlo.TRef.binary main_call2.v4 main_call2.v3 main_call2.v5 Host.divf,
    StableHlo.TRef.binary (.of main_v33) main_call2.v5 main_call2.v6 mulf ]

/-- Stage 4: 28 operations, the last writing main_v38. -/
abbrev ops4 : List (HloOp τ sig (Elt F)) :=
  [ StableHlo.nullary main_cst_3 (constant S_ .f32 0x00000000#32),
    StableHlo.binary main_v34 main_cst_3 main_v35 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_4 (constant S_ .f32 0x47435000#32),
    StableHlo.unary main_cst_4 main_v36 (broadcastInDim S128 ![] bcast_S_S128 : (⟨S_, .f32⟩ : BufTy).Contents (Elt F) → (⟨S128, .f32⟩ : BufTy).Contents (Elt F)),
    StableHlo.binary main_v35 main_v36 main_v37 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call3.cst (constant S_ .f32 0x00000000#32),
    StableHlo.TRef.binary (.of main_v34) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v34) main_call3.v4 main_call3.v5 subf,
    StableHlo.TRef.binary main_call3.v5 main_call3.v5 main_call3.v6 mulf,
    StableHlo.TRef.unary (.of main_c_5) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

/-- Stage 5: 20 operations, the last writing main_v57. -/
abbrev ops5 : List (HloOp τ sig (Elt F)) :=
  [ StableHlo.unary main_v37 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v40 main_v41 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v42 (broadcastInDim S128 ![] bcast_S_S128 : (⟨S_, .f32⟩ : BufTy).Contents (Elt F) → (⟨S128, .f32⟩ : BufTy).Contents (Elt F)),
    StableHlo.binary main_v38 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v46 main_v47 (mulf : (⟨S50000x128, .f32⟩ : BufTy).Contents (Elt F) → (⟨S50000x128, .f32⟩ : BufTy).Contents (Elt F) → (⟨S50000x128, .f32⟩ : BufTy).Contents (Elt F)),
    StableHlo.unary main_arg9 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg10 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)),
    StableHlo.binary main_v53 main_arg11 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)) ]

/-- All 125 operations. -/
abbrev ops : List (HloOp τ sig (Elt F)) := ops1 ++ ops2 ++ ops3 ++ ops4 ++ ops5

end Cert.ReferenceIdeal.RunH

end
-- ==== Proof.RRun.lean ====
/-
  The reference program's run: its @main, with the functions it calls unfolded at their calls, is one straight line
  of host operations; every weakly fair execution terminates, the result buffer ends at the composition of the
  stages (Terms.outT) of the argument arrays, and the arguments end as launched.
-/
import proofs.«146441_j13108240188139_1_alg».proof.Proof.Gen.ReferenceIdeal
import proofs.«146441_j13108240188139_1_alg».proof.Proof.RTerms
import proofs.«146441_j13108240188139_1_alg».proof.Proof.ROps
import Idealize.ShloMosaic.Lib.StableHlo.Run

noncomputable section

namespace Cert.ReferenceIdeal.RunH

open Cert.ReferenceIdeal Cert.ReferenceIdeal.Gen Idealize.ShloMosaic Idealize.ShloMosaic.StableHlo Idealize.SL.Sem

variable {F : FTy → Type} [FloatOps F]

section Line

open Idealize.ShloMosaic.TcCoe

/-! ## The program is the line of its operations -/

set_option maxRecDepth 8192 in
/-- @main is the straight line ops: with the called functions' bodies unfolded at their calls and the calls' records
    at their fields, both sides are one chain of steps once sequencing is re-associated. -/
theorem main_eq (c : Dev nD) : main (F := F) c = seq ops := by
  simp only [main, main_part0, main_part1, fn_silu.body, fn_var.body, fn_where.body, ops, ops1, ops2, ops3, ops4, ops5,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

theorem ops1_sub : (ops1 : List (HloOp τ sig (Elt F))).Forall fun op => op.bufs ⊆ tcRefs τ sig :=
  ⟨unary_bufs_sub .., reshape_bufs_sub .., nullary_bufs_sub .., unary_bufs_sub .., unary_bufs_sub ..,
    ternary_bufs_sub .., binary_bufs_sub .., binary_bufs_sub .., unary_bufs_sub .., unary_bufs_sub ..,
    binary_bufs_sub .., unary_bufs_sub .., unary_bufs_sub .., nullary_bufs_sub .., unary_bufs_sub ..,
    binary_bufs_sub .., nullary_bufs_sub .., unary_bufs_sub .., binary_bufs_sub .., binary_bufs_sub ..⟩

theorem ops1_fresh : ∀ op ∈ (ops1 : List (HloOp τ sig (Elt F))), op.fresh = ∅ := by
  intro _ h; (repeat (cases h with | head => rfl | tail _ h => ?_)); exact nomatch h

theorem ops2_sub : (ops2 : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩

theorem ops2_fresh : ∀ op ∈ (ops2 : List (HloOp τ sig (Elt F))), op.fresh = ∅ := by
  intro _ h; (repeat (cases h with | head => rfl | tail _ h => ?_)); exact nomatch h

theorem ops3_sub : (ops3 : List (HloOp τ sig (Elt F))).Forall fun op => op.bufs ⊆ tcRefs τ sig :=
  ⟨unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub .., binary_bufs_sub .., unary_bufs_sub .., unary_bufs_sub .., binary_bufs_sub ..,
    unary_bufs_sub .., unary_bufs_sub .., nullary_bufs_sub .., unary_bufs_sub .., binary_bufs_sub ..,
    nullary_bufs_sub .., unary_bufs_sub .., binary_bufs_sub .., binary_bufs_sub ..⟩

theorem ops3_fresh : ∀ op ∈ (ops3 : List (HloOp τ sig (Elt F))), op.fresh = ∅ := by
  intro _ h; (repeat (cases h with | head => rfl | tail _ h => ?_)); exact nomatch h

theorem ops4_sub : (ops4 : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩

theorem ops4_fresh : ∀ op ∈ (ops4 : List (HloOp τ sig (Elt F))), op.fresh = ∅ := by
  intro _ h; (repeat (cases h with | head => rfl | tail _ h => ?_)); exact nomatch h

theorem ops5_sub : (ops5 : List (HloOp τ sig (Elt F))).Forall fun op => op.bufs ⊆ tcRefs τ sig :=
  ⟨unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub .., binary_bufs_sub .., unary_bufs_sub .., unary_bufs_sub .., binary_bufs_sub ..⟩

theorem ops5_fresh : ∀ op ∈ (ops5 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  simp only [ops, List.forall_append]
  exact ⟨⟨⟨⟨ops1_sub, ops2_sub⟩, ops3_sub⟩, ops4_sub⟩, ops5_sub⟩

theorem ops_fresh : ∀ op ∈ (ops : List (HloOp τ sig (Elt F))), op.fresh = ∅ := by
  intro op h
  simp only [ops, List.mem_append] at h
  rcases h with (((h | h) | h) | h) | h
  exacts [ops1_fresh op h, ops2_fresh op h, ops3_fresh op h, ops4_fresh op h, ops5_fresh op h]

/-- Every weakly fair execution terminates with each buffer at the fold of the operations over its launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each stage leaves, from any contents

Each stage is read from an arbitrary valuation W: its result buffers hold the stage's term of what W holds at the
buffers the stage reads, and the buffers a later stage still reads are left as W has them. -/

/-- Two lines of operations run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Stage 1 leaves the first activation of the arguments. -/
theorem stage1 (W : Valuation τ sig (Elt F)) :
    after ops1 W (main_v10 : DevRef τ sig)
      = Terms.h1T (W (main_arg0 : DevRef τ sig)) (W (main_arg1 : DevRef τ sig)) (W (main_arg2 : DevRef τ sig))
          (W (main_arg3 : DevRef τ sig)) (W (main_arg4 : DevRef τ sig)) := by
  after_results_simp
  rfl

/-- Stage 2 leaves the column means of the activation it reads. -/
theorem stage2_mean (W : Valuation τ sig (Elt F)) :
    after ops2 W (main_v13 : DevRef τ sig) = Terms.meanT (W (main_v10 : DevRef τ sig)) := by
  after_results_simp
  rfl

/-- Stage 2 leaves the column variances of the activation it reads. -/
theorem stage2_var (W : Valuation τ sig (Elt F)) :
    after ops2 W (main_v14 : DevRef τ sig) = Terms.varT (W (main_v10 : DevRef τ sig)) := by
  after_results_simp
  rfl

/-- Stage 3 leaves silu of the normalized linear layer of the activation, the means and the variances it reads. -/
theorem stage3 (W : Valuation τ sig (Elt F)) :
    after ops3 W (main_v34 : DevRef τ sig)
      = Terms.siluT (Terms.bnlinT (W (main_v10 : DevRef τ sig)) (W (main_v13 : DevRef τ sig)) (W (main_v14 : DevRef τ sig))
          (W (main_arg5 : DevRef τ sig)) (W (main_arg6 : DevRef τ sig)) (W (main_arg7 : DevRef τ sig))
          (W (main_arg8 : DevRef τ sig))) := by
  after_results_simp
  rfl

/-- Stage 4 leaves the column means of the activation it reads. -/
theorem stage4_mean (W : Valuation τ sig (Elt F)) :
    after ops4 W (main_v37 : DevRef τ sig) = Terms.meanT (W (main_v34 : DevRef τ sig)) := by
  after_results_simp
  rfl

/-- Stage 4 leaves the column variances of the activation it reads. -/
theorem stage4_var (W : Valuation τ sig (Elt F)) :
    after ops4 W (main_v38 : DevRef τ sig) = Terms.varT (W (main_v34 : DevRef τ sig)) := by
  after_results_simp
  rfl

/-- Stage 5 leaves the normalized linear layer of the activation, the means and the variances it reads. -/
theorem stage5 (W : Valuation τ sig (Elt F)) :
    after ops5 W (main_v57 : DevRef τ sig)
      = Terms.bnlinT (W (main_v34 : DevRef τ sig)) (W (main_v37 : DevRef τ sig)) (W (main_v38 : DevRef τ sig))
          (W (main_arg9 : DevRef τ sig)) (W (main_arg10 : DevRef τ sig)) (W (main_arg11 : DevRef τ sig))
          (W (main_arg12 : DevRef τ sig)) := by
  after_results_simp
  rfl

/-- Stage 1 writes none of the arguments' buffers. -/
theorem keep1 (W : Valuation τ sig (Elt F)) :
    after ops1 W (main_arg0 : DevRef τ sig) = W (main_arg0 : DevRef τ sig)
    ∧ after ops1 W (main_arg1 : DevRef τ sig) = W (main_arg1 : DevRef τ sig)
    ∧ after ops1 W (main_arg2 : DevRef τ sig) = W (main_arg2 : DevRef τ sig)
    ∧ after ops1 W (main_arg3 : DevRef τ sig) = W (main_arg3 : DevRef τ sig)
    ∧ after ops1 W (main_arg4 : DevRef τ sig) = W (main_arg4 : DevRef τ sig)
    ∧ after ops1 W (main_arg5 : DevRef τ sig) = W (main_arg5 : DevRef τ sig)
    ∧ after ops1 W (main_arg6 : DevRef τ sig) = W (main_arg6 : DevRef τ sig)
    ∧ after ops1 W (main_arg7 : DevRef τ sig) = W (main_arg7 : DevRef τ sig)
    ∧ after ops1 W (main_arg8 : DevRef τ sig) = W (main_arg8 : DevRef τ sig)
    ∧ after ops1 W (main_arg9 : DevRef τ sig) = W (main_arg9 : DevRef τ sig)
    ∧ after ops1 W (main_arg10 : DevRef τ sig) = W (main_arg10 : DevRef τ sig)
    ∧ after ops1 W (main_arg11 : DevRef τ sig) = W (main_arg11 : DevRef τ sig)
    ∧ after ops1 W (main_arg12 : DevRef τ sig) = W (main_arg12 : DevRef τ sig) := by
  refine ⟨?_, ?_, ?_, ?_, ?_, ?_, ?_, ?_, ?_, ?_, ?_, ?_, ?_⟩ <;> after_results_simp

/-- Stage 2 writes none of the arguments' buffers, nor the first activation's. -/
theorem keep2 (W : Valuation τ sig (Elt F)) :
    after ops2 W (main_arg0 : DevRef τ sig) = W (main_arg0 : DevRef τ sig)
    ∧ after ops2 W (main_arg1 : DevRef τ sig) = W (main_arg1 : DevRef τ sig)
    ∧ after ops2 W (main_arg2 : DevRef τ sig) = W (main_arg2 : DevRef τ sig)
    ∧ after ops2 W (main_arg3 : DevRef τ sig) = W (main_arg3 : DevRef τ sig)
    ∧ after ops2 W (main_arg4 : DevRef τ sig) = W (main_arg4 : DevRef τ sig)
    ∧ after ops2 W (main_arg5 : DevRef τ sig) = W (main_arg5 : DevRef τ sig)
    ∧ after ops2 W (main_arg6 : DevRef τ sig) = W (main_arg6 : DevRef τ sig)
    ∧ after ops2 W (main_arg7 : DevRef τ sig) = W (main_arg7 : DevRef τ sig)
    ∧ after ops2 W (main_arg8 : DevRef τ sig) = W (main_arg8 : DevRef τ sig)
    ∧ after ops2 W (main_arg9 : DevRef τ sig) = W (main_arg9 : DevRef τ sig)
    ∧ after ops2 W (main_arg10 : DevRef τ sig) = W (main_arg10 : DevRef τ sig)
    ∧ after ops2 W (main_arg11 : DevRef τ sig) = W (main_arg11 : DevRef τ sig)
    ∧ after ops2 W (main_arg12 : DevRef τ sig) = W (main_arg12 : DevRef τ sig)
    ∧ after ops2 W (main_v10 : DevRef τ sig) = W (main_v10 : DevRef τ sig) := by
  refine ⟨?_, ?_, ?_, ?_, ?_, ?_, ?_, ?_, ?_, ?_, ?_, ?_, ?_, ?_⟩ <;> after_results_simp

/-- Stage 3 writes none of the arguments' buffers. -/
theorem keep3 (W : Valuation τ sig (Elt F)) :
    after ops3 W (main_arg0 : DevRef τ sig) = W (main_arg0 : DevRef τ sig)
    ∧ after ops3 W (main_arg1 : DevRef τ sig) = W (main_arg1 : DevRef τ sig)
    ∧ after ops3 W (main_arg2 : DevRef τ sig) = W (main_arg2 : DevRef τ sig)
    ∧ after ops3 W (main_arg3 : DevRef τ sig) = W (main_arg3 : DevRef τ sig)
    ∧ after ops3 W (main_arg4 : DevRef τ sig) = W (main_arg4 : DevRef τ sig)
    ∧ after ops3 W (main_arg5 : DevRef τ sig) = W (main_arg5 : DevRef τ sig)
    ∧ after ops3 W (main_arg6 : DevRef τ sig) = W (main_arg6 : DevRef τ sig)
    ∧ after ops3 W (main_arg7 : DevRef τ sig) = W (main_arg7 : DevRef τ sig)
    ∧ after ops3 W (main_arg8 : DevRef τ sig) = W (main_arg8 : DevRef τ sig)
    ∧ after ops3 W (main_arg9 : DevRef τ sig) = W (main_arg9 : DevRef τ sig)
    ∧ after ops3 W (main_arg10 : DevRef τ sig) = W (main_arg10 : DevRef τ sig)
    ∧ after ops3 W (main_arg11 : DevRef τ sig) = W (main_arg11 : DevRef τ sig)
    ∧ after ops3 W (main_arg12 : DevRef τ sig) = W (main_arg12 : DevRef τ sig) := by
  refine ⟨?_, ?_, ?_, ?_, ?_, ?_, ?_, ?_, ?_, ?_, ?_, ?_, ?_⟩ <;> after_results_simp

/-- Stage 4 writes none of the arguments' buffers, nor the second activation's. -/
theorem keep4 (W : Valuation τ sig (Elt F)) :
    after ops4 W (main_arg0 : DevRef τ sig) = W (main_arg0 : DevRef τ sig)
    ∧ after ops4 W (main_arg1 : DevRef τ sig) = W (main_arg1 : DevRef τ sig)
    ∧ after ops4 W (main_arg2 : DevRef τ sig) = W (main_arg2 : DevRef τ sig)
    ∧ after ops4 W (main_arg3 : DevRef τ sig) = W (main_arg3 : DevRef τ sig)
    ∧ after ops4 W (main_arg4 : DevRef τ sig) = W (main_arg4 : DevRef τ sig)
    ∧ after ops4 W (main_arg5 : DevRef τ sig) = W (main_arg5 : DevRef τ sig)
    ∧ after ops4 W (main_arg6 : DevRef τ sig) = W (main_arg6 : DevRef τ sig)
    ∧ after ops4 W (main_arg7 : DevRef τ sig) = W (main_arg7 : DevRef τ sig)
    ∧ after ops4 W (main_arg8 : DevRef τ sig) = W (main_arg8 : DevRef τ sig)
    ∧ after ops4 W (main_arg9 : DevRef τ sig) = W (main_arg9 : DevRef τ sig)
    ∧ after ops4 W (main_arg10 : DevRef τ sig) = W (main_arg10 : DevRef τ sig)
    ∧ after ops4 W (main_arg11 : DevRef τ sig) = W (main_arg11 : DevRef τ sig)
    ∧ after ops4 W (main_arg12 : DevRef τ sig) = W (main_arg12 : DevRef τ sig)
    ∧ after ops4 W (main_v34 : DevRef τ sig) = W (main_v34 : DevRef τ sig) := by
  refine ⟨?_, ?_, ?_, ?_, ?_, ?_, ?_, ?_, ?_, ?_, ?_, ?_, ?_, ?_⟩ <;> after_results_simp

/-- Stage 5 writes none of the arguments' buffers. -/
theorem keep5 (W : Valuation τ sig (Elt F)) :
    after ops5 W (main_arg0 : DevRef τ sig) = W (main_arg0 : DevRef τ sig)
    ∧ after ops5 W (main_arg1 : DevRef τ sig) = W (main_arg1 : DevRef τ sig)
    ∧ after ops5 W (main_arg2 : DevRef τ sig) = W (main_arg2 : DevRef τ sig)
    ∧ after ops5 W (main_arg3 : DevRef τ sig) = W (main_arg3 : DevRef τ sig)
    ∧ after ops5 W (main_arg4 : DevRef τ sig) = W (main_arg4 : DevRef τ sig)
    ∧ after ops5 W (main_arg5 : DevRef τ sig) = W (main_arg5 : DevRef τ sig)
    ∧ after ops5 W (main_arg6 : DevRef τ sig) = W (main_arg6 : DevRef τ sig)
    ∧ after ops5 W (main_arg7 : DevRef τ sig) = W (main_arg7 : DevRef τ sig)
    ∧ after ops5 W (main_arg8 : DevRef τ sig) = W (main_arg8 : DevRef τ sig)
    ∧ after ops5 W (main_arg9 : DevRef τ sig) = W (main_arg9 : DevRef τ sig)
    ∧ after ops5 W (main_arg10 : DevRef τ sig) = W (main_arg10 : DevRef τ sig)
    ∧ after ops5 W (main_arg11 : DevRef τ sig) = W (main_arg11 : DevRef τ sig)
    ∧ after ops5 W (main_arg12 : DevRef τ sig) = W (main_arg12 : DevRef τ sig) := by
  refine ⟨?_, ?_, ?_, ?_, ?_, ?_, ?_, ?_, ?_, ?_, ?_, ?_, ?_⟩ <;> after_results_simp

/-! ## The whole line -/

/-- From any contents V the line leaves the result buffer at the stages' composition of what V holds at the arguments,
    and the arguments as V has them: the valuation between two stages is named, and known only through what the stage
    before it left at the buffers read later. -/
theorem ops_value (V : Valuation τ sig (Elt F)) :
    after ops V (main_v57 : DevRef τ sig) = Terms.outT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig) := by
  simp only [ops, after_app]
  obtain ⟨p0, p1, p2, p3, p4, p5, p6, p7, p8, p9, p10, p11, p12⟩ := keep1 V
  have e1 := stage1 V
  generalize after ops1 V = V1 at *
  obtain ⟨q0, q1, q2, q3, q4, q5, q6, q7, q8, q9, q10, q11, q12, qh⟩ := keep2 V1
  have e2m := stage2_mean V1
  have e2v := stage2_var V1
  generalize after ops2 V1 = V2 at *
  obtain ⟨r0, r1, r2, r3, r4, r5, r6, r7, r8, r9, r10, r11, r12⟩ := keep3 V2
  have e3 := stage3 V2
  generalize after ops3 V2 = V3 at *
  obtain ⟨s0, s1, s2, s3, s4, s5, s6, s7, s8, s9, s10, s11, s12, sh⟩ := keep4 V3
  have e4m := stage4_mean V3
  have e4v := stage4_var V3
  generalize after ops4 V3 = V4 at *
  obtain ⟨t0, t1, t2, t3, t4, t5, t6, t7, t8, t9, t10, t11, t12⟩ := keep5 V4
  have e5 := stage5 V4
  generalize after ops5 V4 = V5 at *
  refine ⟨?_, t0.trans (s0.trans (r0.trans (q0.trans p0))),
    t1.trans (s1.trans (r1.trans (q1.trans p1))),
    t2.trans (s2.trans (r2.trans (q2.trans p2))),
    t3.trans (s3.trans (r3.trans (q3.trans p3))),
    t4.trans (s4.trans (r4.trans (q4.trans p4))),
    t5.trans (s5.trans (r5.trans (q5.trans p5))),
    t6.trans (s6.trans (r6.trans (q6.trans p6))),
    t7.trans (s7.trans (r7.trans (q7.trans p7))),
    t8.trans (s8.trans (r8.trans (q8.trans p8))),
    t9.trans (s9.trans (r9.trans (q9.trans p9))),
    t10.trans (s10.trans (r10.trans (q10.trans p10))),
    t11.trans (s11.trans (r11.trans (q11.trans p11))),
    t12.trans (s12.trans (r12.trans (q12.trans p12)))⟩
  rw [e5, sh, e4m, e4v, s9, s10, s11, s12, e3, r9, r10, r11, r12, qh, e2m, e2v, q5, q6, q7, q8, q9, q10, q11, q12, e1,
    p5, p6, p7, p8, p9, p10, p11, p12]
  rfl

end Line

/-- Every weakly fair execution of the reference terminates without a fault, with the result at the stages'
    composition of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = Terms.outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => by
      obtain ⟨e, a0, a1, a2, a3, a4, a5, a6, a7, a8, a9, a10, a11, a12⟩ := ops_value (F := F) (launchContents m c)
      exact ⟨(h c main_v57).trans e, (h c main_arg0).trans a0,
        (h c main_arg1).trans a1,
        (h c main_arg2).trans a2,
        (h c main_arg3).trans a3,
        (h c main_arg4).trans a4,
        (h c main_arg5).trans a5,
        (h c main_arg6).trans a6,
        (h c main_arg7).trans a7,
        (h c main_arg8).trans a8,
        (h c main_arg9).trans a9,
        (h c main_arg10).trans a10,
        (h c main_arg11).trans a11,
        (h c main_arg12).trans a12⟩)
    (run_ops m ρ)

end Cert.ReferenceIdeal.RunH

end
-- ==== Proof.Consts.lean ====
/-
  The float words the two programs share, read as extended reals: 50000.0, the normalization's small positive
  constant, 1.0 and 0.0.
-/
import Idealize.ShloMosaic.PureOps.Ideal

noncomputable section

namespace Cert.Consts

open Idealize.ShloMosaic

/-- The word of 50000.0 is the real 50000. -/
theorem n50000 : Ideal.ofBits .f32 0x47435000#32 = ((50000 : ℝ) : EReal) := by
  simp [Ideal.ofBits, Ideal.ieee, -EReal.coe_mul]; norm_num

/-- The word of the normalization's constant is a positive real. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The word of 1.0 is 1. -/
theorem one : Ideal.ofBits .f32 0x3F800000#32 = (1 : EReal) := by
  simp [Ideal.ofBits, Ideal.ieee, -EReal.coe_mul]; norm_num

/-- The word of 0.0 is 0. -/
theorem zero : Ideal.ofBits .f32 0x00000000#32 = (0 : EReal) := by
  simp [Ideal.ofBits, Ideal.ieee]

end Cert.Consts

end
-- ==== Proof.RStat.lean ====
/-
  The reference's column statistics read entry by entry over the extended reals: the mean of a column is its sum from
  the initial value divided by the word of 50000; the variance is the sum of squared deviations from that mean divided
  by the count 50000 - 0 where the count is positive, the word of the quiet not-a-number otherwise.
-/
import proofs.«146441_j13108240188139_1_alg».proof.Proof.RTerms
import proofs.«146441_j13108240188139_1_alg».proof.Proof.Spec
import proofs.«146441_j13108240188139_1_alg».proof.Proof.Args
import proofs.«146441_j13108240188139_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stat

open Cert.ReferenceIdeal Cert.ReferenceIdeal.Terms Cert.Args Idealize.ShloMosaic Idealize.ShloMosaic.ValueIdx
open scoped BigOperators

variable [Facts]
open Facts₀ Facts

/-- The host's column sum read at a feature: the initial value plus the sum over the rows. -/
theorem colsumT_apply (h : FVec Ideal S50000x128 .f32) (w : BitVec 32) (q : Fin 128) :
    Host.reduceAdd (F := Ideal) h (constant S_ .f32 w) reducesTo_S50000x128_S128_d0 h_S_ (ix1 q)
      = Ideal.ofBits .f32 w + ∑ p : Fin 50000, h (ix2 p q) := by
  unfold Host.reduceAdd
  rw [Ideal.hostReduceAdd_def, Ideal.hostReduceAdd_single reducesTo_S50000x128_S128_d0 (by decide)]
  refine congrArg (_ + ·) (Finset.sum_congr rfl fun k _ => ?_)
  exact congrArg h (funext fun a => Fin.ext (by
    match a with
    | ⟨0, _⟩ => rfl
    | ⟨1, _⟩ => rfl))

/-- The column mean at feature q. -/
theorem meanT_apply (h : FVec Ideal S50000x128 .f32) (q : Fin 128) :
    meanT h (ix1 q) = Spec.meanR (Ideal.ofBits .f32 0x00000000#32) (Ideal.ofBits .f32 0x47435000#32) (mat h) q := by
  unfold meanT
  show Ideal.div (Host.reduceAdd (F := Ideal) h (constant S_ .f32 0x00000000#32) reducesTo_S50000x128_S128_d0 h_S_ (ix1 q))
      (Ideal.ofBits .f32 0x47435000#32) = _
  rw [colsumT_apply]
  rfl

/-- The column mean as the variance stage spells it — the column sum laid as one row, divided by the word of 50000
    laid as one row, then laid along every row — read at an entry, is the column mean at that entry's feature. -/
theorem meanRow_apply (h : FVec Ideal S50000x128 .f32) (p : Fin 50000) (q : Fin 128) :
    broadcastInDim S50000x128 ![0, 1] bcast_S1x128_S50000x128_0_1
        (Host.divf (broadcastInDim S1x128 ![1] bcast_S128_S1x128_1
            (Host.reduceAdd (F := Ideal) h (constant S_ .f32 0x00000000#32) reducesTo_S50000x128_S128_d0 h_S_))
          (broadcastInDim S1x128 ![] bcast_S_S1x128 (constant (F := Ideal) S_ .f32 0x47435000#32))) (ix2 p q)
      = Spec.meanR (Ideal.ofBits .f32 0x00000000#32) (Ideal.ofBits .f32 0x47435000#32) (mat h) q := by
  refine (broadcastInDim_apply _ _ _ (ix2 p q) (ix2 (0 : Fin 1) q) (fun a => by
    match a with
    | ⟨0, _⟩ => rfl
    | ⟨1, _⟩ => rfl)).trans ?_
  show Ideal.div (broadcastInDim S1x128 ![1] bcast_S128_S1x128_1
        (Host.reduceAdd (F := Ideal) h (constant S_ .f32 0x00000000#32) reducesTo_S50000x128_S128_d0 h_S_) (ix2 (0 : Fin 1) q))
      (broadcastInDim S1x128 ![] bcast_S_S1x128 (constant (F := Ideal) S_ .f32 0x47435000#32) (ix2 (0 : Fin 1) q)) = _
  rw [broadcastInDim_apply _ _ _ (ix2 (0 : Fin 1) q) (ix1 q) (fun a => by
      match a with
      | ⟨0, _⟩ => rfl),
    broadcastInDim_apply (![] : Fin 0 → Fin S1x128.rank) bcast_S_S1x128 _ (ix2 (0 : Fin 1) q) ix0 (fun a => a.elim0),
    colsumT_apply]
  rfl

/-- The sum over the rows, from the initial value, of the squared deviations from the column mean, read at a feature. -/
theorem sqsum_apply (h : FVec Ideal S50000x128 .f32) (q : Fin 128) :
    Host.reduceAdd (F := Ideal)
        (mulf
          (subf h (broadcastInDim S50000x128 ![0, 1] bcast_S1x128_S50000x128_0_1
            (Host.divf (broadcastInDim S1x128 ![1] bcast_S128_S1x128_1
                (Host.reduceAdd h (constant S_ .f32 0x00000000#32) reducesTo_S50000x128_S128_d0 h_S_))
              (broadcastInDim S1x128 ![] bcast_S_S1x128 (constant S_ .f32 0x47435000#32)))))
          (subf h (broadcastInDim S50000x128 ![0, 1] bcast_S1x128_S50000x128_0_1
            (Host.divf (broadcastInDim S1x128 ![1] bcast_S128_S1x128_1
                (Host.reduceAdd h (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_ (ix1 q)
      = Ideal.ofBits .f32 0x00000000#32
        + ∑ p : Fin 50000,
            (mat h p q - Spec.meanR (Ideal.ofBits .f32 0x00000000#32) (Ideal.ofBits .f32 0x47435000#32) (mat h) q)
              * (mat h p q - Spec.meanR (Ideal.ofBits .f32 0x00000000#32) (Ideal.ofBits .f32 0x47435000#32) (mat h) q) := by
  rw [colsumT_apply]
  refine congrArg (_ + ·) (Finset.sum_congr rfl fun p _ => ?_)
  refine (mulf_apply _ _ _).trans ?_
  have e := meanRow_apply h p q
  refine congrArg₂ (· * ·) ?_ ?_
  · exact (subf_apply _ _ _).trans (congrArg (h (ix2 p q) - ·) e)
  · exact (subf_apply _ _ _).trans (congrArg (h (ix2 p q) - ·) e)

/-- The count, laid along the features, read at a feature: the word of 50000 less the integer 0 as a real. -/
theorem count_apply (q : Fin 128) :
    broadcastInDim S128 ![] bcast_S_S128 (countT (F := Ideal)) (ix1 q)
      = Ideal.ofBits .f32 0x47435000#32 - (((0#32 : BitVec 32).toInt : ℝ) : EReal) :=
  (broadcastInDim_apply _ _ _ (ix1 q) ix0 (fun a => a.elim0)).trans rfl

/-- The guard, laid along the features, read at a feature: the bit of "0 is below the count". -/
theorem guard_apply (q : Fin 128) :
    broadcastInDim S128 ![] bcast_S_S128 (cmpf .ogt (countT (F := Ideal)) (constant S_ .f32 0x00000000#32)) (ix1 q)
      = BitVec.ofBool (decide ((0 : EReal) < Ideal.ofBits .f32 0x47435000#32 - (((0#32 : BitVec 32).toInt : ℝ) : EReal))) := by
  refine (broadcastInDim_apply _ _ _ (ix1 q) ix0 (fun a => a.elim0)).trans ?_
  show Ideal.cmp .ogt (Ideal.ofBits .f32 0x47435000#32 - (((0#32 : BitVec 32).toInt : ℝ) : EReal))
      (Ideal.ofBits .f32 0x00000000#32) = _
  rw [Cert.Consts.zero]
  rfl

/-- The value where the guard fails, laid along the features, read at a feature: the quiet not-a-number's word. -/
theorem fill_apply (q : Fin 128) :
    broadcastInDim S128 ![] bcast_S_S128 (id (constant (F := Ideal) S_ .f32 0x7FC00000#32)) (ix1 q)
      = Ideal.ofBits .f32 0x7FC00000#32 :=
  (broadcastInDim_apply _ _ _ (ix1 q) ix0 (fun a => a.elim0)).trans rfl

/-- The column variance at feature q. -/
theorem varT_apply (h : FVec Ideal S50000x128 .f32) (q : Fin 128) :
    varT h (ix1 q) = Spec.varR (Ideal.ofBits .f32 0x00000000#32) (Ideal.ofBits .f32 0x47435000#32)
      ((((0#32 : BitVec 32).toInt : ℝ) : EReal)) (Ideal.ofBits .f32 0x7FC00000#32) (mat h) q := by
  unfold varT
  refine (select_apply _ _ _ (ix1 q)).trans ?_
  rw [guard_apply q, fill_apply q]
  show Scalar.select _ (Ideal.div (Host.reduceAdd (F := Ideal) _ (constant S_ .f32 0x00000000#32) reducesTo_S50000x128_S128_d0 h_S_ (ix1 q))
      (broadcastInDim S128 ![] bcast_S_S128 (countT (F := Ideal)) (ix1 q))) _ = _
  rw [sqsum_apply h q, count_apply q]
  unfold Spec.varR
  by_cases hg : (0 : EReal) < Ideal.ofBits .f32 0x47435000#32 - (((0#32 : BitVec 32).toInt : ℝ) : EReal)
  · rw [if_pos hg, decide_eq_true hg]
    show Scalar.select 1#1 _ _ = _
    rw [select_one]
  · rw [if_neg hg, decide_eq_false hg]
    show Scalar.select 0#1 _ _ = _
    rw [select_zero]

end Cert.ReferenceIdeal.Stat

end
-- ==== Proof.RValue.lean ====
/-
  The reference's stages read entry by entry over the extended reals: the result is the second arrangement of the
  node model (Spec.outR) of the argument arrays read by row and feature, the aggregation kept as one array.

  Stage by stage: silu is z times logistic z; a vector laid along the rows reads its own coordinate; a product of
  two matrices reads the sum over the inner coordinate of the products of the entries; the row [x | agg] reads x on
  the first 128 columns and agg on the last 128, so the first layer is the sum over 128 + 128 columns against the
  whole weight; a normalized linear layer is the linear layer of the normalization. The column statistics are read
  in the statistics module. The result is the composition of these equalities of functions of a row and a feature.
-/
import proofs.«146441_j13108240188139_1_alg».proof.Proof.RTerms
import proofs.«146441_j13108240188139_1_alg».proof.Proof.RStat
import proofs.«146441_j13108240188139_1_alg».proof.Proof.Spec
import proofs.«146441_j13108240188139_1_alg».proof.Proof.Args
import proofs.«146441_j13108240188139_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Value

open Cert.ReferenceIdeal Cert.ReferenceIdeal.Terms Cert.Args Idealize.ShloMosaic Idealize.ShloMosaic.ValueIdx

variable [Facts]
open Facts₀ Facts

/-- silu read at an entry. -/
theorem siluT_apply (z : FVec Ideal S50000x128 .f32) (p : Fin 50000) (q : Fin 128) :
    siluT z (ix2 p q) = Spec.silu (z (ix2 p q)) := by
  show z (ix2 p q) * Ideal.div (Ideal.ofBits .f32 0x3F800000#32)
      (Ideal.ofBits .f32 0x3F800000#32 + Ideal.exp (-(z (ix2 p q)))) = _
  rw [Cert.Consts.one]
  rfl

/-- A vector laid along every row, read at an entry. -/
theorem rowsT_apply (v : FVec Ideal S128 .f32) (p : Fin 50000) (q : Fin 128) :
    rowsT v (ix2 p q) = v (ix1 q) := by
  unfold rowsT
  refine (broadcastInDim_apply _ _ _ (ix2 p q) (ix2 (0 : Fin 1) q) (fun a => by
    match a with
    | ⟨0, _⟩ => rfl
    | ⟨1, _⟩ => rfl)).trans ?_
  exact broadcastInDim_apply _ _ _ (ix2 (0 : Fin 1) q) (ix1 q) (fun a => by
    match a with
    | ⟨0, _⟩ => rfl)

/-- The first layer's product: the left operand is read at the result's row … -/
theorem dotIn_lhs_row (i : S50000x128.Idx) (k : dot_S50000x256_S256x128_S50000x128_1_0_0_1_n_n.contr.Idx) :
    (dot_S50000x256_S256x128_S50000x128_1_0_0_1_n_n.lhsIdx i k 0).val = (i 0).val := by
  unfold DotDims.lhsIdx
  rw [dif_neg (show ¬(0 : Fin S50000x256.rank) ∈ dot_S50000x256_S256x128_S50000x128_1_0_0_1_n_n.lhsBatch from List.not_mem_nil),
    dif_pos (show (0 : Fin S50000x256.rank) ∈ dot_S50000x256_S256x128_S50000x128_1_0_0_1_n_n.lhsNonContracting from List.mem_singleton.mpr rfl)]
  rfl
/-- … and at the contraction coordinate as its column; -/
theorem dotIn_lhs_col (i : S50000x128.Idx) (k : dot_S50000x256_S256x128_S50000x128_1_0_0_1_n_n.contr.Idx) :
    (dot_S50000x256_S256x128_S50000x128_1_0_0_1_n_n.lhsIdx i k 1).val = (k ⟨0, Nat.one_pos⟩).val :=
  dot_S50000x256_S256x128_S50000x128_1_0_0_1_n_n.lhsIdx_val_of_single rfl i k
/-- the right operand at the contraction coordinate as its row … -/
theorem dotIn_rhs_row (i : S50000x128.Idx) (k : dot_S50000x256_S256x128_S50000x128_1_0_0_1_n_n.contr.Idx) :
    (dot_S50000x256_S256x128_S50000x128_1_0_0_1_n_n.rhsIdx i k 0).val = (k ⟨0, Nat.one_pos⟩).val :=
  dot_S50000x256_S256x128_S50000x128_1_0_0_1_n_n.rhsIdx_val_of_single rfl i k
/-- … and at the result's column. -/
theorem dotIn_rhs_col (i : S50000x128.Idx) (k : dot_S50000x256_S256x128_S50000x128_1_0_0_1_n_n.contr.Idx) :
    (dot_S50000x256_S256x128_S50000x128_1_0_0_1_n_n.rhsIdx i k 1).val = (i 1).val := by
  unfold DotDims.rhsIdx
  rw [dif_neg (show ¬(1 : Fin S256x128.rank) ∈ dot_S50000x256_S256x128_S50000x128_1_0_0_1_n_n.rhsBatch from List.not_mem_nil),
    dif_pos (show (1 : Fin S256x128.rank) ∈ dot_S50000x256_S256x128_S50000x128_1_0_0_1_n_n.rhsNonContracting from List.mem_singleton.mpr rfl)]
  rfl

/-- The first layer's product read at an entry: the sum over the 256 inner coordinates of the products. -/
theorem dotIn_apply (x : FVec Ideal S50000x256 .f32) (w : FVec Ideal S256x128 .f32) (p : Fin 50000) (q : Fin 128) :
    Host.dotGeneral (F := Ideal) dot_S50000x256_S256x128_S50000x128_1_0_0_1_n_n none x w (ix2 p q) = ∑ κ : Fin 256, x (ix2 p κ) * w (ix2 κ q) := by
  simp only [Host.dotGeneral]
  rw [Ideal.dotGeneral_apply, ← Equiv.sum_comp (contrEquiv1 dot_S50000x256_S256x128_S50000x128_1_0_0_1_n_n 256 rfl rfl).symm]
  refine Finset.sum_congr rfl fun κ _ => ?_
  have hκ := contrEquiv1_symm_val dot_S50000x256_S256x128_S50000x128_1_0_0_1_n_n 256 rfl rfl κ
  have el : dot_S50000x256_S256x128_S50000x128_1_0_0_1_n_n.lhsIdx (ix2 p q) ((contrEquiv1 dot_S50000x256_S256x128_S50000x128_1_0_0_1_n_n 256 rfl rfl).symm κ) = ix2 p κ :=
    funext fun a => Fin.ext (by
      match a with
      | ⟨0, _⟩ => exact dotIn_lhs_row _ _
      | ⟨1, _⟩ => exact (dotIn_lhs_col _ _).trans hκ)
  have er : dot_S50000x256_S256x128_S50000x128_1_0_0_1_n_n.rhsIdx (ix2 p q) ((contrEquiv1 dot_S50000x256_S256x128_S50000x128_1_0_0_1_n_n 256 rfl rfl).symm κ) = ix2 κ q :=
    funext fun a => Fin.ext (by
      match a with
      | ⟨0, _⟩ => exact (dotIn_rhs_row _ _).trans hκ
      | ⟨1, _⟩ => exact dotIn_rhs_col _ _)
  rw [el, er]

/-- A square layer's product: the left operand is read at the result's row … -/
theorem dotSq_lhs_row (i : S50000x128.Idx) (k : dot_S50000x128_S128x128_S50000x128_1_0_0_1_n_n.contr.Idx) :
    (dot_S50000x128_S128x128_S50000x128_1_0_0_1_n_n.lhsIdx i k 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
/-- … and at the contraction coordinate as its column; -/
theorem dotSq_lhs_col (i : S50000x128.Idx) (k : dot_S50000x128_S128x128_S50000x128_1_0_0_1_n_n.contr.Idx) :
    (dot_S50000x128_S128x128_S50000x128_1_0_0_1_n_n.lhsIdx i k 1).val = (k ⟨0, Nat.one_pos⟩).val :=
  dot_S50000x128_S128x128_S50000x128_1_0_0_1_n_n.lhsIdx_val_of_single rfl i k
/-- the right operand at the contraction coordinate as its row … -/
theorem dotSq_rhs_row (i : S50000x128.Idx) (k : dot_S50000x128_S128x128_S50000x128_1_0_0_1_n_n.contr.Idx) :
    (dot_S50000x128_S128x128_S50000x128_1_0_0_1_n_n.rhsIdx i k 0).val = (k ⟨0, Nat.one_pos⟩).val :=
  dot_S50000x128_S128x128_S50000x128_1_0_0_1_n_n.rhsIdx_val_of_single rfl i k
/-- … and at the result's column. -/
theorem dotSq_rhs_col (i : S50000x128.Idx) (k : dot_S50000x128_S128x128_S50000x128_1_0_0_1_n_n.contr.Idx) :
    (dot_S50000x128_S128x128_S50000x128_1_0_0_1_n_n.rhsIdx i k 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- A square layer's product read at an entry: the sum over the 128 inner coordinates of the products. -/
theorem dotSq_apply (x : FVec Ideal S50000x128 .f32) (w : FVec Ideal S128x128 .f32) (p : Fin 50000) (q : Fin 128) :
    Host.dotGeneral (F := Ideal) dot_S50000x128_S128x128_S50000x128_1_0_0_1_n_n none x w (ix2 p q) = ∑ κ : Fin 128, x (ix2 p κ) * w (ix2 κ q) := by
  simp only [Host.dotGeneral]
  rw [Ideal.dotGeneral_apply, ← Equiv.sum_comp (contrEquiv1 dot_S50000x128_S128x128_S50000x128_1_0_0_1_n_n 128 rfl rfl).symm]
  refine Finset.sum_congr rfl fun κ _ => ?_
  have hκ := contrEquiv1_symm_val dot_S50000x128_S128x128_S50000x128_1_0_0_1_n_n 128 rfl rfl κ
  have el : dot_S50000x128_S128x128_S50000x128_1_0_0_1_n_n.lhsIdx (ix2 p q) ((contrEquiv1 dot_S50000x128_S128x128_S50000x128_1_0_0_1_n_n 128 rfl rfl).symm κ) = ix2 p κ :=
    funext fun a => Fin.ext (by
      match a with
      | ⟨0, _⟩ => exact dotSq_lhs_row _ _
      | ⟨1, _⟩ => exact (dotSq_lhs_col _ _).trans hκ)
  have er : dot_S50000x128_S128x128_S50000x128_1_0_0_1_n_n.rhsIdx (ix2 p q) ((contrEquiv1 dot_S50000x128_S128x128_S50000x128_1_0_0_1_n_n 128 rfl rfl).symm κ) = ix2 κ q :=
    funext fun a => Fin.ext (by
      match a with
      | ⟨0, _⟩ => exact (dotSq_rhs_row _ _).trans hκ
      | ⟨1, _⟩ => exact dotSq_rhs_col _ _)
  rw [el, er]

/-- [x | y] read at a column of the first half is x there … -/
theorem catT_left (x y : FVec Ideal S50000x128 .f32) (p : Fin 50000) (i : Fin 128) :
    concatenate S50000x256 1 [⟨S50000x128, x⟩, ⟨S50000x128, y⟩] concatenates_S50000x128_S50000x128_S50000x256_d1
        (ix2 p (Fin.castAdd 128 i)) = x (ix2 p i) :=
  concatenate_pair_apply_left 1 x y _ (ix2 p (Fin.castAdd 128 i)) rfl (ix2 p i) (fun b => by
    match b with
    | ⟨0, _⟩ => rfl
    | ⟨1, _⟩ => rfl)

/-- … and at a column of the second half is y at that column less 128. -/
theorem catT_right (x y : FVec Ideal S50000x128 .f32) (p : Fin 50000) (i : Fin 128) :
    concatenate S50000x256 1 [⟨S50000x128, x⟩, ⟨S50000x128, y⟩] concatenates_S50000x128_S50000x128_S50000x256_d1
        (ix2 p (Fin.natAdd 128 i)) = y (ix2 p i) :=
  concatenate_pair_apply_right 1 x y _ (ix2 p (Fin.natAdd 128 i)) rfl rfl (ix2 p i) (fun b hb => by
    match b with
    | ⟨0, _⟩ => rfl
    | ⟨1, _⟩ => exact absurd rfl hb) (by
    show i.val + 128 = 128 + i.val
    omega)

/-- The first activation read at an entry: silu of the rows [x | agg] against the whole weight, plus the bias. -/
theorem h1T_apply (a0 : FVec Ideal S50000x128 .f32) (a1 : IVec S2x600000 32) (a2 : FVec Ideal S600000x128 .f32)
    (a3 : FVec Ideal S256x128 .f32) (a4 : FVec Ideal S128 .f32) (p : Fin 50000) (q : Fin 128) :
    h1T a0 a1 a2 a3 a4 (ix2 p q)
      = Spec.act (Spec.linCat (mat a0) (mat (aggT a1 a2)) (mat2 (a := 128) a3) (vec a4)) p q := by
  unfold h1T
  rw [siluT_apply, addf_apply, dotIn_apply, rowsT_apply]
  refine congrArg Spec.silu (congrArg₂ (· + ·) ?_ rfl)
  refine Finset.sum_congr rfl fun κ _ => congrArg₂ (· * ·) ?_ rfl
  refine Fin.addCases (m := 128) (n := 128) (fun i => ?_) (fun i => ?_) κ
  · rw [Fin.addCases_left]; exact catT_left a0 (aggT a1 a2) p i
  · rw [Fin.addCases_right]; exact catT_right a0 (aggT a1 a2) p i

/-- A normalized linear layer read at an entry. -/
theorem bnlinT_apply (h : FVec Ideal S50000x128 .f32) (μ v g be : FVec Ideal S128 .f32) (W : FVec Ideal S128x128 .f32)
    (b : FVec Ideal S128 .f32) (p : Fin 50000) (q : Fin 128) :
    bnlinT h μ v g be W b (ix2 p q)
      = Spec.lin (Spec.bn (mat h) (vec μ) (vec v) (Ideal.ofBits .f32 0x3727C5AC#32) (vec g) (vec be)) (mat W) (vec b) p q := by
  unfold bnlinT
  rw [addf_apply, dotSq_apply, rowsT_apply]
  refine congrArg₂ (· + ·) (Finset.sum_congr rfl fun κ _ => congrArg₂ (· * ·) ?_ rfl) rfl
  rw [addf_apply, mulf_apply, mulf_apply, subf_apply, rowsT_apply, rowsT_apply, rowsT_apply, rowsT_apply]
  rfl

/-- The reference's result at row p and feature q. -/
theorem outT_apply (a0 : FVec Ideal S50000x128 .f32) (a1 : IVec S2x600000 32) (a2 : FVec Ideal S600000x128 .f32)
    (a3 : FVec Ideal S256x128 .f32) (a4 a5 a6 : FVec Ideal S128 .f32) (a7 : FVec Ideal S128x128 .f32)
    (a8 a9 a10 : FVec Ideal S128 .f32) (a11 : FVec Ideal S128x128 .f32) (a12 : FVec Ideal S128 .f32)
    (p : Fin 50000) (q : Fin 128) :
    outT a0 a1 a2 a3 a4 a5 a6 a7 a8 a9 a10 a11 a12 (ix2 p q)
      = Spec.outR (Ideal.ofBits .f32 0x00000000#32) (Ideal.ofBits .f32 0x47435000#32) ((((0#32 : BitVec 32).toInt : ℝ) : EReal))
          (Ideal.ofBits .f32 0x7FC00000#32) (Ideal.ofBits .f32 0x3727C5AC#32)
          (mat a0) (mat (aggT a1 a2)) (mat2 (a := 128) a3) (vec a4) (vec a5) (vec a6) (mat a7) (vec a8) (vec a9) (vec a10)
          (mat a11) (vec a12) p q := by
  -- each stage as an equality of functions of the row and the feature
  have e1 : mat (h1T a0 a1 a2 a3 a4)
      = Spec.act (Spec.linCat (mat a0) (mat (aggT a1 a2)) (mat2 (a := 128) a3) (vec a4)) :=
    funext fun p => funext fun q => h1T_apply a0 a1 a2 a3 a4 p q
  have em : ∀ h : FVec Ideal S50000x128 .f32, vec (meanT h)
      = Spec.meanR (Ideal.ofBits .f32 0x00000000#32) (Ideal.ofBits .f32 0x47435000#32) (mat h) :=
    fun h => funext fun q => Stat.meanT_apply h q
  have ev : ∀ h : FVec Ideal S50000x128 .f32, vec (varT h)
      = Spec.varR (Ideal.ofBits .f32 0x00000000#32) (Ideal.ofBits .f32 0x47435000#32)
          ((((0#32 : BitVec 32).toInt : ℝ) : EReal)) (Ideal.ofBits .f32 0x7FC00000#32) (mat h) :=
    fun h => funext fun q => Stat.varT_apply h q
  have eb : ∀ (h : FVec Ideal S50000x128 .f32) (μ v g be : FVec Ideal S128 .f32) (W : FVec Ideal S128x128 .f32)
      (b : FVec Ideal S128 .f32), mat (bnlinT h μ v g be W b)
      = Spec.lin (Spec.bn (mat h) (vec μ) (vec v) (Ideal.ofBits .f32 0x3727C5AC#32) (vec g) (vec be)) (mat W) (vec b) :=
    fun h μ v g be W b => funext fun p => funext fun q => bnlinT_apply h μ v g be W b p q
  have es : ∀ z : FVec Ideal S50000x128 .f32, mat (siluT z) = Spec.act (mat z) :=
    fun z => funext fun p => funext fun q => siluT_apply z p q
  show mat (outT a0 a1 a2 a3 a4 a5 a6 a7 a8 a9 a10 a11 a12) p q = _
  unfold outT
  rw [eb, em, ev, es, eb, em, ev, e1]
  rfl

end Cert.ReferenceIdeal.Value

end
-- ==== Proof.Finite.lean ====
/-
  Finiteness: where the precondition holds every float argument array has real entries, and a scatter-add of
  real updates into a real array has real entries (each entry is the old one plus a finite sum of updates).
-/
import proofs.«146441_j13108240188139_1_alg».proof.Pre_finite_inputs
import proofs.«146441_j13108240188139_1_alg».proof.Proof.Gen.Pre_finite_inputs
import proofs.«146441_j13108240188139_1_alg».proof.Proof.Spec
import proofs.«146441_j13108240188139_1_alg».proof.Proof.Args
import Idealize.ShloMosaic.Lib.ReduceAll
import Idealize.ShloMosaic.Lib.ValueIdx

noncomputable section

namespace Cert.Finite

open Idealize.ShloMosaic Idealize.ShloMosaic.ValueIdx Cert.Pre_finite_inputs Cert.Args

/-- The shape of rank zero has one index. -/
instance : Subsingleton S_.Idx := ⟨fun a b => funext fun d => d.elim0⟩

/-- A finite sum of real numbers is a real number. -/
theorem sum_real {ι : Type} (s : Finset ι) (f : ι → EReal) (hf : ∀ j, ∃ r : ℝ, f j = (r : EReal)) :
    ∃ r : ℝ, Finset.sum s f = (r : EReal) := by
  classical
  refine Finset.induction_on s ⟨0, by simp⟩ ?_
  intro a s ha ih
  obtain ⟨r, hr⟩ := ih
  obtain ⟨ra, hra⟩ := hf a
  exact ⟨ra + r, by rw [Finset.sum_insert ha, hra, hr, EReal.coe_add]⟩

/-- The one-bit word of a truth value is 1 exactly when the value is true. -/
theorem ofBool_eq_one (b : Bool) : BitVec.ofBool b = 1#1 ↔ b = true := by cases b <;> decide

/-- The word 0x7F800000 is plus infinity. -/
theorem inf_word : Ideal.ofBits .f32 0x7F800000#32 = (⊤ : EReal) := by
  simp [Ideal.ofBits, Ideal.ieee]

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Where all of |x| < +inf reduces to one, every entry of x is real. -/
theorem real_of_all {s : Shape} {axes : List (Fin s.rank)} (x : FVec Ideal s .f32)
    (bc : S_.BroadcastsInDim s (![] : Fin 0 → Fin s.rank)) (red : s.ReducesTo axes S_) (hu : 0 < S_.numel)
    (e : Host.reduce IntOp.andi (cmpf .olt (Host.absf x) (broadcastInDim s ![] bc (constant S_ .f32 0x7F800000#32)))
          (constantI S_ 1 1#1) red hu ix0 = 1#1) (i : s.Idx) : ∃ r : ℝ, x i = (r : EReal) := by
  have hi := Host.reduce_andi_all _ _ red hu ix0 e i
  have hi' : Ideal.cmp .olt (max (x i) (-(x i))) (Ideal.ofBits .f32 0x7F800000#32) = 1#1 := hi
  rw [inf_word] at hi'
  simp only [Ideal.cmp, ofBool_eq_one, decide_eq_true_eq] at hi'
  exact real_of_abs_lt_top (x i) hi'

/-- Where the precondition's function is all ones, every float argument has real entries. -/
theorem real_of_pre (a0 : FVec Ideal S50000x128 .f32) (a1 : IVec S2x600000 32) (a2 : FVec Ideal S600000x128 .f32)
    (a3 : FVec Ideal S256x128 .f32) (a4 a5 a6 : FVec Ideal S128 .f32) (a7 : FVec Ideal S128x128 .f32)
    (a8 a9 a10 : FVec Ideal S128 .f32) (a11 : FVec Ideal S128x128 .f32) (a12 : FVec Ideal S128 .f32)
    (h : fn (F := Ideal) a0 a1 a2 a3 a4 a5 a6 a7 a8 a9 a10 a11 a12 = fun _ => 1#1) :
    Spec.IsReal2 (mat a0) ∧ Spec.IsReal2 (mat a2) ∧ Spec.IsReal2 (mat2 (a := 128) a3) ∧ Spec.IsReal1 (vec a4)
      ∧ Spec.IsReal1 (vec a5) ∧ Spec.IsReal1 (vec a6) ∧ Spec.IsReal2 (mat a7) ∧ Spec.IsReal1 (vec a8)
      ∧ Spec.IsReal1 (vec a9) ∧ Spec.IsReal1 (vec a10) ∧ Spec.IsReal2 (mat a11) ∧ Spec.IsReal1 (vec a12) := by
  have h0 := congrFun h ix0
  dsimp only [fn, fn_part1, fn_part2, fn_part3] at h0
  simp only [Idealize.ShloMosaic.andi, IntOp.andi_eq_one] at h0
  obtain ⟨⟨⟨⟨⟨⟨⟨⟨⟨⟨⟨e0, e2⟩, e3⟩, e4⟩, e5⟩, e6⟩, e7⟩, e8⟩, e9⟩, e10⟩, e11⟩, e12⟩ := h0
  exact ⟨fun p q => real_of_all a0 _ _ _ e0 (ix2 p q), fun p q => real_of_all a2 _ _ _ e2 (ix2 p q),
    fun p q => real_of_all a3 _ _ _ e3 (ix2 p q), fun q => real_of_all a4 _ _ _ e4 (ix1 q),
    fun q => real_of_all a5 _ _ _ e5 (ix1 q), fun q => real_of_all a6 _ _ _ e6 (ix1 q),
    fun p q => real_of_all a7 _ _ _ e7 (ix2 p q), fun q => real_of_all a8 _ _ _ e8 (ix1 q),
    fun q => real_of_all a9 _ _ _ e9 (ix1 q), fun q => real_of_all a10 _ _ _ e10 (ix1 q),
    fun p q => real_of_all a11 _ _ _ e11 (ix2 p q), fun q => real_of_all a12 _ _ _ e12 (ix1 q)⟩

/-- A scatter-add of real updates into a real array is real. -/
theorem scatterAdd_real {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) :
    ∀ i, ∃ r : ℝ, Host.scatterAdd d x idx upd i = (r : EReal) := by
  intro i
  obtain ⟨xr, hxr⟩ := hx i
  show ∃ r : ℝ, Ideal.hostScatterAdd d x idx upd i = (r : EReal)
  unfold Ideal.hostScatterAdd
  obtain ⟨r, hr⟩ := sum_real (Finset.univ.filter (fun j => d.resultIdx? j idx = some i)) upd hu
  exact ⟨xr + r, by rw [hxr, hr, EReal.coe_add]⟩

end Cert.Finite

end
-- ==== Proof.lean ====
/-
  The claims. The word-level kernel and its idealization run, fault-free, to the end with their arguments unchanged
  (the generated frames). The reference is a straight line of host operations: its run, with the result dropped, is
  its frame. The idealization rewrote nothing. Over the extended reals the kernel program's result is the node model
  in the arrangement whose layer statistics are (sum h) / n and (sum h^2) / n - mean^2, and the reference's is the
  arrangement whose variance is (sum (h - mean)^2) / (n - 0) under the guard n - 0 > 0; both aggregate the edge
  features by one and the same scatter-add. Where every float input is finite the aggregation is real (each entry a
  finite sum of reals), so every activation is real, the two variances are the same real number, non-negative, and the
  two arrangements are one function.
-/
import proofs.«146441_j13108240188139_1_alg».proof.Defs
import proofs.«146441_j13108240188139_1_alg».proof.Proof.Gen.Kernel
import proofs.«146441_j13108240188139_1_alg».proof.Proof.Gen.Kernel.Frame
import proofs.«146441_j13108240188139_1_alg».proof.Proof.Gen.KernelIdeal
import proofs.«146441_j13108240188139_1_alg».proof.Proof.Gen.KernelIdeal.Frame
import proofs.«146441_j13108240188139_1_alg».proof.Proof.Gen.ReferenceIdeal
import proofs.«146441_j13108240188139_1_alg».proof.Proof.Gen.Pre_finite_inputs
import proofs.«146441_j13108240188139_1_alg».proof.Proof.KRun
import proofs.«146441_j13108240188139_1_alg».proof.Proof.KValue
import proofs.«146441_j13108240188139_1_alg».proof.Proof.RRun
import proofs.«146441_j13108240188139_1_alg».proof.Proof.RValue
import proofs.«146441_j13108240188139_1_alg».proof.Proof.Spec
import proofs.«146441_j13108240188139_1_alg».proof.Proof.Args
import proofs.«146441_j13108240188139_1_alg».proof.Proof.Consts
import proofs.«146441_j13108240188139_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Args

/-- The two programs aggregate by the same scatter-add of the same operands. -/
theorem agg_eq (a1 : IVec Cert.KernelIdeal.S2x600000 32) (a2 : FVec Ideal Cert.KernelIdeal.S600000x128 .f32) :
    Cert.ReferenceIdeal.Terms.aggT a1 a2 = Cert.KernelIdeal.Chain.aggT a1 a2 := rfl

/-- The aggregation of real edge features is real: zero plus a finite sum of reals. -/
theorem agg_real (a1 : IVec Cert.KernelIdeal.S2x600000 32) (a2 : FVec Ideal Cert.KernelIdeal.S600000x128 .f32)
    (h2 : Cert.Spec.IsReal2 (mat a2)) : Cert.Spec.IsReal2 (mat (Cert.KernelIdeal.Chain.aggT a1 a2)) := by
  intro p q
  refine Cert.Finite.scatterAdd_real _ _ _ _ (fun i => ⟨0, ?_⟩) (fun j => ?_) (ix2 p q)
  · show Ideal.ofBits .f32 0x00000000#32 = _
    rw [Cert.Consts.zero]; rfl
  · rw [eq_ix2 j]; exact h2 _ _

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RunH.run (F := Ideal) m ρ)

theorem preserves : Cert.preserves_Kernel_KernelIdeal := trivial

/-- Both idealized programs end, from memories agreeing on the arguments, with equal results. -/
theorem algebraic : Cert.algebraic_KernelIdeal_ReferenceIdeal := by
  intro m ρ m' ρ' hpre hagree
  refine ⟨fun c => Cert.KernelIdeal.Gen.W6 m ρ c (Proc.devRef .tc Cert.KernelIdeal.main_v28), Cert.KernelIdeal.RunNamed.run_named (F := Ideal) m ρ, ?_⟩
  refine (θ_run (Cert.ReferenceIdeal.defs (F := Ideal)) _ _).mono (fun _ h c => ⟨(h c).1.trans ?_, (h c).2⟩)
    (Cert.ReferenceIdeal.RunH.run (F := Ideal) m' ρ')
  obtain ⟨e0, e1, e2, e3, e4, e5, e6, e7, e8, e9, e10, e11, e12⟩ := hagree c
  rw [e0, e1, e2, e3, e4, e5, e6, e7, e8, e9, e10, e11, e12]
  obtain ⟨r0, r2, r3, r4, r5, r6, r7, r8, -, -, -, -⟩ := Cert.Finite.real_of_pre _ _ _ _ _ _ _ _ _ _ _ _ _ (hpre c)
  show _ = Cert.KernelIdeal.Gen.W6 m ρ c (Proc.devRef .tc Cert.KernelIdeal.main_v28)
  refine Cert.Args.ext2 fun p q => ?_
  rw [Cert.ReferenceIdeal.Value.outT_apply, Cert.KernelIdeal.Value.out_apply, agg_eq]
  refine congrFun (congrFun (Cert.Spec.outR_eq_outK (n := 50000) (d := 128) (by norm_num) Cert.Consts.zero
    (by rw [Cert.Consts.n50000]; norm_num) (by simp) Cert.Consts.eps_pos r0 (agg_real _ _ r2) r3 r4 r5 r6 r7 r8) p) q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
